-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_2000" .f32 0x3A03126F#32 ((1 / 2000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S512 : Shape := ⟨1, ![512]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S10000x2000 : Shape := ⟨2, ![10000, 2000]⟩
abbrev S2000x1024 : Shape := ⟨2, ![2000, 1024]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S10000x2000 : S_.BroadcastsInDim S10000x2000 (![] : Fin 0 → Fin S10000x2000.rank)
  reducesTo_S10000x2000_S_d0_1 : S10000x2000.ReducesTo [0, 1] S_
  bcast_S_S2000x1024 : S_.BroadcastsInDim S2000x1024 (![] : Fin 0 → Fin S2000x1024.rank)
  reducesTo_S2000x1024_S_d0_1 : S2000x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg1 : IVec S512 32) (main_v33 : IVec S_ 1) : IVec S_ 1 :=
  let main_c_12 : IVec S_ 32 := constantI S_ 32 0#32
  let main_v34 : IVec S512 32 := broadcastInDim S512 ![] bcast_S_S512 main_c_12
  let main_v35 : IVec S512 1 := cmpi .sge main_arg1 main_v34
  let main_c_13 : IVec S_ 32 := constantI S_ 32 10000#32
  let main_v36 : IVec S512 32 := broadcastInDim S512 ![] bcast_S_S512 main_c_13
  let main_v37 : IVec S512 1 := cmpi .slt main_arg1 main_v36
  let main_v38 : IVec S512 1 := andi main_v35 main_v37
  let main_c_14 : IVec S_ 1 := constantI S_ 1 1#1
  let main_v39 : IVec S_ 1 := (fun x v => Host.reduce IntOp.andi x v reducesTo_S512_S_d0 h_S_) main_v38 main_c_14
  let main_v40 : IVec S_ 1 := andi main_v33 main_v39
  main_v40

def fn_part1 {F : FTy → Type} [FloatOps F] (main_arg1 : IVec S512 32) (main_arg5 : FVec F S1024 .f32) (main_arg6 : FVec F S10000x2000 .f32) (main_arg7 : FVec F S2000x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S10000x2000 .f32 := Host.absf main_arg6
  let main_cst_8 : FVec F S_ .f32 := constant S_ .f32 0x7F800000#32
  let main_v25 : FVec F S10000x2000 .f32 := broadcastInDim S10000x2000 ![] bcast_S_S10000x2000 main_cst_8
  let main_v26 : IVec S10000x2000 1 := cmpf .olt main_v24 main_v25
  let main_c_9 : IVec S_ 1 := constantI S_ 1 1#1
  let main_v27 : IVec S_ 1 := (fun x v => Host.reduce IntOp.andi x v reducesTo_S10000x2000_S_d0_1 h_S_) main_v26 main_c_9
  let main_v28 : IVec S_ 1 := andi main_v23 main_v27
  let main_v29 : FVec F S2000x1024 .f32 := Host.absf main_arg7
  let main_cst_10 : FVec F S_ .f32 := constant S_ .f32 0x7F800000#32
  let main_v30 : FVec F S2000x1024 .f32 := broadcastInDim S2000x1024 ![] bcast_S_S2000x1024 main_cst_10
  let main_v31 : IVec S2000x1024 1 := cmpf .olt main_v29 main_v30
  let main_c_11 : IVec S_ 1 := constantI S_ 1 1#1
  let main_v32 : IVec S_ 1 := (fun x v => Host.reduce IntOp.andi x v reducesTo_S2000x1024_S_d0_1 h_S_) main_v31 main_c_11
  let main_v33 : IVec S_ 1 := andi main_v28 main_v32
  fn_part2 (F := F) main_arg1 main_v33

def fn {F : FTy → Type} [FloatOps F] (main_arg0 : FVec F S512x4096 .f32) (main_arg1 : IVec S512 32) (main_arg2 : FVec F S4096x4096 .f32) (main_arg3 : FVec F S4096 .f32) (main_arg4 : FVec F S4096x1024 .f32) (main_arg5 : FVec F S1024 .f32) (main_arg6 : FVec F S10000x2000 .f32) (main_arg7 : FVec F S2000x1024 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg1 main_arg5 main_arg6 main_arg7 main_v13 main_v16
-- ==== Kernel.lean ====
abbrev S512x4096 : Shape := ⟨2, ![512, 4096]⟩
abbrev S512 : Shape := ⟨1, ![512]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S10000x2000 : Shape := ⟨2, ![10000, 2000]⟩
abbrev S2000x1024 : Shape := ⟨2, ![2000, 1024]⟩
abbrev S1x4096 : Shape := ⟨2, ![1, 4096]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩
abbrev S_ : Shape := ⟨0, ![]⟩
abbrev S512x1 : Shape := ⟨2, ![512, 1]⟩
abbrev S1 : Shape := ⟨1, ![1]⟩
abbrev S1x1 : Shape := ⟨2, ![1, 1]⟩
abbrev S512x2000 : Shape := ⟨2, ![512, 2000]⟩
abbrev S512x2048 : Shape := ⟨2, ![512, 2048]⟩
abbrev S2048x1024 : Shape := ⟨2, ![2048, 1024]⟩
abbrev S256x1024 : Shape := ⟨2, ![256, 1024]⟩
abbrev S256x512 : Shape := ⟨2, ![256, 512]⟩
abbrev S256x1 : Shape := ⟨2, ![256, 1]⟩
abbrev S256 : Shape := ⟨1, ![256]⟩

abbrev nBuf : Space → Nat
  | .hbm => 50
  | .vmem => 26
  | .smem => 0
  | _ => 0

abbrev bufTy : (tb : Table) → Fin (tcTables nBuf tb) → BufTy
  | .hbm, ⟨0, _⟩ => ⟨S512x4096, .f32⟩
  | .hbm, ⟨1, _⟩ => ⟨S512, .i32⟩
  | .hbm, ⟨2, _⟩ => ⟨S4096x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S10000x2000, .f32⟩
  | .hbm, ⟨7, _⟩ => ⟨S2000x1024, .f32⟩
  | .hbm, ⟨8, _⟩ => ⟨S1x4096, .f32⟩
  | .hbm, ⟨9, _⟩ => ⟨S512x4096, .bf16⟩
  | .hbm, ⟨10, _⟩ => ⟨S1x1024, .f32⟩
  | .hbm, ⟨11, _⟩ => ⟨S512x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S1x1, .i32⟩
  | .hbm, ⟨33, _⟩ => ⟨S512x1, .i32⟩
  | .hbm, ⟨34, _⟩ => ⟨S512x1, .i1⟩
  | .hbm, ⟨35, _⟩ => ⟨S512x1, .i1⟩
  | .hbm, ⟨36, _⟩ => ⟨S_, .i1⟩
  | .hbm, ⟨37, _⟩ => ⟨S512, .i1⟩
  | .hbm, ⟨38, _⟩ => ⟨S512x2000, .f32⟩
  | .hbm, ⟨39, _⟩ => ⟨S512x2000, .i1⟩
  | .hbm, ⟨40, _⟩ => ⟨S_, .f32⟩
  | .hbm, ⟨41, _⟩ => ⟨S512x2000, .f32⟩
  | .hbm, ⟨42, _⟩ => ⟨S512x2000, .f32⟩
  | .hbm, ⟨43, _⟩ => ⟨S_, .i32⟩
  | .hbm, ⟨44, _⟩ => ⟨S_, .f32⟩
  | .hbm, ⟨45, _⟩ => ⟨S512x2048, .f32⟩
  | .hbm, ⟨46, _⟩ => ⟨S_, .i32⟩
  | .hbm, ⟨47, _⟩ => ⟨S_, .f32⟩
  | .hbm, ⟨48, _⟩ => ⟨S2048x1024, .f32⟩
  | .hbm, ⟨49, _⟩ => ⟨S512x1, .f32⟩
  | .local _ .vmem, ⟨0, _⟩ => ⟨S512x4096, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S256x1024, .bf16⟩
  | .local _ .vmem, ⟨18, _⟩ => ⟨S256x1024, .bf16⟩
  | .local _ .vmem, ⟨19, _⟩ => ⟨S512x1024, .f32⟩
  | .local _ .vmem, ⟨20, _⟩ => ⟨S512x1024, .f32⟩
  | .local _ .vmem, ⟨21, _⟩ => ⟨S256x512, .f32⟩
  | .local _ .vmem, ⟨22, _⟩ => ⟨S256x512, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v4 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v5 : Ref sig .tc := ⟨.hbm, 42, rfl⟩
abbrev main_c_1 : Ref sig .tc := ⟨.hbm, 43, rfl⟩
abbrev main_call2_v0 : Ref sig .tc := ⟨.hbm, 44, rfl⟩
abbrev main_v6 : Ref sig .tc := ⟨.hbm, 45, rfl⟩
abbrev main_c_2 : Ref sig .tc := ⟨.hbm, 46, rfl⟩
abbrev main_call3_v0 : Ref sig .tc := ⟨.hbm, 47, rfl⟩
abbrev main_v7 : Ref sig .tc := ⟨.hbm, 48, rfl⟩
abbrev main_v8 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_11 : BitVec 32 := 0#32
  let v21 : BitVec 1 := Scalar.cmpi .ne v20 c0_i32_11
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S1024_S1x1024 : S1024.ShapeCasts S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  packedbf16_S512x512_S512x512_0_0 : (Rect.unit (s := S512x512) ![0, 0] S512x512.size inb_S512x512_S512x512_0_0).PackedRows (EltTy.packing .bf16)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S512x2000_0 : S512.BroadcastsInDim S512x2000 (![0] : Fin 1 → Fin S512x2000.rank)
  bcast_S_S512x2000 : S_.BroadcastsInDim S512x2000 (![] : Fin 0 → Fin S512x2000.rank)
  pads_S512x2000_S512x2048_000_0480 : S512x2000.Pads (![0, 0] : Fin 2 → Nat) ![0, 48] ![0, 0] S512x2048
  pads_S2000x1024_S2048x1024_0480_000 : S2000x1024.Pads (![0, 0] : Fin 2 → Nat) ![48, 0] ![0, 0] S2048x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S256 : S256x512.Reduces [1] S256
  shapeCasts_S256_S256x1 : S256.ShapeCasts S256x1
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  gather_S10000x2000_S512x1_S512x2000_1_0_n_n_0_1_12000_wf : GatherDims.WF S10000x2000 S512x1 S512x2000 [1] [0] [] [0] [] 1 ![1, 2000]
  dot_S256x1024_S512x1024_S256x512_1_1_0_0_n_n_wf : DotDims.WF S256x1024 S512x1024 S256x512 [1] [1] [0] [0] [] []
  hrank0 : 0 < grid0.rank
  k0_mult1_dvd : ∀ i : grid0.Coords, 128 ∣ (k0_mult1 i).toNat
  k0_off1_inb : ∀ i : grid0.Coords, ∀ a, (k0_off1 i) a + S512x1024.size a ≤ S512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x4096.size a
  hwx0_3 : ∀ i : grid0.Coords, EltTy.bits .bf16 = 32 ∨ (Rect.block (s := S512x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x4096.size a
  hwx1_0 : ∀ i : grid1.Coords, EltTy.bits .bf16 = 32 ∨ (Rect.block (s := S512x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x1024.size a
  hwx1_1 : ∀ i : grid1.Coords, EltTy.bits .f32 = 32 ∨ (Rect.block (s := S4096x1024) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x1024.size a
  hwx1_3 : ∀ i : grid1.Coords, EltTy.bits .bf16 = 32 ∨ (Rect.block (s := S512x1024) S512x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S512x1024.size a
  hwx2_0 : ∀ i : grid2.Coords, EltTy.bits .bf16 = 32 ∨ (Rect.block (s := S512x1024) S256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S2048x1024.size a
  hwx2_1 : ∀ i : grid2.Coords, EltTy.bits .f32 = 32 ∨ (Rect.block (s := S2048x1024) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S512x2048.size a
  hwx2_2 : ∀ i : grid2.Coords, EltTy.bits .f32 = 32 ∨ (Rect.block (s := S512x2048) S256x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S512x1.size a
  hwx2_3 : ∀ i : grid2.Coords, EltTy.bits .f32 = 32 ∨ (Rect.block (s := S512x1) S256x1.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def gather_S10000x2000_S512x1_S512x2000_1_0_n_n_0_1_12000 : GatherDims S10000x2000 S512x1 S512x2000 where
  offsetDims := [1]
  collapsedSliceDims := [0]
  operandBatchingDims := []
  startIndicesBatchingDims := []
  startIndexMap := [0]
  indexVectorDim := 1
  sliceSizes := ![1, 2000]
  wf := gather_S10000x2000_S512x1_S512x2000_1_0_n_n_0_1_12000_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S256x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S256x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S512x4096 : Shape := ⟨2, ![512, 4096]⟩
abbrev S512 : Shape := ⟨1, ![512]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S10000x2000 : Shape := ⟨2, ![10000, 2000]⟩
abbrev S2000x1024 : Shape := ⟨2, ![2000, 1024]⟩
abbrev S1x4096 : Shape := ⟨2, ![1, 4096]⟩
abbrev S_ : Shape := ⟨0, ![]⟩
abbrev S512x1024 : Shape := ⟨2, ![512, 1024]⟩
abbrev S1x1024 : Shape := ⟨2, ![1, 1024]⟩
abbrev S512x1 : Shape := ⟨2, ![512, 1]⟩
abbrev S512x2000 : Shape := ⟨2, ![512, 2000]⟩

abbrev nBuf : Space → Nat
  | .hbm => 41
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512, .i32⟩
  | .hbm, ⟨2, _⟩ => ⟨S4096x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S10000x2000, .f32⟩
  | .hbm, ⟨7, _⟩ => ⟨S2000x1024, .f32⟩
  | .hbm, ⟨8, _⟩ => ⟨S512x4096, .f32⟩
  | .hbm, ⟨9, _⟩ => ⟨S1x4096, .f32⟩
  | .hbm, ⟨10, _⟩ => ⟨S512x4096, .f32⟩
  | .hbm, ⟨11, _⟩ => ⟨S512x4096, .f32⟩
  | .hbm, ⟨12, _⟩ => ⟨S_, .f32⟩
  | .hbm, ⟨13, _⟩ => ⟨S_, .f32⟩
  | .hbm, ⟨14, _⟩ => ⟨S512x4096, .f32⟩
  | .hbm, ⟨15, _⟩ => ⟨S512x4096, .i1⟩
  | .hbm, ⟨16, _⟩ => ⟨S_, .f32⟩
  | .hbm, ⟨17, _⟩ => ⟨S512x4096, .f32⟩
  | .hbm, ⟨18, _⟩ => ⟨S512x4096, .f32⟩
  | .hbm, ⟨19, _⟩ => ⟨S512x4096, .f32⟩
  | .hbm, ⟨20, _⟩ => ⟨S512x1024, .f32⟩
  | .hbm, ⟨21, _⟩ => ⟨S1x1024, .f32⟩
  | .hbm, ⟨22, _⟩ => ⟨S512x1024, .f32⟩
  | .hbm, ⟨23, _⟩ => ⟨S512x1024, .f32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x2000, .f32⟩
  | .hbm, ⟨33, _⟩ => ⟨S512x2000, .f32⟩
  | .hbm, ⟨34, _⟩ => ⟨S512x2000, .f32⟩
  | .hbm, ⟨35, _⟩ => ⟨S_, .f32⟩
  | .hbm, ⟨36, _⟩ => ⟨S512, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  bcast_S_S512x4096 : S_.BroadcastsInDim S512x4096 (![] : Fin 0 → Fin S512x4096.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512 : S_.BroadcastsInDim S512 (![] : Fin 0 → Fin S512.rank)
  bcast_S512_S512x1_0 : S512.BroadcastsInDim S512x1 (![0] : Fin 1 → Fin S512x1.rank)
  reducesTo_S512x2000_S512_d1 : S512x2000.ReducesTo [1] S512
  h_S_ : 0 < S_.numel
  bcast_S_S512x1 : S_.BroadcastsInDim S512x1 (![] : Fin 0 → Fin S512x1.rank)
  dot_S512x4096_S4096x4096_S512x4096_1_0_0_1_n_n_wf : DotDims.WF S512x4096 S4096x4096 S512x4096 [1] [0] [0] [1] [] []
  dot_S512x4096_S4096x1024_S512x1024_1_0_0_1_n_n_wf : DotDims.WF S512x4096 S4096x1024 S512x1024 [1] [0] [0] [1] [] []
  gather_S10000x2000_S512x1_S512x2000_1_0_n_n_0_1_12000_wf : GatherDims.WF S10000x2000 S512x1 S512x2000 [1] [0] [] [0] [] 1 ![1, 2000]
  dot_S512x1024_S2000x1024_S512x2000_1_1_0_0_n_n_wf : DotDims.WF S512x1024 S2000x1024 S512x2000 [1] [1] [0] [0] [] []

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def gather_S10000x2000_S512x1_S512x2000_1_0_n_n_0_1_12000 : GatherDims S10000x2000 S512x1 S512x2000 where
  offsetDims := [1]
  collapsedSliceDims := [0]
  operandBatchingDims := []
  startIndicesBatchingDims := []
  startIndexMap := [0]
  indexVectorDim := 1
  sliceSizes := ![1, 2000]
  wf := gather_S10000x2000_S512x1_S512x2000_1_0_n_n_0_1_12000_wf
def dot_S512x1024_S2000x1024_S512x2000_1_1_0_0_n_n : DotDims S512x1024 S2000x1024 S512x2000 where
  lhsContracting := [1]
  rhsContracting := [1]
  lhsNonContracting := [0]
  rhsNonContracting := [0]
  lhsBatch := []
  rhsBatch := []
  wf := dot_S512x1024_S2000x1024_S512x2000_1_1_0_0_n_n_wf

class Facts : Prop extends Facts₀ where

variable [Facts]
-- ==== Proof.WordHiddenData.lean ====
/-
  First dense layer, h = leaky_relu(image · W1 + b1), as a pipeline over a 4 × 4 grid (column tile j of the
  hidden axis, reduction step k): the proof data of the region.

  At point t = 4 j + k the body sees the whole image (resident), the 1024 × 1024 tile (k, j) of W1, the bias
  tile j and the output tile j. A 512 × 1024 accumulator lives in scratch across the four reduction steps:
  at k = 0 it is reset to zero and receives the first partial product, at every later step the next partial
  product is added, and at k = 3 the bias is added, the leaky rectifier applied and the tile stored.
  This file only NAMES these contents (the accumulator after every point, the stored tile, the region
  invariant holding the accumulator between points) and packages them as the pipeline's proof data.
-/
import proofs.«408419_j40879498728834_3_alg».proof.Proof.Gen.Kernel.Launch
import proofs.«408419_j40879498728834_3_alg».proof.Proof.Gen.Kernel.Skeleton
import proofs.«408419_j40879498728834_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 512 × 1024 column band of the resident image that reduction step `i 1` multiplies: columns
    1024·k … 1024·k + 1023. -/
def band0 (i : grid0.Coords) (x : Vec F S512x4096 .f32) : Vec F S512x1024 .f32 :=
  View.ld x (Rect.unit (s := S512x4096) (k0_off1 i) S512x1024.size (k0_off1_inb i))

/-- The accumulator after point `n`: at a first reduction step the partial product over zero, afterwards
    the partial product over what the point before left. -/
def acc0 (c : Dev nD) : (n : ℕ) → n < cfg0.N → Vec F S512x1024 .f32
  | 0, hn => k0_pay2 (band0 (grid0.coords ⟨0, hn⟩) (iblk0 V c 0 ⟨0, hn⟩)) (iblk0 V c 1 ⟨0, hn⟩) k0_pay1
  | n + 1, hn =>
    if (n + 1) % 4 = 0 then
      k0_pay2 (band0 (grid0.coords ⟨n + 1, hn⟩) (iblk0 V c 0 ⟨n + 1, hn⟩)) (iblk0 V c 1 ⟨n + 1, hn⟩) k0_pay1
    else
      k0_pay2 (band0 (grid0.coords ⟨n + 1, hn⟩) (iblk0 V c 0 ⟨n + 1, hn⟩)) (iblk0 V c 1 ⟨n + 1, hn⟩) (acc0 c n (Nat.lt_of_succ_lt hn))

/-- The output tile a last reduction step stores: bias added to the accumulator, leaky rectifier applied. -/
def out0 (c : Dev nD) (t : Fin cfg0.N) : Vec F S512x1024 .bf16 :=
  k0_pay3 (acc0 V c t.val t.isLt) (iblk0 V c 2 t)

/-- The accumulator's scratch buffer, whole. -/
abbrev scr0 : Memref sig .tc .vmem S512x1024 .f32 := Memref.whole cc0_scratch0

/-- The region invariant before point `n`: before the first point the scratch holds anything; afterwards it
    holds the accumulator the point before left. The other scoped buffers and the generator register ride along. -/
def PhiS0 (c : Dev nD) : (n : ℕ) → n ≤ cfg0.N → sProp 𝕄
  | 0, _ => Pipeline.ΦA spec0 c
  | n + 1, hn => iprop(iprop(owns (c : Thread nD τ) scr0 fullShare (acc0 V c n hn))
      ∗ Pipeline.scopedRestBut (Ix := Unit) (Name := ℕ) (U := UR sig nD τ) (Lvl := ℕ) (Val := Elt F) spec0 c [cc0_scratch0]
      ∗ (∃ r, prngReg c r))

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

end Cert.Kernel.Hand

end
-- ==== Proof.WordFeatData.lean ====
/-
  Second dense layer, im_ft = h · W2 + b2, as a pipeline over a 2 × 4 grid (column tile n of the embedding
  axis, reduction step k): the proof data of the region.

  At point t = 4 n + k the body sees the 512 × 1024 column band k of h, the 1024 × 512 tile (k, n) of W2, the
  bias tile n and the output tile n. A 512 × 512 accumulator lives in scratch across the four reduction steps:
  reset to zero and given the first partial product at k = 0, the next partial product added at every later
  step, and at k = 3 the bias is added and the tile stored. This file names those contents and packages them
  as the pipeline's proof data.
-/
import proofs.«408419_j40879498728834_3_alg».proof.Proof.Gen.Kernel.Launch
import proofs.«408419_j40879498728834_3_alg».proof.Proof.Gen.Kernel.Skeleton
import proofs.«408419_j40879498728834_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a first reduction step the partial product over zero, afterwards
    the partial product over what the point before left. -/
def acc1 (c : Dev nD) : (n : ℕ) → n < cfg1.N → Vec F S512x512 .f32
  | 0, hn => k1_pay2 (iblk1 V c 0 ⟨0, hn⟩) (iblk1 V c 1 ⟨0, hn⟩) k1_pay1
  | n + 1, hn =>
    if (n + 1) % 4 = 0 then
      k1_pay2 (iblk1 V c 0 ⟨n + 1, hn⟩) (iblk1 V c 1 ⟨n + 1, hn⟩) k1_pay1
    else
      k1_pay2 (iblk1 V c 0 ⟨n + 1, hn⟩) (iblk1 V c 1 ⟨n + 1, hn⟩) (acc1 c n (Nat.lt_of_succ_lt hn))

/-- The output tile a last reduction step stores: bias added to the accumulator. -/
def out1 (c : Dev nD) (t : Fin cfg1.N) : Vec F S512x512 .bf16 :=
  k1_pay3 (acc1 V c t.val t.isLt) (iblk1 V c 2 t)

/-- The accumulator's scratch buffer, whole. -/
abbrev scr1 : Memref sig .tc .vmem S512x512 .f32 := Memref.whole cc1_scratch0

/-- The region invariant before point `n`: before the first point the scratch holds anything; afterwards it
    holds the accumulator the point before left. The other scoped buffers and the generator register ride along. -/
def PhiS1 (c : Dev nD) : (n : ℕ) → n ≤ cfg1.N → sProp 𝕄
  | 0, _ => Pipeline.ΦA spec1 c
  | n + 1, hn => iprop(iprop(owns (c : Thread nD τ) scr1 fullShare (acc1 V c n hn))
      ∗ Pipeline.scopedRestBut (Ix := Unit) (Name := ℕ) (U := UR sig nD τ) (Lvl := ℕ) (Val := Elt F) spec1 c [cc1_scratch0]
      ∗ (∃ r, prngReg c r))

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

end Cert.Kernel.Hand

end
-- ==== Proof.WordMixData.lean ====
/-
  The weighted aspect mean, out[b] = (1/2000) · Σ_a (im_ft[b,:] · aspects[a,:]) · weights[b,a], over the aspect
  axis padded to 2048, as a pipeline over a 2 × 4 grid (row tile m of the batch, aspect tile a): the proof data
  of the region.

  At point t = 4 m + a the body sees the 256 × 1024 row tile m of im_ft, the 512 × 1024 tile a of the padded
  aspects, the 256 × 512 tile (m, a) of the padded weights and the 256 × 1 output tile m. A 256 × 1 accumulator
  lives in scratch across the four aspect tiles: reset to zero and given the first partial weighted sum at
  a = 0, the next one added at every later step, and at a = 3 scaled by 1/2000 and stored. This file names
  those contents and packages them as the pipeline's proof data.
-/
import proofs.«408419_j40879498728834_3_alg».proof.Proof.Gen.Kernel.Launch
import proofs.«408419_j40879498728834_3_alg».proof.Proof.Gen.Kernel.Skeleton
import proofs.«408419_j40879498728834_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: at a first aspect tile the partial weighted sum over zero, afterwards
    the partial weighted sum over what the point before left. -/
def acc2 (c : Dev nD) : (n : ℕ) → n < cfg2.N → Vec F S256x1 .f32
  | 0, hn => k2_pay2 (iblk2 V c 0 ⟨0, hn⟩) (iblk2 V c 1 ⟨0, hn⟩) (iblk2 V c 2 ⟨0, hn⟩) k2_pay1
  | n + 1, hn =>
    if (n + 1) % 4 = 0 then
      k2_pay2 (iblk2 V c 0 ⟨n + 1, hn⟩) (iblk2 V c 1 ⟨n + 1, hn⟩) (iblk2 V c 2 ⟨n + 1, hn⟩) k2_pay1
    else
      k2_pay2 (iblk2 V c 0 ⟨n + 1, hn⟩) (iblk2 V c 1 ⟨n + 1, hn⟩) (iblk2 V c 2 ⟨n + 1, hn⟩) (acc2 c n (Nat.lt_of_succ_lt hn))

/-- The output tile a last aspect tile stores: the accumulator scaled by the mean's reciprocal. -/
def out2 (c : Dev nD) (t : Fin cfg2.N) : Vec F S256x1 .f32 :=
  k2_pay3 (acc2 V c t.val t.isLt)

/-- The accumulator's scratch buffer, whole. -/
abbrev scr2 : Memref sig .tc .vmem S256x1 .f32 := Memref.whole cc2_scratch0

/-- The region invariant before point `n`: before the first point the scratch holds anything; afterwards it
    holds the accumulator the point before left. The other scoped buffers and the generator register ride along. -/
def PhiS2 (c : Dev nD) : (n : ℕ) → n ≤ cfg2.N → sProp 𝕄
  | 0, _ => Pipeline.ΦA spec2 c
  | n + 1, hn => iprop(iprop(owns (c : Thread nD τ) scr2 fullShare (acc2 V c n hn))
      ∗ Pipeline.scopedRestBut (Ix := Unit) (Name := ℕ) (U := UR sig nD τ) (Lvl := ℕ) (Val := Elt F) spec2 c [cc2_scratch0]
      ∗ (∃ r, prngReg c r))

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

end Cert.Kernel.Hand

end
-- ==== Proof.WordEntry.lean ====
/-
  The buffer contents each of the three regions is entered with, as one chain through the program: the launch
  memory, the host operations before a region, and what the regions before it left in their output arrays.

  Region 0 (first layer) is entered after the bias b1 has been laid out as a row; its output array h is what its
  pipeline leaves. Region 1 (second layer) is entered with that h and b2 as a row; region 2 (the weighted mean)
  with region 1's output, the gathered brand weights padded to 2048 columns and the aspects padded to 2048 rows.
  The contents the regions leave are the unknowns of the program's conditional frame; here they are named, one
  region after the other, each from the proof data of the region that writes it.
-/
import proofs.«408419_j40879498728834_3_alg».proof.Proof.Gen.Kernel.Regions
import proofs.«408419_j40879498728834_3_alg».proof.Proof.WordHiddenData
import proofs.«408419_j40879498728834_3_alg».proof.Proof.WordFeatData
import proofs.«408419_j40879498728834_3_alg».proof.Proof.WordMixData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- What region 0 is entered with, read at the TensorCore's references. -/
abbrev ent0 (c : Dev nD) (b : Ref sig .tc) : Buf (Elt F) ((c : Thread nD τ).loc b) := Gen.V1 m c b

/-- Core `c`'s buffers when region 0 is left: its arrays at what its pipeline leaves, the rest as entered. -/
def W2 (c : Dev nD) : Valuation τ sig (Elt F) :=
  Pipeline.withArrays spec0 c (Gen.V1 m c) fun w => (dat0 (ent0 m) c).arrAt w cfg0.N

/-- The regions' results with only region 0's named. -/
def outs0 : Gen.Outs (F := F) := fun _ r c => W2 m c r

/-- What region 1 is entered with. -/
abbrev ent1 (c : Dev nD) (b : Ref sig .tc) : Buf (Elt F) ((c : Thread nD τ).loc b) := Gen.V3 m (outs0 m) c b

/-- Core `c`'s buffers when region 1 is left. -/
def W4 (c : Dev nD) : Valuation τ sig (Elt F) :=
  Pipeline.withArrays spec1 c (Gen.V3 m (outs0 m) c) fun w => (dat1 (ent1 m) c).arrAt w cfg1.N

/-- The regions' results with regions 0's and 1's named. -/
def outs1 : Gen.Outs (F := F) := fun j r c => if j = 2 then W2 m c r else W4 m c r

/-- What region 2 is entered with. -/
abbrev ent2 (c : Dev nD) (b : Ref sig .tc) : Buf (Elt F) ((c : Thread nD τ).loc b) := Gen.V11 m (outs1 m) c b

/-- Core `c`'s buffers when region 2 is left. -/
def W12 (c : Dev nD) : Valuation τ sig (Elt F) :=
  Pipeline.withArrays spec2 c (Gen.V11 m (outs1 m) c) fun w => (dat2 (ent2 m) c).arrAt w cfg2.N

/-- What the three regions leave in their output arrays (read at item 2: the first layer's; at item 4: the second
    layer's; at item 12: the weighted mean's). -/
def outs : Gen.Outs (F := F) := fun j r c => if j = 2 then W2 m c r else if j = 4 then W4 m c r else W12 m c r

end Cert.Kernel.Hand

end
-- ==== Proof.WordHiddenBody.lean ====
/-
  The first dense layer's region: the body obligation.

  The grid is 4 × 4; point t = 4 j + k works on column tile j of the hidden axis at reduction step k. The body
  has three control cases, decided by two tests on k. At k = 0 the scratch accumulator is reset to zero and
  then receives the partial product of the image's column band k with the weight tile; at k = 1, 2 the partial
  product is added to what the point before left; at k = 3 it is added, and then the bias is added, the leaky
  rectifier applied and the output tile stored. Each case is run once, on arbitrary whole memrefs and
  arbitrary contents, to an explicit post over the payloads; the obligation at a point is the case its
  residue modulo 4 selects, at the point's staging buffers and blocks. At the points with k ≠ 3 the output
  window is idle and not written back, so its buffer is handed back untouched.
-/
import proofs.«408419_j40879498728834_3_alg».proof.Proof.WordHiddenData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The three cases of the body, each run once -/

/-- The first conditional's test, from the grid coordinates: the reduction step is the first. -/
abbrev first0 (i : grid0.Coords) : Prop := (Scalar.cmpi .ne (Scalar.extui (Scalar.cmpi .eq (BitVec.ofNat 32 (i 1).val) 0#32)) 0#32) = 1#1
/-- The second conditional's test: the reduction step is the last. -/
abbrev last0 (i : grid0.Coords) : Prop := k0_cond2 i = 1#1

/-- The zero offsets of a whole-tile rectangle, however spelt. -/
theorem zeros0 : (![0, 0] : Fin 2 → ℕ) = fun _ => 0 := funext fun a => by fin_cases a <;> rfl

/-- Writes whose last is through the whole-shape rectangle cover the shape. -/
theorem cover_whole0 {Val : EltTy → Type} {S : Shape} {e : EltTy} {off : Fin S.rank → ℕ} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

set_option maxHeartbeats 1000000 in
/-- A middle reduction step: the scratch goes from `xs` to the partial product added to `xs`; nothing else moves. -/
theorem run0_mid (c : Dev nD) (i : grid0.Coords) (arg2 : Memref sig .tc .vmem S512x4096 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬first0 i) (hc1 : ¬last0 i)
    (x0 : Vec F S512x4096 .f32) (x1 : Vec F S1024x1024 .f32) (x2 : Vec F S1x1024 .f32) (xi : Vec F S512x1024 .bf16) (xs : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k0_pay2 (band0 i x0) x1 xs)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (cover_whole0 zeros0 _ _ _), View.canon_unit_zero zeros0]
  simp only [View.readAt_eq_ld, harg2.read_unread, harg3.read_unread, harg6.read_unread]
  simp only [View.ld_unit_zero (S := S1024x1024) zeros0, View.ld_unit_zero (S := S512x1024) zeros0]
  rfl

set_option maxHeartbeats 1000000 in
/-- A first reduction step: the scratch, whatever it held, is reset to zero and then receives the first partial
    product; nothing else moves. -/
theorem run0_first (c : Dev nD) (i : grid0.Coords) (arg2 : Memref sig .tc .vmem S512x4096 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : first0 i) (hc1 : ¬last0 i)
    (x0 : Vec F S512x4096 .f32) (x1 : Vec F S1024x1024 .f32) (x2 : Vec F S1x1024 .f32) (xi : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k0_pay2 (band0 i x0) x1 k0_pay1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [View.read_writes_eq_canon _ _ _ (cover_whole0 zeros0 _ _ _), View.canon_cons_unit_zero zeros0]
  simp only [View.readAt_eq_ld, harg2.read_unread, harg3.read_unread, View.readCov_unit_zero (S := S512x1024) _ zeros0]
  simp only [View.ld_unit_zero (S := S1024x1024) zeros0]
  rfl

set_option maxHeartbeats 1000000 in
/-- A last reduction step: the scratch goes from `xs` to the partial product added to `xs`, and the output tile,
    whatever it held, receives the rectified, biased accumulator. -/
theorem run0_last (c : Dev nD) (i : grid0.Coords) (arg2 : Memref sig .tc .vmem S512x4096 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬first0 i) (hc1 : last0 i)
    (x0 : Vec F S512x4096 .f32) (x1 : Vec F S1024x1024 .f32) (x2 : Vec F S1x1024 .f32) (xs : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 (band0 i x0) x1 xs) x2) ∗ owns (c : Thread nD τ) arg6 fullShare (k0_pay2 (band0 i x0) x1 xs)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (cover_whole0 zeros0 _ _ _), View.canon_unit_zero zeros0]
    simp only [View.readAt_eq_ld, harg2.read_unread, harg3.read_unread, harg4.read_unread, harg6.read_unread, View.readCov_unit_zero (S := S512x1024) _ zeros0]
    simp only [View.ld_unit_zero (S := S1024x1024) zeros0, View.ld_unit_zero (S := S512x1024) zeros0, View.ld_unit_zero (S := S1x1024) zeros0]
    rfl
  iexists _; isplitr
  swap; · iexact HS
  ipureintro
  sl_unfold_run_names
  rw [View.read_writes_eq_canon _ _ _ (cover_whole0 zeros0 _ _ _), View.canon_unit_zero zeros0]
  simp only [View.readAt_eq_ld, harg2.read_unread, harg3.read_unread, harg6.read_unread]
  simp only [View.ld_unit_zero (S := S1024x1024) zeros0, View.ld_unit_zero (S := S512x1024) zeros0]
  rfl

/-! ## The tests over the grid; where the output window is idle -/

/-- The first test holds at the points ≡ 0 (mod 4). -/
theorem first0_iff : ∀ t : Fin cfg0.N, first0 (grid0.coords t) ↔ t.val % 4 = 0 :=
  (by decide +kernel : ∀ t : Fin grid0.N, first0 (grid0.coords t) ↔ t.val % 4 = 0)
/-- The second test holds at the points ≡ 3 (mod 4). -/
theorem last0_iff : ∀ t : Fin cfg0.N, last0 (grid0.coords t) ↔ t.val % 4 = 3 :=
  (by decide +kernel : ∀ t : Fin grid0.N, last0 (grid0.coords t) ↔ t.val % 4 = 3)

/-- The inputs are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle exactly off the last reduction step, -/
theorem idle0_3 : ∀ t : Fin cfg0.N, ¬t.val % 4 = 3 → cfg0.idle 3 (grid0.coords t) = true := by decide +kernel
theorem live0_3 : ∀ t : Fin cfg0.N, t.val % 4 = 3 → cfg0.idle 3 (grid0.coords t) = false := by decide +kernel
/-- and there its block is not written back. -/
theorem noFlush0_3 (t : Fin cfg0.N) (h : ¬t.val % 4 = 3) : (cfg0.win 3).flush t = false :=
  Bool.eq_false_iff.mpr fun hf => h ((flush0_3 t).mp hf)

/-! ## The accumulator, point by point -/

variable (V : (c : Dev nD) → (b : Ref sig .tc) → Buf (Elt F) ((c : Thread nD τ).loc b))

/-- At a first reduction step the accumulator is the partial product over zero. -/
theorem acc0_first (c : Dev nD) (t : Fin cfg0.N) (h : t.val % 4 = 0) :
    acc0 V c t.val t.isLt = k0_pay2 (band0 (grid0.coords t) (iblk0 V c 0 t)) (iblk0 V c 1 t) k0_pay1 := by
  obtain ⟨n, hn⟩ := t
  cases n with
  | zero => rfl
  | succ n => exact if_pos h

/-- At a later step it is the partial product over what the point before left. -/
theorem acc0_next (c : Dev nD) (t : Fin cfg0.N) (h : ¬t.val % 4 = 0) :
    acc0 V c t.val t.isLt = k0_pay2 (band0 (grid0.coords t) (iblk0 V c 0 t)) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant, unfolded -/

/-- The scoped buffers of the other regions, unopened. -/
abbrev others0 (c : Dev nD) : sProp 𝕄 :=
  Pipeline.scopedRestBut (Ix := Unit) (Name := ℕ) (U := UR sig nD τ) (Lvl := ℕ) (Val := Elt F) spec0 c [cc0_scratch0]

/-- What the launch hands the region: the scratch at some contents, the other scoped buffers, the generator register. -/
theorem PhiA0_eq (c : Dev nD) :
    (Pipeline.ΦA spec0 c : sProp 𝕄)
      = iprop(iprop((∃ d, owns (c : Thread nD τ) scr0 fullShare d) ∗ others0 c) ∗ (∃ r, prngReg c r)) := by
  unfold Pipeline.ΦA
  rw [Pipeline.scopedRest_split_of_list spec0 c [cc0_scratch0] (by decide) (by decide)]
  simp only [bigSepL_singleton, scr0, owns_whole]
  try rfl

theorem PhiS0_zero (c : Dev nD) (n : ℕ) (h : n ≤ cfg0.N) (hz : n = 0) : PhiS0 V c n h = Pipeline.ΦA spec0 c := by
  subst hz; rfl

/-- After point `n`: the scratch at that point's accumulator. -/
theorem PhiS0_succ (c : Dev nD) (n : ℕ) (hn : n < cfg0.N) :
    PhiS0 V c (n + 1) hn = iprop(iprop(owns (c : Thread nD τ) scr0 fullShare (acc0 V c n hn)) ∗ others0 c ∗ (∃ r, prngReg c r)) := rfl

/-- Before a point that is not the first: the scratch at the accumulator the point before left. -/
theorem PhiS0_pos (c : Dev nD) (n : ℕ) (h : n ≤ cfg0.N) (hz : n ≠ 0) :
    PhiS0 V c n h = iprop(iprop(owns (c : Thread nD τ) scr0 fullShare (acc0 V c (n - 1) (by omega))) ∗ others0 c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-! ## What the buffers hold around the body -/

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- Each input's current staging buffer holds its block at every point, fetched there or not: unfetched, the block
    index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Each window's current staging memref at point `t`, as the pipeline passes it, and its wholeness. -/
abbrev m0_0 (t : Fin cfg0.N) : Memref sig .tc .vmem S512x4096 .f32 := win0_0.stage (cfg0.slots t 0)
abbrev w0_0 (t : Fin cfg0.N) : (m0_0 t).IsWhole := hstage0_0 ((cfg0.slots t 0).cast nbuf0_0)
abbrev m0_1 (t : Fin cfg0.N) : Memref sig .tc .vmem S1024x1024 .f32 := win0_1.stage (cfg0.slots t 1)
abbrev w0_1 (t : Fin cfg0.N) : (m0_1 t).IsWhole := hstage0_1 ((cfg0.slots t 1).cast nbuf0_1)
abbrev m0_2 (t : Fin cfg0.N) : Memref sig .tc .vmem S1x1024 .f32 := win0_2.stage (cfg0.slots t 2)
abbrev w0_2 (t : Fin cfg0.N) : (m0_2 t).IsWhole := hstage0_2 ((cfg0.slots t 2).cast nbuf0_2)
abbrev m0_3 (t : Fin cfg0.N) : Memref sig .tc .vmem S512x1024 .bf16 := win0_3.stage (cfg0.slots t 3)
abbrev w0_3 (t : Fin cfg0.N) : (m0_3 t).IsWhole := hstage0_3 ((cfg0.slots t 3).cast nbuf0_3)

/-! ## The body obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (m0_0 t) fullShare ((dat0 V c).before 0 t d))
    ∗ (∃ d, owns (c : Thread nD τ) (m0_1 t) fullShare ((dat0 V c).before 1 t d))
    ∗ (∃ d, owns (c : Thread nD τ) (m0_2 t) fullShare ((dat0 V c).before 2 t d))
    ∗ (∃ d, owns (c : Thread nD τ) (m0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the residue of the point modulo 4 says which
    case runs; the invariant hands the body the scratch (at anything before the first point, else at the
    accumulator the point before left) and takes it back at this point's accumulator; off the last reduction
    step the output's buffer goes back as it came, at the last step it holds the stored tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (m0_0 t) fullShare ((dat0 V c).after 0 t) from by
    unfold Dat.leavesExact; rw [live0_0 t], after0_0]
  rw [show (dat0 V c).leavesExact 1 t = owns (c : Thread nD τ) (m0_1 t) fullShare ((dat0 V c).after 1 t) from by
    unfold Dat.leavesExact; rw [live0_1 t], after0_1]
  rw [show (dat0 V c).leavesExact 2 t = owns (c : Thread nD τ) (m0_2 t) fullShare ((dat0 V c).after 2 t) from by
    unfold Dat.leavesExact; rw [live0_2 t], after0_2]
  have hN : t.val < 16 := lt_of_lt_of_eq t.isLt (show cfg0.N = 16 from N_0)
  by_cases h0 : t.val % 4 = 0
  · have h1 : ¬t.val % 4 = 3 := by omega
    have hc0 : first0 (grid0.coords t) := (first0_iff t).mpr h0
    have hc1 : ¬last0 (grid0.coords t) := fun h => h1 ((last0_iff t).mp h)
    rw [Dat.leavesExact_idle (dat0 V c) 3 t (idle0_3 t h1) (noFlush0_3 t h1)]
    rw [acc0_first V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_first c (grid0.coords t) (m0_0 t) (w0_0 t) (m0_1 t) (w0_1 t) (m0_2 t) (w0_2 t) (m0_3 t) (w0_3 t) scr0 (Memref.isWhole_whole _) hc0 hc1 (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply (run0_first c (grid0.coords t) (m0_0 t) (w0_0 t) (m0_1 t) (w0_1 t) (m0_2 t) (w0_2 t) (m0_3 t) (w0_3 t) scr0 (Memref.isWhole_whole _) hc0 hc1 (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬first0 (grid0.coords t) := fun h => h0 ((first0_iff t).mp h)
    rw [acc0_next V c t h0]
    rw [PhiS0_castSucc V c t, PhiS0_pos V c _ _ hz]
    by_cases h1 : t.val % 4 = 3
    · have hc1 : last0 (grid0.coords t) := (last0_iff t).mpr h1
      rw [show (dat0 V c).leavesExact 3 t = owns (c : Thread nD τ) (m0_3 t) fullShare ((dat0 V c).after 3 t) from by
        unfold Dat.leavesExact; rw [live0_3 t h1], after0_3]
      unfold out0
      rw [acc0_next V c t h0]
      iintro ⟨⟨HS, Hr, Hg⟩, Ho, ⟨%d0, H0⟩, ⟨%d1, H1⟩, ⟨%d2, H2⟩, ⟨%d3, H3⟩⟩
      iapply (run0_last c (grid0.coords t) (m0_0 t) (w0_0 t) (m0_1 t) (w0_1 t) (m0_2 t) (w0_2 t) (m0_3 t) (w0_3 t) scr0 (Memref.isWhole_whole _) hc0 hc1 (iblk0 V c 0 t) (iblk0 V c 1 t) (iblk0 V c 2 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬last0 (grid0.coords t) := fun h => h1 ((last0_iff t).mp h)
      rw [Dat.leavesExact_idle (dat0 V c) 3 t (idle0_3 t h1) (noFlush0_3 t h1)]
      iintro ⟨⟨HS, Hr, Hg⟩, Ho, ⟨%d0, H0⟩, ⟨%d1, H1⟩, ⟨%d2, H2⟩, ⟨%d3, H3⟩⟩
      iapply (run0_mid c (grid0.coords t) (m0_0 t) (w0_0 t) (m0_1 t) (w0_1 t) (m0_2 t) (w0_2 t) (m0_3 t) (w0_3 t) scr0 (Memref.isWhole_whole _) hc0 hc1 (iblk0 V c 0 t) (iblk0 V c 1 t) (iblk0 V c 2 t) ((dat0 V c).before 3 t d3) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨HS, Hr, Hg⟩
  isplitl [HS Hr]
  · isplitl [HS]
    · iexists _; iexact HS
    iexact Hr
  iexact Hg

end Cert.Kernel.Hand

end
-- ==== Proof.WordFeatBody.lean ====
/- The second layer's region: the body obligation. The three control cases of the body (a first reduction step:
   the accumulator reset to zero and given the first partial product; a middle step: the next partial product added;
   a last step: the last partial product added, then the bias added and the tile stored), each run on any whole
   memrefs with an explicit post over the payloads; the schedule facts at a point; the invariant's forms; the
   obligation at a generic point by cases on the point's residue mod 4. -/
import proofs.«408419_j40879498728834_3_alg».proof.Proof.WordFeatData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's condition: the reduction coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition: the reduction coordinate is the last. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The zero offsets, however spelt. -/
theorem hz1 : (![0, 0] : Fin 2 → Nat) = fun _ => 0 := funext fun a => by fin_cases a <;> rfl

/-- A list of writes whose last is through the whole-shape rectangle covers the shape. -/
theorem cover_unit_cons1 {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

set_option maxHeartbeats 1000000 in
/-- A first reduction step: the accumulator is reset to zero, then gets the first partial product. -/
theorem run1_A (c : Dev nD) (i : grid1.Coords) (arg2 : Memref sig .tc .vmem S512x1024 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i)
    (x0 : Vec F S512x1024 .bf16) (x1 : Vec F S1024x512 .f32) (x2 : Vec F S1x512 .f32) (xi : Vec F S512x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k1_pay2 x0 x1 k1_pay1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [View.read_writes_eq_canon _ _ _ (cover_unit_cons1 hz1 _ _ _), View.canon_cons_unit_zero hz1]
  simp only [View.readAt_eq_ld, harg2.read_unread, harg3.read_unread, harg4.read_unread, harg6.read_unread, View.ld_unit_zero (S := S512x1024) hz1, View.ld_unit_zero (S := S1024x512) hz1, View.ld_unit_zero (S := S1x512) hz1, View.ld_unit_zero (S := S512x512) hz1, View.readCov_unit_zero (S := S512x512) _ hz1]

set_option maxHeartbeats 1000000 in
/-- A middle reduction step: neither conditional taken; the accumulator gets the next partial product added. -/
theorem run1_B (c : Dev nD) (i : grid1.Coords) (arg2 : Memref sig .tc .vmem S512x1024 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i)
    (x0 : Vec F S512x1024 .bf16) (x1 : Vec F S1024x512 .f32) (x2 : Vec F S1x512 .f32) (xi : Vec F S512x512 .bf16) (xs : Vec F S512x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k1_pay2 x0 x1 xs)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (cover_unit_cons1 hz1 _ _ _), View.canon_unit_zero hz1]
  simp only [View.readAt_eq_ld, harg2.read_unread, harg3.read_unread, harg4.read_unread, harg6.read_unread, View.ld_unit_zero (S := S512x1024) hz1, View.ld_unit_zero (S := S1024x512) hz1, View.ld_unit_zero (S := S1x512) hz1, View.ld_unit_zero (S := S512x512) hz1, View.readCov_unit_zero (S := S512x512) _ hz1]

set_option maxHeartbeats 1000000 in
/-- A last reduction step: the accumulator gets the last partial product, then the bias is added and the tile stored. -/
theorem run1_C (c : Dev nD) (i : grid1.Coords) (arg2 : Memref sig .tc .vmem S512x1024 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i)
    (x0 : Vec F S512x1024 .bf16) (x1 : Vec F S1024x512 .f32) (x2 : Vec F S1x512 .f32) (xs : Vec F S512x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (cover_unit_cons1 hz1 _ _ _), View.canon_unit_zero hz1]
    simp only [View.readAt_eq_ld, harg2.read_unread, harg3.read_unread, harg4.read_unread, harg6.read_unread, View.ld_unit_zero (S := S512x1024) hz1, View.ld_unit_zero (S := S1024x512) hz1, View.ld_unit_zero (S := S1x512) hz1, View.ld_unit_zero (S := S512x512) hz1, View.readCov_unit_zero (S := S512x512) _ hz1]
  iexists _; isplitr
  swap; · iexact HS
  ipureintro
  sl_unfold_run_names
  rw [View.read_writes_eq_canon _ _ _ (cover_unit_cons1 hz1 _ _ _), View.canon_unit_zero hz1]
  simp only [View.readAt_eq_ld, harg2.read_unread, harg3.read_unread, harg4.read_unread, harg6.read_unread, View.ld_unit_zero (S := S512x1024) hz1, View.ld_unit_zero (S := S1024x512) hz1, View.ld_unit_zero (S := S1x512) hz1, View.ld_unit_zero (S := S512x512) hz1, View.readCov_unit_zero (S := S512x512) _ hz1]

/-- The proof data's arrays are the region-entry contents. -/
theorem A_eq1 (c : Dev nD) (w : Fin cfg1.W) : (dat1 V c).A w = V c (Pipeline.arrRef spec1 w) := by
  dsimp only [dat1]

/-! ## The schedule at a point -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off a last reduction step the output window is idle, -/
theorem idleAt1_3 : ∀ t : Fin cfg1.N, ¬cond1_1 (grid1.coords t) → cfg1.idle 3 (grid1.coords t) = true := by decide +kernel
/-- and its block is not written back; -/
theorem noFlush1_3 : ∀ t : Fin cfg1.N, ¬cond1_1 (grid1.coords t) → (cfg1.win 3).flush t = false := by decide +kernel
/-- at a last reduction step it is live. -/
theorem liveAt1_3 : ∀ t : Fin cfg1.N, cond1_1 (grid1.coords t) → cfg1.idle 3 (grid1.coords t) = false := by decide +kernel

/-- Each window's current staging memref at point `t`, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)

/-! ## The invariant -/

/-- The scoped rest split at the accumulator's buffer. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the region, with the accumulator's buffer as a memref owned at some contents. -/
theorem PhiA1_eq (c : Dev nD) :
    (Pipeline.ΦA spec1 c : sProp 𝕄)
      = iprop(iprop((∃ d, owns (c : Thread nD τ) scr1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scr1, owns_whole]; try rfl

theorem PhiS1_zero (c : Dev nD) (n : ℕ) (h : n ≤ cfg1.N) (hz : n = 0) : PhiS1 V c n h = Pipeline.ΦA spec1 c := by
  subst hz; rfl

/-- After point `n`: the accumulator that point left. -/
theorem PhiS1_succ (c : Dev nD) (n : ℕ) (hn : n < cfg1.N) :
    PhiS1 V c (n + 1) hn = iprop(iprop(owns (c : Thread nD τ) scr1 fullShare (acc1 V c n hn)) ∗ Pipeline.scopedRestBut (Ix := Unit) (Name := ℕ) (U := UR sig nD τ) (Lvl := ℕ) (Val := Elt F) spec1 c [cc1_scratch0] ∗ (∃ r, prngReg c r)) := rfl

/-- Before a point that is not the first: the accumulator the point before left. -/
theorem PhiS1_pos (c : Dev nD) (n : ℕ) (h : n ≤ cfg1.N) (hz : n ≠ 0) :
    PhiS1 V c n h = iprop(iprop(owns (c : Thread nD τ) scr1 fullShare (acc1 V c (n - 1) (by omega))) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

/-- The accumulator after a first reduction step: the partial product over zero. -/
theorem acc1_first (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact if_pos h

/-- The accumulator after a later reduction step: the partial product over what the point before left. -/
theorem acc1_next (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The proof data at a point -/

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body leaves in an input's buffer: its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- At a last reduction step the output's buffer is left at the stored tile. -/
theorem leaves1_3 (c : Dev nD) (t : Fin cfg1.N) (h : cond1_1 (grid1.coords t)) :
    (dat1 V c).leavesExact 3 t = owns (c : Thread nD τ) (ms1_3 t) fullShare (out1 V c t) := by
  rw [show (dat1 V c).leavesExact 3 t = owns (c : Thread nD τ) (ms1_3 t) fullShare ((dat1 V c).after 3 t) from by
    unfold Dat.leavesExact; rw [liveAt1_3 t h], after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's residue mod 4 says which of the three
    cases it is in; the invariant hands the body the accumulator at what the point before left (at anything at the
    first point) and takes it back at this point's; off a last reduction step the output's buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V]
  rw [show (dat1 V c).owesAt () t.succ = (dat1 V c).owesAt () t.castSucc from rfl]
  rw [show (dat1 V c).Φ t.succ = PhiS1 V c (t.val + 1) t.isLt from rfl, PhiS1_succ]
  rw [leaves1_0 V c t, leaves1_1 V c t, leaves1_2 V c t]
  have hN : t.val < 8 := lt_of_lt_of_eq t.isLt (show cfg1.N = 8 from N_1)
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (run1_A c (grid1.coords t) (ms1_0 t) (hs1_0 t) (ms1_1 t) (hs1_1 t) (ms1_2 t) (hs1_2 t) (ms1_3 t) (hs1_3 t) scr1 (Memref.isWhole_whole _) ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (run1_A c (grid1.coords t) (ms1_0 t) (hs1_0 t) (ms1_1 t) (hs1_1 t) (ms1_2 t) (hs1_2 t) (ms1_3 t) (hs1_3 t) scr1 (Memref.isWhole_whole _) ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc1_next V c t h0]
    rw [PhiS1_castSucc V c t, PhiS1_pos V c _ _ hz]
    by_cases h1 : t.val % 4 = 3
    · rw [leaves1_3 V c t ((hcond1_1 t).mpr h1)]
      unfold out1
      rw [acc1_next V c t h0]
      iintro ⟨⟨HS, HR, Hg⟩, Ho, ⟨%d0, H0⟩, ⟨%d1, H1⟩, ⟨%d2, H2⟩, ⟨%d3, H3⟩⟩
      iapply (run1_C c (grid1.coords t) (ms1_0 t) (hs1_0 t) (ms1_1 t) (hs1_1 t) (ms1_2 t) (hs1_2 t) (ms1_3 t) (hs1_3 t) scr1 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨HS, HR, Hg⟩, Ho, ⟨%d0, H0⟩, ⟨%d1, H1⟩, ⟨%d2, H2⟩, ⟨%d3, H3⟩⟩
      iapply (run1_B c (grid1.coords t) (ms1_0 t) (hs1_0 t) (ms1_1 t) (hs1_1 t) (ms1_2 t) (hs1_2 t) (ms1_3 t) (hs1_3 t) scr1 (Memref.isWhole_whole _) (fun h => h0 ((hcond1_0 t).mp h)) (fun h => h1 ((hcond1_1 t).mp h)) (iblk1 V c 0 t) (iblk1 V c 1 t) (iblk1 V c 2 t) ((dat1 V c).before 3 t d3) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives the launch's back: the accumulator's contents are forgotten. -/
theorem hout1 (c : Dev nD) : (dat1 V c).Φ (Fin.last cfg1.N) ⊢ (Pipeline.ΦA spec1 c : sProp 𝕄) :=
  Phi_out1 V c _ (by rw [Fin.val_last]; have : cfg1.N = 8 := N_1; omega)

end Cert.Kernel.Hand

end
-- ==== Proof.WordMixBody.lean ====
/- The weighted mean's region: the body obligation.

   The body runs in one of three cases, told by the aspect-tile coordinate: at a first aspect tile it resets the
   accumulator to zero and adds the tile's partial weighted sum; at a middle one it adds the next partial sum; at a
   last one it adds the last partial sum and stores the accumulator, scaled, into the output tile. Each case's run
   is stated with its post over the payloads; the accumulator point by point follows the recursion of the proof
   data; the invariant carries the accumulator's scratch at what the point before left. -/
import proofs.«408419_j40879498728834_3_alg».proof.Proof.WordMixData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq2 (c : Dev nD) (w : Fin cfg2.W) : (dat2 V c).A w = V c (Pipeline.arrRef spec2 w) := by
  dsimp only [dat2]

/-- The first conditional's condition, from the grid coordinates: the aspect-tile coordinate is zero. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's condition: the aspect-tile coordinate is the last. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-- The zero offsets of a rank-2 whole-shape rectangle, however spelt. -/
theorem hz2 : (![0, 0] : Fin 2 → Nat) = fun _ => 0 := funext fun a => by fin_cases a <;> rfl

/-- A list of writes whose last is through the whole-shape rectangle covers the shape. -/
theorem cover_unit_cons2 {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

/-! ## The body's three runs -/

set_option maxHeartbeats 1000000 in
/-- A first aspect tile: the first conditional taken, the second not; the accumulator is reset to zero and given the
    first partial weighted sum; the output tile is untouched. -/
theorem run2_A (c : Dev nD) (i : grid2.Coords) (arg2 : Memref sig .tc .vmem S256x1024 .bf16) (harg2 : arg2.IsWhole) (arg3 : Memref sig .tc .vmem S512x1024 .f32) (harg3 : arg3.IsWhole) (arg4 : Memref sig .tc .vmem S256x512 .f32) (harg4 : arg4.IsWhole) (arg5 : Memref sig .tc .vmem S256x1 .f32) (harg5 : arg5.IsWhole) (arg6 : Memref sig .tc .vmem S256x1 .f32) (harg6 : arg6.IsWhole) (hc0 : cond2_0 i) (hc1 : ¬cond2_1 i)
    (x0 : Vec F S256x1024 .bf16) (x1 : Vec F S512x1024 .f32) (x2 : Vec F S256x512 .f32) (xi : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k2_pay2 x0 x1 x2 k2_pay1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [View.read_writes_eq_canon _ _ _ (cover_unit_cons2 hz2 _ _ _), View.canon_cons_unit_zero hz2]
  simp only [View.readAt_eq_ld, harg2.read_unread, harg3.read_unread, harg4.read_unread, harg5.read_unread, harg6.read_unread, View.ld_unit_zero (S := S256x1024) hz2, View.ld_unit_zero (S := S512x1024) hz2, View.ld_unit_zero (S := S256x512) hz2, View.ld_unit_zero (S := S256x1) hz2, View.readCov_unit_zero (S := S256x1) _ hz2]

set_option maxHeartbeats 1000000 in
/-- A middle aspect tile: neither conditional taken; the accumulator gets the next partial weighted sum added; the
    output tile is untouched. -/
theorem run2_B (c : Dev nD) (i : grid2.Coords) (arg2 : Memref sig .tc .vmem S256x1024 .bf16) (harg2 : arg2.IsWhole) (arg3 : Memref sig .tc .vmem S512x1024 .f32) (harg3 : arg3.IsWhole) (arg4 : Memref sig .tc .vmem S256x512 .f32) (harg4 : arg4.IsWhole) (arg5 : Memref sig .tc .vmem S256x1 .f32) (harg5 : arg5.IsWhole) (arg6 : Memref sig .tc .vmem S256x1 .f32) (harg6 : arg6.IsWhole) (hc0 : ¬cond2_0 i) (hc1 : ¬cond2_1 i)
    (x0 : Vec F S256x1024 .bf16) (x1 : Vec F S512x1024 .f32) (x2 : Vec F S256x512 .f32) (xi : Vec F S256x1 .f32) (xs : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k2_pay2 x0 x1 x2 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS
  ipureintro
  rw [View.read_writes_eq_canon _ _ _ (cover_unit_cons2 hz2 _ _ _), View.canon_unit_zero hz2]
  simp only [View.readAt_eq_ld, harg2.read_unread, harg3.read_unread, harg4.read_unread, harg5.read_unread, harg6.read_unread, View.ld_unit_zero (S := S256x1024) hz2, View.ld_unit_zero (S := S512x1024) hz2, View.ld_unit_zero (S := S256x512) hz2, View.ld_unit_zero (S := S256x1) hz2, View.readCov_unit_zero (S := S256x1) _ hz2]

set_option maxHeartbeats 1000000 in
/-- A last aspect tile: the second conditional taken, the first not; the accumulator gets the last partial weighted
    sum added and the output tile is stored, the accumulator scaled. -/
theorem run2_C (c : Dev nD) (i : grid2.Coords) (arg2 : Memref sig .tc .vmem S256x1024 .bf16) (harg2 : arg2.IsWhole) (arg3 : Memref sig .tc .vmem S512x1024 .f32) (harg3 : arg3.IsWhole) (arg4 : Memref sig .tc .vmem S256x512 .f32) (harg4 : arg4.IsWhole) (arg5 : Memref sig .tc .vmem S256x1 .f32) (harg5 : arg5.IsWhole) (arg6 : Memref sig .tc .vmem S256x1 .f32) (harg6 : arg6.IsWhole) (hc0 : ¬cond2_0 i) (hc1 : cond2_1 i)
    (x0 : Vec F S256x1024 .bf16) (x1 : Vec F S512x1024 .f32) (x2 : Vec F S256x512 .f32) (xs : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 x0 x1 x2 xs)) ∗ owns (c : Thread nD τ) arg6 fullShare (k2_pay2 x0 x1 x2 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (cover_unit_cons2 hz2 _ _ _), View.canon_unit_zero hz2]
    simp only [View.readAt_eq_ld, harg2.read_unread, harg3.read_unread, harg4.read_unread, harg5.read_unread, harg6.read_unread, View.ld_unit_zero (S := S256x1024) hz2, View.ld_unit_zero (S := S512x1024) hz2, View.ld_unit_zero (S := S256x512) hz2, View.ld_unit_zero (S := S256x1) hz2, View.readCov_unit_zero (S := S256x1) _ hz2]
  iexists _; isplitr
  swap; · iexact HS
  ipureintro
  sl_unfold_run_names
  rw [View.read_writes_eq_canon _ _ _ (cover_unit_cons2 hz2 _ _ _), View.canon_unit_zero hz2]
  simp only [View.readAt_eq_ld, harg2.read_unread, harg3.read_unread, harg4.read_unread, harg5.read_unread, harg6.read_unread, View.ld_unit_zero (S := S256x1024) hz2, View.ld_unit_zero (S := S512x1024) hz2, View.ld_unit_zero (S := S256x512) hz2, View.ld_unit_zero (S := S256x1) hz2, View.readCov_unit_zero (S := S256x1) _ hz2]

/-! ## The accumulator point by point -/

/-- At a first aspect tile the accumulator is the partial weighted sum over zero. -/
theorem acc2_first (c : Dev nD) (t : Fin cfg2.N) (h : t.val % 4 = 0) :
    acc2 V c t.val t.isLt = k2_pay2 (iblk2 V c 0 t) (iblk2 V c 1 t) (iblk2 V c 2 t) k2_pay1 := by
  obtain ⟨n, hn⟩ := t
  cases n with
  | zero => exact rfl
  | succ n => exact (if_pos h).trans rfl

/-- At a later aspect tile it is the partial weighted sum over what the point before left. -/
theorem acc2_next (c : Dev nD) (t : Fin cfg2.N) (h : ¬t.val % 4 = 0) :
    acc2 V c t.val t.isLt = k2_pay2 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant point by point -/

theorem PhiS2_zero (c : Dev nD) (n : ℕ) (h : n ≤ cfg2.N) (hz : n = 0) : PhiS2 V c n h = Pipeline.ΦA spec2 c := by
  subst hz; rfl

/-- After point `n`: the accumulator's scratch at that point's accumulator. -/
theorem PhiS2_succ (c : Dev nD) (n : ℕ) (hn : n < cfg2.N) :
    PhiS2 V c (n + 1) hn = iprop(iprop(owns (c : Thread nD τ) scr2 fullShare (acc2 V c n hn))
      ∗ Pipeline.scopedRestBut (Ix := Unit) (Name := ℕ) (U := UR sig nD τ) (Lvl := ℕ) (Val := Elt F) spec2 c [cc2_scratch0]
      ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(owns (c : Thread nD τ) scr2 fullShare (acc2 V c (n - 1) (by omega)))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The launch's scoped rest, split at the accumulator's scratch. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What the launch hands the region, with the accumulator's scratch as a memref owned at some contents. -/
theorem PhiA2_eq (c : Dev nD) :
    (Pipeline.ΦA spec2 c : sProp 𝕄)
      = iprop(iprop((∃ d, owns (c : Thread nD τ) scr2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scr2, owns_whole]; try rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds and leaves, window by window -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Off the last aspect tiles the output window is idle, -/
theorem idleAt2_3 : ∀ t : Fin cfg2.N, ¬cond2_1 (grid2.coords t) → cfg2.idle 3 (grid2.coords t) = true := by decide +kernel
/-- and its block is not written back there; -/
theorem noFlush2_3 : ∀ t : Fin cfg2.N, ¬cond2_1 (grid2.coords t) → (cfg2.win 3).flush t = false := by decide +kernel
/-- at a last aspect tile it is live. -/
theorem liveAt2_3 : ∀ t : Fin cfg2.N, cond2_1 (grid2.coords t) → cfg2.idle 3 (grid2.coords t) = false := by decide +kernel

/-- Each window's current staging memref at point `t`, and its wholeness. -/
abbrev ms2_0 (t : Fin cfg2.N) : Memref sig .tc .vmem S256x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1 .f32 := win2_3.stage (cfg2.slots t 3)
abbrev hs2_3 (t : Fin cfg2.N) : (ms2_3 t).IsWhole := hstage2_3 ((cfg2.slots t 3).cast nbuf2_3)

/-! ## The body obligation at a point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the aspect-tile coordinate says which of the three
    cases the point is in; the invariant hands the body the accumulator's scratch at what the point before left (at
    anything at the first point) and takes it back at this point's accumulator; off the last aspect tiles the output
    window is idle and its buffer comes back untouched, at a last one it holds the scaled accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h1 : t.val % 4 = 3
  · have h0 : ¬t.val % 4 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    unfold out2
    rw [acc2_next V c t h0]
    rw [PhiS2_castSucc V c t, PhiS2_pos V c _ _ hz]
    iintro ⟨⟨HS, HR, Hg⟩, Ho, ⟨%d0, H0⟩, ⟨%d1, H1⟩, ⟨%d2, H2⟩, ⟨%d3, H3⟩⟩
    iapply (run2_C c (grid2.coords t) (ms2_0 t) (hs2_0 t) (ms2_1 t) (hs2_1 t) (ms2_2 t) (hs2_2 t) (ms2_3 t) (hs2_3 t) scr2 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t (fun h => h1 ((hcond2_1 t).mp h))) (noFlush2_3 t (fun h => h1 ((hcond2_1 t).mp h)))]
    by_cases h0 : t.val % 4 = 0
    · rw [acc2_first V c t h0]
      by_cases hz : t.val = 0
      · rw [PhiS2_castSucc V c t, PhiS2_zero V c _ _ hz, PhiA2_eq]
        iintro ⟨⟨⟨HS, HR⟩, Hg⟩, Ho, ⟨%d0, H0⟩, ⟨%d1, H1⟩, ⟨%d2, H2⟩, ⟨%d3, H3⟩⟩
        iapply (run2_A c (grid2.coords t) (ms2_0 t) (hs2_0 t) (ms2_1 t) (hs2_1 t) (ms2_2 t) (hs2_2 t) (ms2_3 t) (hs2_3 t) scr2 (Memref.isWhole_whole _) ((hcond2_0 t).mpr h0) (fun h => h1 ((hcond2_1 t).mp h)) (iblk2 V c 0 t) (iblk2 V c 1 t) (iblk2 V c 2 t) ((dat2 V c).before 3 t d3) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨HS, HR, Hg⟩, Ho, ⟨%d0, H0⟩, ⟨%d1, H1⟩, ⟨%d2, H2⟩, ⟨%d3, H3⟩⟩
        iapply (run2_A c (grid2.coords t) (ms2_0 t) (hs2_0 t) (ms2_1 t) (hs2_1 t) (ms2_2 t) (hs2_2 t) (ms2_3 t) (hs2_3 t) scr2 (Memref.isWhole_whole _) ((hcond2_0 t).mpr h0) (fun h => h1 ((hcond2_1 t).mp h)) (iblk2 V c 0 t) (iblk2 V c 1 t) (iblk2 V c 2 t) ((dat2 V c).before 3 t d3) Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := by omega
      rw [acc2_next V c t h0]
      rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply (run2_B c (grid2.coords t) (ms2_0 t) (hs2_0 t) (ms2_1 t) (hs2_1 t) (ms2_2 t) (hs2_2 t) (ms2_3 t) (hs2_3 t) scr2 (Memref.isWhole_whole _) (fun h => h0 ((hcond2_0 t).mp h)) (fun h => h1 ((hcond2_1 t).mp h)) (iblk2 V c 0 t) (iblk2 V c 1 t) (iblk2 V c 2 t) ((dat2 V c).before 3 t d3) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

/-- After the last point the invariant gives the launch's back: the accumulator's contents are forgotten. -/
theorem hout2 (c : Dev nD) : (dat2 V c).Φ (Fin.last cfg2.N) ⊢ (Pipeline.ΦA spec2 c : sProp 𝕄) :=
  Phi_out2 V c _ (by rw [Fin.val_last]; have : cfg2.N = 8 := N_2; omega)

end Cert.Kernel.Hand

end
-- ==== Proof.WordLaunch.lean ====
/-
  The three regions as segments of the program and the program's frame: every weakly fair execution terminates,
  nothing faults, and the eight argument arrays end as launched.
-/
import proofs.«408419_j40879498728834_3_alg».proof.Proof.WordEntry
import proofs.«408419_j40879498728834_3_alg».proof.Proof.WordHiddenBody
import proofs.«408419_j40879498728834_3_alg».proof.Proof.WordFeatBody
import proofs.«408419_j40879498728834_3_alg».proof.Proof.WordMixBody
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions leave, read where the valuations read them -/

/-- Region 1 is entered with what region 0 left: the later regions' results are not read before it. -/
theorem V3_outs_d (c : Dev nD) : Gen.V3 m (outs m) c = Gen.V3 m (outs0 m) c := rfl

/-- Region 2 is entered with what regions 0 and 1 left. -/
theorem V11_outs_d (c : Dev nD) : Gen.V11 m (outs m) c = Gen.V11 m (outs1 m) c := rfl

theorem W2_arr_d (c : Dev nD) (w : Fin cfg0.W) :
    W2 m c (Proc.devRef .tc (Pipeline.arrRef spec0 w)) = (dat0 (ent0 m) c).arrAt w cfg0.N := by
  unfold W2; exact Pipeline.withArrays_arr spec0 launch0.win.arr_inj c _ _ w
theorem W4_arr_d (c : Dev nD) (w : Fin cfg1.W) :
    W4 m c (Proc.devRef .tc (Pipeline.arrRef spec1 w)) = (dat1 (ent1 m) c).arrAt w cfg1.N := by
  unfold W4; exact Pipeline.withArrays_arr spec1 launch1.win.arr_inj c _ _ w
theorem W12_arr_d (c : Dev nD) (w : Fin cfg2.W) :
    W12 m c (Proc.devRef .tc (Pipeline.arrRef spec2 w)) = (dat2 (ent2 m) c).arrAt w cfg2.N := by
  unfold W12; exact Pipeline.withArrays_arr spec2 launch2.win.arr_inj c _ _ w

/-- What region 1 finds in the first layer's output array is what region 0 left there. -/
theorem ent1_hidden (c : Dev nD) : ent1 m c main_v1 = (dat0 (ent0 m) c).arrAt 3 cfg0.N :=
  (Gen.V3_of m (outs0 m) c main_v1 (by decide)).trans ((Function.update_self _ _ _).trans (W2_arr_d m c 3))

/-- What region 2 finds in the second layer's output array is what region 1 left there. -/
theorem ent2_feat (c : Dev nD) : ent2 m c main_v3 = (dat1 (ent1 m) c).arrAt 3 cfg1.N :=
  (Gen.V11_of m (outs1 m) c main_v3 (by decide)).trans <| (Gen.V10_of m (outs1 m) c main_v3 (by decide)).trans <|
  (Gen.V9_of m (outs1 m) c main_v3 (by decide)).trans <| (Gen.V8_of m (outs1 m) c main_v3 (by decide)).trans <|
  (Gen.V7_of m (outs1 m) c main_v3 (by decide)).trans <| (Gen.V6_of m (outs1 m) c main_v3 (by decide)).trans <|
  (Gen.V5_of m (outs1 m) c main_v3 (by decide)).trans ((Function.update_self _ _ _).trans (W4_arr_d m c 3))

/-! ## The contents after each region, at the TensorCore's references -/

/-- Core `c`'s buffers after region 0. -/
abbrev ex0_d (c : Dev nD) (b : Ref sig .tc) : Buf (Elt F) ((c : Thread nD τ).loc b) := Gen.V2 m (outs m) c b
/-- Core `c`'s buffers after region 1. -/
abbrev ex1_d (c : Dev nD) (b : Ref sig .tc) : Buf (Elt F) ((c : Thread nD τ).loc b) := Gen.V4 m (outs m) c b
/-- Core `c`'s buffers after region 2. -/
abbrev ex2_d (c : Dev nD) (b : Ref sig .tc) : Buf (Elt F) ((c : Thread nD τ).loc b) := Gen.V12 m (outs m) c b

/-- Region 0's arrays as it leaves them, read in the contents after it: the output array holds what the pipeline
    leaves, an input array is never written back. -/
theorem hF0_d (c : Dev nD) (w : Fin cfg0.W) : (dat0 (ent0 m) c).arrAt w cfg0.N = ex0_d m c (Pipeline.arrRef spec0 w) := by
  match w with
  | ⟨0, _⟩ => exact ((dat0 (ent0 m) c).arrAt_in 0 rfl _).trans ((A_eq0 (ent0 m) c 0).trans (Gen.V2_of m (outs m) c _ (by decide)).symm)
  | ⟨1, _⟩ => exact ((dat0 (ent0 m) c).arrAt_in 1 rfl _).trans ((A_eq0 (ent0 m) c 1).trans (Gen.V2_of m (outs m) c _ (by decide)).symm)
  | ⟨2, _⟩ => exact ((dat0 (ent0 m) c).arrAt_in 2 rfl _).trans ((A_eq0 (ent0 m) c 2).trans (Gen.V2_of m (outs m) c _ (by decide)).symm)
  | ⟨3, _⟩ => exact ((show ex0_d m c main_v1 = outs m 2 main_v1 c from Function.update_self _ _ _).trans (W2_arr_d m c 3)).symm

/-- Off its arrays region 0 leaves every unscoped buffer as entered. -/
theorem hrest0_d (c : Dev nD) : ∀ b, b ∉ Finset.univ.image (Pipeline.arrRef spec0) → ex0_d m c b = ent0 m c b :=
  fun b hb => Gen.V2_of m (outs m) c b fun h =>
    hb (Finset.mem_image.mpr ⟨3, Finset.mem_univ _, (List.mem_singleton.mp h).symm⟩)

/-- Region 1's arrays as it leaves them, read in the contents after it: the output array holds what the pipeline
    leaves, an input array is never written back. -/
theorem hF1_d (c : Dev nD) (w : Fin cfg1.W) : (dat1 (ent1 m) c).arrAt w cfg1.N = ex1_d m c (Pipeline.arrRef spec1 w) := by
  match w with
  | ⟨0, _⟩ => exact ((dat1 (ent1 m) c).arrAt_in 0 rfl _).trans ((A_eq1 (ent1 m) c 0).trans (Gen.V4_of m (outs m) c _ (by decide)).symm)
  | ⟨1, _⟩ => exact ((dat1 (ent1 m) c).arrAt_in 1 rfl _).trans ((A_eq1 (ent1 m) c 1).trans (Gen.V4_of m (outs m) c _ (by decide)).symm)
  | ⟨2, _⟩ => exact ((dat1 (ent1 m) c).arrAt_in 2 rfl _).trans ((A_eq1 (ent1 m) c 2).trans (Gen.V4_of m (outs m) c _ (by decide)).symm)
  | ⟨3, _⟩ => exact ((show ex1_d m c main_v3 = outs m 4 main_v3 c from Function.update_self _ _ _).trans (W4_arr_d m c 3)).symm

/-- Off its arrays region 1 leaves every unscoped buffer as entered. -/
theorem hrest1_d (c : Dev nD) : ∀ b, b ∉ Finset.univ.image (Pipeline.arrRef spec1) → ex1_d m c b = ent1 m c b :=
  fun b hb => Gen.V4_of m (outs m) c b fun h =>
    hb (Finset.mem_image.mpr ⟨3, Finset.mem_univ _, (List.mem_singleton.mp h).symm⟩)

/-- Region 2's arrays as it leaves them, read in the contents after it: the output array holds what the pipeline
    leaves, an input array is never written back. -/
theorem hF2_d (c : Dev nD) (w : Fin cfg2.W) : (dat2 (ent2 m) c).arrAt w cfg2.N = ex2_d m c (Pipeline.arrRef spec2 w) := by
  match w with
  | ⟨0, _⟩ => exact ((dat2 (ent2 m) c).arrAt_in 0 rfl _).trans ((A_eq2 (ent2 m) c 0).trans (Gen.V12_of m (outs m) c _ (by decide)).symm)
  | ⟨1, _⟩ => exact ((dat2 (ent2 m) c).arrAt_in 1 rfl _).trans ((A_eq2 (ent2 m) c 1).trans (Gen.V12_of m (outs m) c _ (by decide)).symm)
  | ⟨2, _⟩ => exact ((dat2 (ent2 m) c).arrAt_in 2 rfl _).trans ((A_eq2 (ent2 m) c 2).trans (Gen.V12_of m (outs m) c _ (by decide)).symm)
  | ⟨3, _⟩ => exact ((show ex2_d m c main_v8 = outs m 12 main_v8 c from Function.update_self _ _ _).trans (W12_arr_d m c 3)).symm

/-- Off its arrays region 2 leaves every unscoped buffer as entered. -/
theorem hrest2_d (c : Dev nD) : ∀ b, b ∉ Finset.univ.image (Pipeline.arrRef spec2) → ex2_d m c b = ent2 m c b :=
  fun b hb => Gen.V12_of m (outs m) c b fun h =>
    hb (Finset.mem_image.mpr ⟨3, Finset.mem_univ _, (List.mem_singleton.mp h).symm⟩)

/-! ## The proof data family and what rides beside the buffers -/

/-- Every pipeline's proof data, each at its region's entry contents. -/
def pdats_d : (p : Fin 3) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c

abbrev 𝒱_d : Variants := Variants.none
/-- No core owes another anything: no level is assigned. -/
abbrev L_d : GSem nD τ sig → Finset Unit := fun _ => ∅
abbrev lv_d : GSem nD τ sig → Unit → ℕ := fun _ _ => 0
/-- What rides beside the buffers through every segment: the core's generator register at some state and its
    dues, at nothing. -/
abbrev R_d (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- Region 0 as a segment: entered with every unscoped buffer at the contents before it, left with them at the
    contents after it, the generator register at some state and nothing owed riding along. The windows' arrays are
    split out of the unscoped buffers at entry and put back at exit; the scoped buffers and the register pass
    through the region invariant, whose first and last instances are the launch's. -/
def reg0_d : Pipeline.RegionSeg (pcfgs (F := F)) Gen.adm (pdats_d m) () defs₀ 𝒱_d L_d lv_d 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L_d lv_d 0 fun _ _ => rfl
  pre c := iprop(StableHlo.held (c : Thread nD τ) (Pipeline.ucRefs τ sig) (Gen.V1 m c) ∗ R_d c)
  post c := iprop(StableHlo.held (c : Thread nD τ) (Pipeline.ucRefs τ sig) (Gen.V2 m (outs m) c) ∗ R_d c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats_d m) launch0.win launch0.arr_whole c
      ((pdats_d m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (ent0 m) c)
    unfold Pipeline.ΦA
    iintro ⟨Hp, -, Hr⟩
    isplitl [Hr]; · iexact Hr
    iexact Hp
  hout c := by
    refine .trans (hout0 (ent0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats_d m) ((pdats_d m 0 c).share_full fun _ => rfl)
      (ent0 m c) (ex0_d m c) ((pdats_d m 0 c).arrAt · cfg0.N) (hF0_d m c) (hrest0_d m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at the contents before it, left with them at the
    contents after it, the generator register at some state and nothing owed riding along. The windows' arrays are
    split out of the unscoped buffers at entry and put back at exit; the scoped buffers and the register pass
    through the region invariant, whose first and last instances are the launch's. -/
def reg1_d : Pipeline.RegionSeg (pcfgs (F := F)) Gen.adm (pdats_d m) () defs₀ 𝒱_d L_d lv_d 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L_d lv_d 1 fun _ _ => rfl
  pre c := iprop(StableHlo.held (c : Thread nD τ) (Pipeline.ucRefs τ sig) (Gen.V3 m (outs0 m) c) ∗ R_d c)
  post c := iprop(StableHlo.held (c : Thread nD τ) (Pipeline.ucRefs τ sig) (Gen.V4 m (outs m) c) ∗ R_d c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats_d m) launch1.win launch1.arr_whole c
      ((pdats_d m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (ent1 m) c)
    unfold Pipeline.ΦA
    iintro ⟨Hp, -, Hr⟩
    isplitl [Hr]; · iexact Hr
    iexact Hp
  hout c := by
    refine .trans (hout1 (ent1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats_d m) ((pdats_d m 1 c).share_full fun _ => rfl)
      (ent1 m c) (ex1_d m c) ((pdats_d m 1 c).arrAt · cfg1.N) (hF1_d m c) (hrest1_d m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at the contents before it, left with them at the
    contents after it, the generator register at some state and nothing owed riding along. The windows' arrays are
    split out of the unscoped buffers at entry and put back at exit; the scoped buffers and the register pass
    through the region invariant, whose first and last instances are the launch's. -/
def reg2_d : Pipeline.RegionSeg (pcfgs (F := F)) Gen.adm (pdats_d m) () defs₀ 𝒱_d L_d lv_d 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L_d lv_d 2 fun _ _ => rfl
  pre c := iprop(StableHlo.held (c : Thread nD τ) (Pipeline.ucRefs τ sig) (Gen.V11 m (outs1 m) c) ∗ R_d c)
  post c := iprop(StableHlo.held (c : Thread nD τ) (Pipeline.ucRefs τ sig) (Gen.V12 m (outs m) c) ∗ R_d c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) Gen.adm (pdats_d m) launch2.win launch2.arr_whole c
      ((pdats_d m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (ent2 m) c)
    unfold Pipeline.ΦA
    iintro ⟨Hp, -, Hr⟩
    isplitl [Hr]; · iexact Hr
    iexact Hp
  hout c := by
    refine .trans (hout2 (ent2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats_d m) ((pdats_d m 2 c).share_full fun _ => rfl)
      (ent2 m c) (ex2_d m c) ((pdats_d m 2 c).arrAt · cfg2.N) (hF2_d m c) (hrest2_d m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's element of the user algebra is the pipeline library's, and no ghost resource is handed out. -/
theorem hu₀_launch_d : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands each core beside its buffers makes the riding state on every core: the register at its
    launch state, nothing owed. -/
theorem hE0_launch_d : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L_d lv_d)
      ⊢ (|={Set.univ}=> bigSep Finset.univ (fun c : Dev nD => R_d (F := F) c) : sProp 𝕄) := by
  have h1 : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))
      ⊢ (R_d (F := F) c : sProp 𝕄) := fun c => by
    iintro ⟨-, HO, -, Hp, -⟩
    isplitl [Hp]; · iexists _; iexact Hp
    iexists ∅; iexact HO
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => R_d (F := F) c) : sProp 𝕄) :=
    bigSep_mono fun c _ => h1 c
  iintro ⟨H, -⟩
  imodintro
  iapply hm
  iexact H

/-! ## The frame -/

/-- The frame of the program, at any instance. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱_d L_d lv_d (fun _ _ => rfl) ρ (outs m) (pdats_d m) 0 (fun _ => iprop(emp))
    (initOf (Pipeline.cells cfgs cellOf_inj) (Pipeline.launchToks cfgs cellOf_inj))
    hu₀_launch_d (fun _ c => R_d c) (hE0_launch_d ρ) (fun c => by iintro ⟨-, H⟩; iexact H)
    (reg0_d m) (fun c => .rfl) (fun c => .rfl)
    (reg1_d m) (fun c => by rw [V3_outs_d]; exact .rfl) (fun c => .rfl)
    (reg2_d m) (fun c => by rw [V11_outs_d]; exact .rfl) (fun c => .rfl)

end Cert.Kernel.Hand

end
-- ==== Proof.HiddenData.lean ====
/-
  First dense layer, h = leaky_relu(image · W1 + b1), as a pipeline over a 4 × 4 grid (column tile j of the
  hidden axis, reduction step k): the proof data of the region.

  At point t = 4 j + k the body sees the whole image (resident), the 1024 × 1024 tile (k, j) of W1, the bias
  tile j and the output tile j. A 512 × 1024 accumulator lives in scratch across the four reduction steps:
  at k = 0 it is reset to zero and receives the first partial product, at every later step the next partial
  product is added, and at k = 3 the bias is added, the leaky rectifier applied and the tile stored.
  This file only NAMES these contents (the accumulator after every point, the stored tile, the region
  invariant holding the accumulator between points) and packages them as the pipeline's proof data.
-/
import proofs.«408419_j40879498728834_3_alg».proof.Proof.Gen.KernelIdeal.Launch
import proofs.«408419_j40879498728834_3_alg».proof.Proof.Gen.KernelIdeal.Skeleton
import proofs.«408419_j40879498728834_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 512 × 1024 column band of the resident image that reduction step `i 1` multiplies: columns
    1024·k … 1024·k + 1023. -/
def band0 (i : grid0.Coords) (x : Vec F S512x4096 .f32) : Vec F S512x1024 .f32 :=
  View.ld x (Rect.unit (s := S512x4096) (k0_off1 i) S512x1024.size (k0_off1_inb i))

/-- The accumulator after point `n`: at a first reduction step the partial product over zero, afterwards
    the partial product over what the point before left. -/
def acc0 (c : Dev nD) : (n : ℕ) → n < cfg0.N → Vec F S512x1024 .f32
  | 0, hn => k0_pay2 (band0 (grid0.coords ⟨0, hn⟩) (iblk0 V c 0 ⟨0, hn⟩)) (iblk0 V c 1 ⟨0, hn⟩) k0_pay1
  | n + 1, hn =>
    if (n + 1) % 4 = 0 then
      k0_pay2 (band0 (grid0.coords ⟨n + 1, hn⟩) (iblk0 V c 0 ⟨n + 1, hn⟩)) (iblk0 V c 1 ⟨n + 1, hn⟩) k0_pay1
    else
      k0_pay2 (band0 (grid0.coords ⟨n + 1, hn⟩) (iblk0 V c 0 ⟨n + 1, hn⟩)) (iblk0 V c 1 ⟨n + 1, hn⟩) (acc0 c n (Nat.lt_of_succ_lt hn))

/-- The output tile a last reduction step stores: bias added to the accumulator, leaky rectifier applied. -/
def out0 (c : Dev nD) (t : Fin cfg0.N) : Vec F S512x1024 .bf16 :=
  k0_pay3 (acc0 V c t.val t.isLt) (iblk0 V c 2 t)

/-- The accumulator's scratch buffer, whole. -/
abbrev scr0 : Memref sig .tc .vmem S512x1024 .f32 := Memref.whole cc0_scratch0

/-- The region invariant before point `n`: before the first point the scratch holds anything; afterwards it
    holds the accumulator the point before left. The other scoped buffers and the generator register ride along. -/
def PhiS0 (c : Dev nD) : (n : ℕ) → n ≤ cfg0.N → sProp 𝕄
  | 0, _ => Pipeline.ΦA spec0 c
  | n + 1, hn => iprop(iprop(owns (c : Thread nD τ) scr0 fullShare (acc0 V c n hn))
      ∗ Pipeline.scopedRestBut (Ix := Unit) (Name := ℕ) (U := UR sig nD τ) (Lvl := ℕ) (Val := Elt F) spec0 c [cc0_scratch0]
      ∗ (∃ r, prngReg c r))

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

end Cert.KernelIdeal.Hand

end
-- ==== Proof.FeatData.lean ====
/-
  Second dense layer, im_ft = h · W2 + b2, as a pipeline over a 2 × 4 grid (column tile n of the embedding
  axis, reduction step k): the proof data of the region.

  At point t = 4 n + k the body sees the 512 × 1024 column band k of h, the 1024 × 512 tile (k, n) of W2, the
  bias tile n and the output tile n. A 512 × 512 accumulator lives in scratch across the four reduction steps:
  reset to zero and given the first partial product at k = 0, the next partial product added at every later
  step, and at k = 3 the bias is added and the tile stored. This file names those contents and packages them
  as the pipeline's proof data.
-/
import proofs.«408419_j40879498728834_3_alg».proof.Proof.Gen.KernelIdeal.Launch
import proofs.«408419_j40879498728834_3_alg».proof.Proof.Gen.KernelIdeal.Skeleton
import proofs.«408419_j40879498728834_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a first reduction step the partial product over zero, afterwards
    the partial product over what the point before left. -/
def acc1 (c : Dev nD) : (n : ℕ) → n < cfg1.N → Vec F S512x512 .f32
  | 0, hn => k1_pay2 (iblk1 V c 0 ⟨0, hn⟩) (iblk1 V c 1 ⟨0, hn⟩) k1_pay1
  | n + 1, hn =>
    if (n + 1) % 4 = 0 then
      k1_pay2 (iblk1 V c 0 ⟨n + 1, hn⟩) (iblk1 V c 1 ⟨n + 1, hn⟩) k1_pay1
    else
      k1_pay2 (iblk1 V c 0 ⟨n + 1, hn⟩) (iblk1 V c 1 ⟨n + 1, hn⟩) (acc1 c n (Nat.lt_of_succ_lt hn))

/-- The output tile a last reduction step stores: bias added to the accumulator. -/
def out1 (c : Dev nD) (t : Fin cfg1.N) : Vec F S512x512 .bf16 :=
  k1_pay3 (acc1 V c t.val t.isLt) (iblk1 V c 2 t)

/-- The accumulator's scratch buffer, whole. -/
abbrev scr1 : Memref sig .tc .vmem S512x512 .f32 := Memref.whole cc1_scratch0

/-- The region invariant before point `n`: before the first point the scratch holds anything; afterwards it
    holds the accumulator the point before left. The other scoped buffers and the generator register ride along. -/
def PhiS1 (c : Dev nD) : (n : ℕ) → n ≤ cfg1.N → sProp 𝕄
  | 0, _ => Pipeline.ΦA spec1 c
  | n + 1, hn => iprop(iprop(owns (c : Thread nD τ) scr1 fullShare (acc1 V c n hn))
      ∗ Pipeline.scopedRestBut (Ix := Unit) (Name := ℕ) (U := UR sig nD τ) (Lvl := ℕ) (Val := Elt F) spec1 c [cc1_scratch0]
      ∗ (∃ r, prngReg c r))

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

end Cert.KernelIdeal.Hand

end
-- ==== Proof.MixData.lean ====
/-
  The weighted aspect mean, out[b] = (1/2000) · Σ_a (im_ft[b,:] · aspects[a,:]) · weights[b,a], over the aspect
  axis padded to 2048, as a pipeline over a 2 × 4 grid (row tile m of the batch, aspect tile a): the proof data
  of the region.

  At point t = 4 m + a the body sees the 256 × 1024 row tile m of im_ft, the 512 × 1024 tile a of the padded
  aspects, the 256 × 512 tile (m, a) of the padded weights and the 256 × 1 output tile m. A 256 × 1 accumulator
  lives in scratch across the four aspect tiles: reset to zero and given the first partial weighted sum at
  a = 0, the next one added at every later step, and at a = 3 scaled by 1/2000 and stored. This file names
  those contents and packages them as the pipeline's proof data.
-/
import proofs.«408419_j40879498728834_3_alg».proof.Proof.Gen.KernelIdeal.Launch
import proofs.«408419_j40879498728834_3_alg».proof.Proof.Gen.KernelIdeal.Skeleton
import proofs.«408419_j40879498728834_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: at a first aspect tile the partial weighted sum over zero, afterwards
    the partial weighted sum over what the point before left. -/
def acc2 (c : Dev nD) : (n : ℕ) → n < cfg2.N → Vec F S256x1 .f32
  | 0, hn => k2_pay2 (iblk2 V c 0 ⟨0, hn⟩) (iblk2 V c 1 ⟨0, hn⟩) (iblk2 V c 2 ⟨0, hn⟩) k2_pay1
  | n + 1, hn =>
    if (n + 1) % 4 = 0 then
      k2_pay2 (iblk2 V c 0 ⟨n + 1, hn⟩) (iblk2 V c 1 ⟨n + 1, hn⟩) (iblk2 V c 2 ⟨n + 1, hn⟩) k2_pay1
    else
      k2_pay2 (iblk2 V c 0 ⟨n + 1, hn⟩) (iblk2 V c 1 ⟨n + 1, hn⟩) (iblk2 V c 2 ⟨n + 1, hn⟩) (acc2 c n (Nat.lt_of_succ_lt hn))

/-- The output tile a last aspect tile stores: the accumulator scaled by the mean's reciprocal. -/
def out2 (c : Dev nD) (t : Fin cfg2.N) : Vec F S256x1 .f32 :=
  k2_pay3 (acc2 V c t.val t.isLt)

/-- The accumulator's scratch buffer, whole. -/
abbrev scr2 : Memref sig .tc .vmem S256x1 .f32 := Memref.whole cc2_scratch0

/-- The region invariant before point `n`: before the first point the scratch holds anything; afterwards it
    holds the accumulator the point before left. The other scoped buffers and the generator register ride along. -/
def PhiS2 (c : Dev nD) : (n : ℕ) → n ≤ cfg2.N → sProp 𝕄
  | 0, _ => Pipeline.ΦA spec2 c
  | n + 1, hn => iprop(iprop(owns (c : Thread nD τ) scr2 fullShare (acc2 V c n hn))
      ∗ Pipeline.scopedRestBut (Ix := Unit) (Name := ℕ) (U := UR sig nD τ) (Lvl := ℕ) (Val := Elt F) spec2 c [cc2_scratch0]
      ∗ (∃ r, prngReg c r))

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

end Cert.KernelIdeal.Hand

end
-- ==== Proof.Entry.lean ====
/-
  The buffer contents each of the three regions is entered with, as one chain through the program: the launch
  memory, the host operations before a region, and what the regions before it left in their output arrays.

  Region 0 (first layer) is entered after the bias b1 has been laid out as a row; its output array h is what its
  pipeline leaves. Region 1 (second layer) is entered with that h and b2 as a row; region 2 (the weighted mean)
  with region 1's output, the gathered brand weights padded to 2048 columns and the aspects padded to 2048 rows.
  The contents the regions leave are the unknowns of the program's conditional frame; here they are named, one
  region after the other, each from the proof data of the region that writes it.
-/
import proofs.«408419_j40879498728834_3_alg».proof.Proof.Gen.KernelIdeal.Regions
import proofs.«408419_j40879498728834_3_alg».proof.Proof.HiddenData
import proofs.«408419_j40879498728834_3_alg».proof.Proof.FeatData
import proofs.«408419_j40879498728834_3_alg».proof.Proof.MixData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- What region 0 is entered with, read at the TensorCore's references. -/
abbrev ent0 (c : Dev nD) (b : Ref sig .tc) : Buf (Elt F) ((c : Thread nD τ).loc b) := Gen.V1 m c b

/-- Core `c`'s buffers when region 0 is left: its arrays at what its pipeline leaves, the rest as entered. -/
def W2 (c : Dev nD) : Valuation τ sig (Elt F) :=
  Pipeline.withArrays spec0 c (Gen.V1 m c) fun w => (dat0 (ent0 m) c).arrAt w cfg0.N

/-- The regions' results with only region 0's named. -/
def outs0 : Gen.Outs (F := F) := fun _ r c => W2 m c r

/-- What region 1 is entered with. -/
abbrev ent1 (c : Dev nD) (b : Ref sig .tc) : Buf (Elt F) ((c : Thread nD τ).loc b) := Gen.V3 m (outs0 m) c b

/-- Core `c`'s buffers when region 1 is left. -/
def W4 (c : Dev nD) : Valuation τ sig (Elt F) :=
  Pipeline.withArrays spec1 c (Gen.V3 m (outs0 m) c) fun w => (dat1 (ent1 m) c).arrAt w cfg1.N

/-- The regions' results with regions 0's and 1's named. -/
def outs1 : Gen.Outs (F := F) := fun j r c => if j = 2 then W2 m c r else W4 m c r

/-- What region 2 is entered with. -/
abbrev ent2 (c : Dev nD) (b : Ref sig .tc) : Buf (Elt F) ((c : Thread nD τ).loc b) := Gen.V11 m (outs1 m) c b

/-- Core `c`'s buffers when region 2 is left. -/
def W12 (c : Dev nD) : Valuation τ sig (Elt F) :=
  Pipeline.withArrays spec2 c (Gen.V11 m (outs1 m) c) fun w => (dat2 (ent2 m) c).arrAt w cfg2.N

/-- What the three regions leave in their output arrays (read at item 2: the first layer's; at item 4: the second
    layer's; at item 12: the weighted mean's). -/
def outs : Gen.Outs (F := F) := fun j r c => if j = 2 then W2 m c r else if j = 4 then W4 m c r else W12 m c r

end Cert.KernelIdeal.Hand

end
-- ==== Proof.HiddenBody.lean ====
/-
  The first dense layer's region: the body obligation.

  The grid is 4 × 4; point t = 4 j + k works on column tile j of the hidden axis at reduction step k. The body
  has three control cases, decided by two tests on k. At k = 0 the scratch accumulator is reset to zero and
  then receives the partial product of the image's column band k with the weight tile; at k = 1, 2 the partial
  product is added to what the point before left; at k = 3 it is added, and then the bias is added, the leaky
  rectifier applied and the output tile stored. Each case is run once, on arbitrary whole memrefs and
  arbitrary contents, to an explicit post over the payloads; the obligation at a point is the case its
  residue modulo 4 selects, at the point's staging buffers and blocks. At the points with k ≠ 3 the output
  window is idle and not written back, so its buffer is handed back untouched.
-/
import proofs.«408419_j40879498728834_3_alg».proof.Proof.HiddenData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The three cases of the body, each run once -/

/-- The first conditional's test, from the grid coordinates: the reduction step is the first. -/
abbrev first0 (i : grid0.Coords) : Prop := (Scalar.cmpi .ne (Scalar.extui (Scalar.cmpi .eq (BitVec.ofNat 32 (i 1).val) 0#32)) 0#32) = 1#1
/-- The second conditional's test: the reduction step is the last. -/
abbrev last0 (i : grid0.Coords) : Prop := k0_cond2 i = 1#1

/-- The zero offsets of a whole-tile rectangle, however spelt. -/
theorem zeros0 : (![0, 0] : Fin 2 → ℕ) = fun _ => 0 := funext fun a => by fin_cases a <;> rfl

/-- Writes whose last is through the whole-shape rectangle cover the shape. -/
theorem cover_whole0 {Val : EltTy → Type} {S : Shape} {e : EltTy} {off : Fin S.rank → ℕ} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

set_option maxHeartbeats 1000000 in
/-- A middle reduction step: the scratch goes from `xs` to the partial product added to `xs`; nothing else moves. -/
theorem run0_mid (c : Dev nD) (i : grid0.Coords) (arg2 : Memref sig .tc .vmem S512x4096 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬first0 i) (hc1 : ¬last0 i)
    (x0 : Vec F S512x4096 .f32) (x1 : Vec F S1024x1024 .f32) (x2 : Vec F S1x1024 .f32) (xi : Vec F S512x1024 .bf16) (xs : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k0_pay2 (band0 i x0) x1 xs)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (cover_whole0 zeros0 _ _ _), View.canon_unit_zero zeros0]
  simp only [View.readAt_eq_ld, harg2.read_unread, harg3.read_unread, harg6.read_unread]
  simp only [View.ld_unit_zero (S := S1024x1024) zeros0, View.ld_unit_zero (S := S512x1024) zeros0]
  rfl

set_option maxHeartbeats 1000000 in
/-- A first reduction step: the scratch, whatever it held, is reset to zero and then receives the first partial
    product; nothing else moves. -/
theorem run0_first (c : Dev nD) (i : grid0.Coords) (arg2 : Memref sig .tc .vmem S512x4096 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : first0 i) (hc1 : ¬last0 i)
    (x0 : Vec F S512x4096 .f32) (x1 : Vec F S1024x1024 .f32) (x2 : Vec F S1x1024 .f32) (xi : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k0_pay2 (band0 i x0) x1 k0_pay1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [View.read_writes_eq_canon _ _ _ (cover_whole0 zeros0 _ _ _), View.canon_cons_unit_zero zeros0]
  simp only [View.readAt_eq_ld, harg2.read_unread, harg3.read_unread, View.readCov_unit_zero (S := S512x1024) _ zeros0]
  simp only [View.ld_unit_zero (S := S1024x1024) zeros0]
  rfl

set_option maxHeartbeats 1000000 in
/-- A last reduction step: the scratch goes from `xs` to the partial product added to `xs`, and the output tile,
    whatever it held, receives the rectified, biased accumulator. -/
theorem run0_last (c : Dev nD) (i : grid0.Coords) (arg2 : Memref sig .tc .vmem S512x4096 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (hc0 : ¬first0 i) (hc1 : last0 i)
    (x0 : Vec F S512x4096 .f32) (x1 : Vec F S1024x1024 .f32) (x2 : Vec F S1x1024 .f32) (xs : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 (band0 i x0) x1 xs) x2) ∗ owns (c : Thread nD τ) arg6 fullShare (k0_pay2 (band0 i x0) x1 xs)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (cover_whole0 zeros0 _ _ _), View.canon_unit_zero zeros0]
    simp only [View.readAt_eq_ld, harg2.read_unread, harg3.read_unread, harg4.read_unread, harg6.read_unread, View.readCov_unit_zero (S := S512x1024) _ zeros0]
    simp only [View.ld_unit_zero (S := S1024x1024) zeros0, View.ld_unit_zero (S := S512x1024) zeros0, View.ld_unit_zero (S := S1x1024) zeros0]
    rfl
  iexists _; isplitr
  swap; · iexact HS
  ipureintro
  sl_unfold_run_names
  rw [View.read_writes_eq_canon _ _ _ (cover_whole0 zeros0 _ _ _), View.canon_unit_zero zeros0]
  simp only [View.readAt_eq_ld, harg2.read_unread, harg3.read_unread, harg6.read_unread]
  simp only [View.ld_unit_zero (S := S1024x1024) zeros0, View.ld_unit_zero (S := S512x1024) zeros0]
  rfl

/-! ## The tests over the grid; where the output window is idle -/

/-- The first test holds at the points ≡ 0 (mod 4). -/
theorem first0_iff : ∀ t : Fin cfg0.N, first0 (grid0.coords t) ↔ t.val % 4 = 0 :=
  (by decide +kernel : ∀ t : Fin grid0.N, first0 (grid0.coords t) ↔ t.val % 4 = 0)
/-- The second test holds at the points ≡ 3 (mod 4). -/
theorem last0_iff : ∀ t : Fin cfg0.N, last0 (grid0.coords t) ↔ t.val % 4 = 3 :=
  (by decide +kernel : ∀ t : Fin grid0.N, last0 (grid0.coords t) ↔ t.val % 4 = 3)

/-- The inputs are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- The output window is idle exactly off the last reduction step, -/
theorem idle0_3 : ∀ t : Fin cfg0.N, ¬t.val % 4 = 3 → cfg0.idle 3 (grid0.coords t) = true := by decide +kernel
theorem live0_3 : ∀ t : Fin cfg0.N, t.val % 4 = 3 → cfg0.idle 3 (grid0.coords t) = false := by decide +kernel
/-- and there its block is not written back. -/
theorem noFlush0_3 (t : Fin cfg0.N) (h : ¬t.val % 4 = 3) : (cfg0.win 3).flush t = false :=
  Bool.eq_false_iff.mpr fun hf => h ((flush0_3 t).mp hf)

/-! ## The accumulator, point by point -/

variable (V : (c : Dev nD) → (b : Ref sig .tc) → Buf (Elt F) ((c : Thread nD τ).loc b))

/-- At a first reduction step the accumulator is the partial product over zero. -/
theorem acc0_first (c : Dev nD) (t : Fin cfg0.N) (h : t.val % 4 = 0) :
    acc0 V c t.val t.isLt = k0_pay2 (band0 (grid0.coords t) (iblk0 V c 0 t)) (iblk0 V c 1 t) k0_pay1 := by
  obtain ⟨n, hn⟩ := t
  cases n with
  | zero => rfl
  | succ n => exact if_pos h

/-- At a later step it is the partial product over what the point before left. -/
theorem acc0_next (c : Dev nD) (t : Fin cfg0.N) (h : ¬t.val % 4 = 0) :
    acc0 V c t.val t.isLt = k0_pay2 (band0 (grid0.coords t) (iblk0 V c 0 t)) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant, unfolded -/

/-- The scoped buffers of the other regions, unopened. -/
abbrev others0 (c : Dev nD) : sProp 𝕄 :=
  Pipeline.scopedRestBut (Ix := Unit) (Name := ℕ) (U := UR sig nD τ) (Lvl := ℕ) (Val := Elt F) spec0 c [cc0_scratch0]

/-- What the launch hands the region: the scratch at some contents, the other scoped buffers, the generator register. -/
theorem PhiA0_eq (c : Dev nD) :
    (Pipeline.ΦA spec0 c : sProp 𝕄)
      = iprop(iprop((∃ d, owns (c : Thread nD τ) scr0 fullShare d) ∗ others0 c) ∗ (∃ r, prngReg c r)) := by
  unfold Pipeline.ΦA
  rw [Pipeline.scopedRest_split_of_list spec0 c [cc0_scratch0] (by decide) (by decide)]
  simp only [bigSepL_singleton, scr0, owns_whole]
  try rfl

theorem PhiS0_zero (c : Dev nD) (n : ℕ) (h : n ≤ cfg0.N) (hz : n = 0) : PhiS0 V c n h = Pipeline.ΦA spec0 c := by
  subst hz; rfl

/-- After point `n`: the scratch at that point's accumulator. -/
theorem PhiS0_succ (c : Dev nD) (n : ℕ) (hn : n < cfg0.N) :
    PhiS0 V c (n + 1) hn = iprop(iprop(owns (c : Thread nD τ) scr0 fullShare (acc0 V c n hn)) ∗ others0 c ∗ (∃ r, prngReg c r)) := rfl

/-- Before a point that is not the first: the scratch at the accumulator the point before left. -/
theorem PhiS0_pos (c : Dev nD) (n : ℕ) (h : n ≤ cfg0.N) (hz : n ≠ 0) :
    PhiS0 V c n h = iprop(iprop(owns (c : Thread nD τ) scr0 fullShare (acc0 V c (n - 1) (by omega))) ∗ others0 c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-! ## What the buffers hold around the body -/

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- Each input's current staging buffer holds its block at every point, fetched there or not: unfetched, the block
    index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Each window's current staging memref at point `t`, as the pipeline passes it, and its wholeness. -/
abbrev m0_0 (t : Fin cfg0.N) : Memref sig .tc .vmem S512x4096 .f32 := win0_0.stage (cfg0.slots t 0)
abbrev w0_0 (t : Fin cfg0.N) : (m0_0 t).IsWhole := hstage0_0 ((cfg0.slots t 0).cast nbuf0_0)
abbrev m0_1 (t : Fin cfg0.N) : Memref sig .tc .vmem S1024x1024 .f32 := win0_1.stage (cfg0.slots t 1)
abbrev w0_1 (t : Fin cfg0.N) : (m0_1 t).IsWhole := hstage0_1 ((cfg0.slots t 1).cast nbuf0_1)
abbrev m0_2 (t : Fin cfg0.N) : Memref sig .tc .vmem S1x1024 .f32 := win0_2.stage (cfg0.slots t 2)
abbrev w0_2 (t : Fin cfg0.N) : (m0_2 t).IsWhole := hstage0_2 ((cfg0.slots t 2).cast nbuf0_2)
abbrev m0_3 (t : Fin cfg0.N) : Memref sig .tc .vmem S512x1024 .bf16 := win0_3.stage (cfg0.slots t 3)
abbrev w0_3 (t : Fin cfg0.N) : (m0_3 t).IsWhole := hstage0_3 ((cfg0.slots t 3).cast nbuf0_3)

/-! ## The body obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (m0_0 t) fullShare ((dat0 V c).before 0 t d))
    ∗ (∃ d, owns (c : Thread nD τ) (m0_1 t) fullShare ((dat0 V c).before 1 t d))
    ∗ (∃ d, owns (c : Thread nD τ) (m0_2 t) fullShare ((dat0 V c).before 2 t d))
    ∗ (∃ d, owns (c : Thread nD τ) (m0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the residue of the point modulo 4 says which
    case runs; the invariant hands the body the scratch (at anything before the first point, else at the
    accumulator the point before left) and takes it back at this point's accumulator; off the last reduction
    step the output's buffer goes back as it came, at the last step it holds the stored tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (m0_0 t) fullShare ((dat0 V c).after 0 t) from by
    unfold Dat.leavesExact; rw [live0_0 t], after0_0]
  rw [show (dat0 V c).leavesExact 1 t = owns (c : Thread nD τ) (m0_1 t) fullShare ((dat0 V c).after 1 t) from by
    unfold Dat.leavesExact; rw [live0_1 t], after0_1]
  rw [show (dat0 V c).leavesExact 2 t = owns (c : Thread nD τ) (m0_2 t) fullShare ((dat0 V c).after 2 t) from by
    unfold Dat.leavesExact; rw [live0_2 t], after0_2]
  have hN : t.val < 16 := lt_of_lt_of_eq t.isLt (show cfg0.N = 16 from N_0)
  by_cases h0 : t.val % 4 = 0
  · have h1 : ¬t.val % 4 = 3 := by omega
    have hc0 : first0 (grid0.coords t) := (first0_iff t).mpr h0
    have hc1 : ¬last0 (grid0.coords t) := fun h => h1 ((last0_iff t).mp h)
    rw [Dat.leavesExact_idle (dat0 V c) 3 t (idle0_3 t h1) (noFlush0_3 t h1)]
    rw [acc0_first V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_first c (grid0.coords t) (m0_0 t) (w0_0 t) (m0_1 t) (w0_1 t) (m0_2 t) (w0_2 t) (m0_3 t) (w0_3 t) scr0 (Memref.isWhole_whole _) hc0 hc1 (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply (run0_first c (grid0.coords t) (m0_0 t) (w0_0 t) (m0_1 t) (w0_1 t) (m0_2 t) (w0_2 t) (m0_3 t) (w0_3 t) scr0 (Memref.isWhole_whole _) hc0 hc1 (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬first0 (grid0.coords t) := fun h => h0 ((first0_iff t).mp h)
    rw [acc0_next V c t h0]
    rw [PhiS0_castSucc V c t, PhiS0_pos V c _ _ hz]
    by_cases h1 : t.val % 4 = 3
    · have hc1 : last0 (grid0.coords t) := (last0_iff t).mpr h1
      rw [show (dat0 V c).leavesExact 3 t = owns (c : Thread nD τ) (m0_3 t) fullShare ((dat0 V c).after 3 t) from by
        unfold Dat.leavesExact; rw [live0_3 t h1], after0_3]
      unfold out0
      rw [acc0_next V c t h0]
      iintro ⟨⟨HS, Hr, Hg⟩, Ho, ⟨%d0, H0⟩, ⟨%d1, H1⟩, ⟨%d2, H2⟩, ⟨%d3, H3⟩⟩
      iapply (run0_last c (grid0.coords t) (m0_0 t) (w0_0 t) (m0_1 t) (w0_1 t) (m0_2 t) (w0_2 t) (m0_3 t) (w0_3 t) scr0 (Memref.isWhole_whole _) hc0 hc1 (iblk0 V c 0 t) (iblk0 V c 1 t) (iblk0 V c 2 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hc1 : ¬last0 (grid0.coords t) := fun h => h1 ((last0_iff t).mp h)
      rw [Dat.leavesExact_idle (dat0 V c) 3 t (idle0_3 t h1) (noFlush0_3 t h1)]
      iintro ⟨⟨HS, Hr, Hg⟩, Ho, ⟨%d0, H0⟩, ⟨%d1, H1⟩, ⟨%d2, H2⟩, ⟨%d3, H3⟩⟩
      iapply (run0_mid c (grid0.coords t) (m0_0 t) (w0_0 t) (m0_1 t) (w0_1 t) (m0_2 t) (w0_2 t) (m0_3 t) (w0_3 t) scr0 (Memref.isWhole_whole _) hc0 hc1 (iblk0 V c 0 t) (iblk0 V c 1 t) (iblk0 V c 2 t) ((dat0 V c).before 3 t d3) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨HS, Hr, Hg⟩
  isplitl [HS Hr]
  · isplitl [HS]
    · iexists _; iexact HS
    iexact Hr
  iexact Hg

end Cert.KernelIdeal.Hand

end
-- ==== Proof.FeatBody.lean ====
/- The second layer's region: the body obligation. The three control cases of the body (a first reduction step:
   the accumulator reset to zero and given the first partial product; a middle step: the next partial product added;
   a last step: the last partial product added, then the bias added and the tile stored), each run on any whole
   memrefs with an explicit post over the payloads; the schedule facts at a point; the invariant's forms; the
   obligation at a generic point by cases on the point's residue mod 4. -/
import proofs.«408419_j40879498728834_3_alg».proof.Proof.FeatData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The first conditional's condition: the reduction coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition: the reduction coordinate is the last. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The zero offsets, however spelt. -/
theorem hz1 : (![0, 0] : Fin 2 → Nat) = fun _ => 0 := funext fun a => by fin_cases a <;> rfl

/-- A list of writes whose last is through the whole-shape rectangle covers the shape. -/
theorem cover_unit_cons1 {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

set_option maxHeartbeats 1000000 in
/-- A first reduction step: the accumulator is reset to zero, then gets the first partial product. -/
theorem run1_A (c : Dev nD) (i : grid1.Coords) (arg2 : Memref sig .tc .vmem S512x1024 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i)
    (x0 : Vec F S512x1024 .bf16) (x1 : Vec F S1024x512 .f32) (x2 : Vec F S1x512 .f32) (xi : Vec F S512x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k1_pay2 x0 x1 k1_pay1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [View.read_writes_eq_canon _ _ _ (cover_unit_cons1 hz1 _ _ _), View.canon_cons_unit_zero hz1]
  simp only [View.readAt_eq_ld, harg2.read_unread, harg3.read_unread, harg4.read_unread, harg6.read_unread, View.ld_unit_zero (S := S512x1024) hz1, View.ld_unit_zero (S := S1024x512) hz1, View.ld_unit_zero (S := S1x512) hz1, View.ld_unit_zero (S := S512x512) hz1, View.readCov_unit_zero (S := S512x512) _ hz1]

set_option maxHeartbeats 1000000 in
/-- A middle reduction step: neither conditional taken; the accumulator gets the next partial product added. -/
theorem run1_B (c : Dev nD) (i : grid1.Coords) (arg2 : Memref sig .tc .vmem S512x1024 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i)
    (x0 : Vec F S512x1024 .bf16) (x1 : Vec F S1024x512 .f32) (x2 : Vec F S1x512 .f32) (xi : Vec F S512x512 .bf16) (xs : Vec F S512x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k1_pay2 x0 x1 xs)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (cover_unit_cons1 hz1 _ _ _), View.canon_unit_zero hz1]
  simp only [View.readAt_eq_ld, harg2.read_unread, harg3.read_unread, harg4.read_unread, harg6.read_unread, View.ld_unit_zero (S := S512x1024) hz1, View.ld_unit_zero (S := S1024x512) hz1, View.ld_unit_zero (S := S1x512) hz1, View.ld_unit_zero (S := S512x512) hz1, View.readCov_unit_zero (S := S512x512) _ hz1]

set_option maxHeartbeats 1000000 in
/-- A last reduction step: the accumulator gets the last partial product, then the bias is added and the tile stored. -/
theorem run1_C (c : Dev nD) (i : grid1.Coords) (arg2 : Memref sig .tc .vmem S512x1024 .bf16) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i)
    (x0 : Vec F S512x1024 .bf16) (x1 : Vec F S1024x512 .f32) (x2 : Vec F S1x512 .f32) (xs : Vec F S512x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (cover_unit_cons1 hz1 _ _ _), View.canon_unit_zero hz1]
    simp only [View.readAt_eq_ld, harg2.read_unread, harg3.read_unread, harg4.read_unread, harg6.read_unread, View.ld_unit_zero (S := S512x1024) hz1, View.ld_unit_zero (S := S1024x512) hz1, View.ld_unit_zero (S := S1x512) hz1, View.ld_unit_zero (S := S512x512) hz1, View.readCov_unit_zero (S := S512x512) _ hz1]
  iexists _; isplitr
  swap; · iexact HS
  ipureintro
  sl_unfold_run_names
  rw [View.read_writes_eq_canon _ _ _ (cover_unit_cons1 hz1 _ _ _), View.canon_unit_zero hz1]
  simp only [View.readAt_eq_ld, harg2.read_unread, harg3.read_unread, harg4.read_unread, harg6.read_unread, View.ld_unit_zero (S := S512x1024) hz1, View.ld_unit_zero (S := S1024x512) hz1, View.ld_unit_zero (S := S1x512) hz1, View.ld_unit_zero (S := S512x512) hz1, View.readCov_unit_zero (S := S512x512) _ hz1]

/-- The proof data's arrays are the region-entry contents. -/
theorem A_eq1 (c : Dev nD) (w : Fin cfg1.W) : (dat1 V c).A w = V c (Pipeline.arrRef spec1 w) := by
  dsimp only [dat1]

/-! ## The schedule at a point -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off a last reduction step the output window is idle, -/
theorem idleAt1_3 : ∀ t : Fin cfg1.N, ¬cond1_1 (grid1.coords t) → cfg1.idle 3 (grid1.coords t) = true := by decide +kernel
/-- and its block is not written back; -/
theorem noFlush1_3 : ∀ t : Fin cfg1.N, ¬cond1_1 (grid1.coords t) → (cfg1.win 3).flush t = false := by decide +kernel
/-- at a last reduction step it is live. -/
theorem liveAt1_3 : ∀ t : Fin cfg1.N, cond1_1 (grid1.coords t) → cfg1.idle 3 (grid1.coords t) = false := by decide +kernel

/-- Each window's current staging memref at point `t`, and its wholeness. -/
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)

/-! ## The invariant -/

/-- The scoped rest split at the accumulator's buffer. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the region, with the accumulator's buffer as a memref owned at some contents. -/
theorem PhiA1_eq (c : Dev nD) :
    (Pipeline.ΦA spec1 c : sProp 𝕄)
      = iprop(iprop((∃ d, owns (c : Thread nD τ) scr1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scr1, owns_whole]; try rfl

theorem PhiS1_zero (c : Dev nD) (n : ℕ) (h : n ≤ cfg1.N) (hz : n = 0) : PhiS1 V c n h = Pipeline.ΦA spec1 c := by
  subst hz; rfl

/-- After point `n`: the accumulator that point left. -/
theorem PhiS1_succ (c : Dev nD) (n : ℕ) (hn : n < cfg1.N) :
    PhiS1 V c (n + 1) hn = iprop(iprop(owns (c : Thread nD τ) scr1 fullShare (acc1 V c n hn)) ∗ Pipeline.scopedRestBut (Ix := Unit) (Name := ℕ) (U := UR sig nD τ) (Lvl := ℕ) (Val := Elt F) spec1 c [cc1_scratch0] ∗ (∃ r, prngReg c r)) := rfl

/-- Before a point that is not the first: the accumulator the point before left. -/
theorem PhiS1_pos (c : Dev nD) (n : ℕ) (h : n ≤ cfg1.N) (hz : n ≠ 0) :
    PhiS1 V c n h = iprop(iprop(owns (c : Thread nD τ) scr1 fullShare (acc1 V c (n - 1) (by omega))) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

/-- The accumulator after a first reduction step: the partial product over zero. -/
theorem acc1_first (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact if_pos h

/-- The accumulator after a later reduction step: the partial product over what the point before left. -/
theorem acc1_next (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The proof data at a point -/

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body leaves in an input's buffer: its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
/-- At a last reduction step the output's buffer is left at the stored tile. -/
theorem leaves1_3 (c : Dev nD) (t : Fin cfg1.N) (h : cond1_1 (grid1.coords t)) :
    (dat1 V c).leavesExact 3 t = owns (c : Thread nD τ) (ms1_3 t) fullShare (out1 V c t) := by
  rw [show (dat1 V c).leavesExact 3 t = owns (c : Thread nD τ) (ms1_3 t) fullShare ((dat1 V c).after 3 t) from by
    unfold Dat.leavesExact; rw [liveAt1_3 t h], after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's residue mod 4 says which of the three
    cases it is in; the invariant hands the body the accumulator at what the point before left (at anything at the
    first point) and takes it back at this point's; off a last reduction step the output's buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V]
  rw [show (dat1 V c).owesAt () t.succ = (dat1 V c).owesAt () t.castSucc from rfl]
  rw [show (dat1 V c).Φ t.succ = PhiS1 V c (t.val + 1) t.isLt from rfl, PhiS1_succ]
  rw [leaves1_0 V c t, leaves1_1 V c t, leaves1_2 V c t]
  have hN : t.val < 8 := lt_of_lt_of_eq t.isLt (show cfg1.N = 8 from N_1)
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (run1_A c (grid1.coords t) (ms1_0 t) (hs1_0 t) (ms1_1 t) (hs1_1 t) (ms1_2 t) (hs1_2 t) (ms1_3 t) (hs1_3 t) scr1 (Memref.isWhole_whole _) ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (run1_A c (grid1.coords t) (ms1_0 t) (hs1_0 t) (ms1_1 t) (hs1_1 t) (ms1_2 t) (hs1_2 t) (ms1_3 t) (hs1_3 t) scr1 (Memref.isWhole_whole _) ((hcond1_0 t).mpr h0) (fun h => h1 ((hcond1_1 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc1_next V c t h0]
    rw [PhiS1_castSucc V c t, PhiS1_pos V c _ _ hz]
    by_cases h1 : t.val % 4 = 3
    · rw [leaves1_3 V c t ((hcond1_1 t).mpr h1)]
      unfold out1
      rw [acc1_next V c t h0]
      iintro ⟨⟨HS, HR, Hg⟩, Ho, ⟨%d0, H0⟩, ⟨%d1, H1⟩, ⟨%d2, H2⟩, ⟨%d3, H3⟩⟩
      iapply (run1_C c (grid1.coords t) (ms1_0 t) (hs1_0 t) (ms1_1 t) (hs1_1 t) (ms1_2 t) (hs1_2 t) (ms1_3 t) (hs1_3 t) scr1 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      iintro ⟨⟨HS, HR, Hg⟩, Ho, ⟨%d0, H0⟩, ⟨%d1, H1⟩, ⟨%d2, H2⟩, ⟨%d3, H3⟩⟩
      iapply (run1_B c (grid1.coords t) (ms1_0 t) (hs1_0 t) (ms1_1 t) (hs1_1 t) (ms1_2 t) (hs1_2 t) (ms1_3 t) (hs1_3 t) scr1 (Memref.isWhole_whole _) (fun h => h0 ((hcond1_0 t).mp h)) (fun h => h1 ((hcond1_1 t).mp h)) (iblk1 V c 0 t) (iblk1 V c 1 t) (iblk1 V c 2 t) ((dat1 V c).before 3 t d3) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives the launch's back: the accumulator's contents are forgotten. -/
theorem hout1 (c : Dev nD) : (dat1 V c).Φ (Fin.last cfg1.N) ⊢ (Pipeline.ΦA spec1 c : sProp 𝕄) :=
  Phi_out1 V c _ (by rw [Fin.val_last]; have : cfg1.N = 8 := N_1; omega)

end Cert.KernelIdeal.Hand

end
-- ==== Proof.MixBody.lean ====
/- The weighted mean's region: the body obligation.

   The body runs in one of three cases, told by the aspect-tile coordinate: at a first aspect tile it resets the
   accumulator to zero and adds the tile's partial weighted sum; at a middle one it adds the next partial sum; at a
   last one it adds the last partial sum and stores the accumulator, scaled, into the output tile. Each case's run
   is stated with its post over the payloads; the accumulator point by point follows the recursion of the proof
   data; the invariant carries the accumulator's scratch at what the point before left. -/
import proofs.«408419_j40879498728834_3_alg».proof.Proof.MixData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq2 (c : Dev nD) (w : Fin cfg2.W) : (dat2 V c).A w = V c (Pipeline.arrRef spec2 w) := by
  dsimp only [dat2]

/-- The first conditional's condition, from the grid coordinates: the aspect-tile coordinate is zero. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's condition: the aspect-tile coordinate is the last. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-- The zero offsets of a rank-2 whole-shape rectangle, however spelt. -/
theorem hz2 : (![0, 0] : Fin 2 → Nat) = fun _ => 0 := funext fun a => by fin_cases a <;> rfl

/-- A list of writes whose last is through the whole-shape rectangle covers the shape. -/
theorem cover_unit_cons2 {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

/-! ## The body's three runs -/

set_option maxHeartbeats 1000000 in
/-- A first aspect tile: the first conditional taken, the second not; the accumulator is reset to zero and given the
    first partial weighted sum; the output tile is untouched. -/
theorem run2_A (c : Dev nD) (i : grid2.Coords) (arg2 : Memref sig .tc .vmem S256x1024 .bf16) (harg2 : arg2.IsWhole) (arg3 : Memref sig .tc .vmem S512x1024 .f32) (harg3 : arg3.IsWhole) (arg4 : Memref sig .tc .vmem S256x512 .f32) (harg4 : arg4.IsWhole) (arg5 : Memref sig .tc .vmem S256x1 .f32) (harg5 : arg5.IsWhole) (arg6 : Memref sig .tc .vmem S256x1 .f32) (harg6 : arg6.IsWhole) (hc0 : cond2_0 i) (hc1 : ¬cond2_1 i)
    (x0 : Vec F S256x1024 .bf16) (x1 : Vec F S512x1024 .f32) (x2 : Vec F S256x512 .f32) (xi : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k2_pay2 x0 x1 x2 k2_pay1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [View.read_writes_eq_canon _ _ _ (cover_unit_cons2 hz2 _ _ _), View.canon_cons_unit_zero hz2]
  simp only [View.readAt_eq_ld, harg2.read_unread, harg3.read_unread, harg4.read_unread, harg5.read_unread, harg6.read_unread, View.ld_unit_zero (S := S256x1024) hz2, View.ld_unit_zero (S := S512x1024) hz2, View.ld_unit_zero (S := S256x512) hz2, View.ld_unit_zero (S := S256x1) hz2, View.readCov_unit_zero (S := S256x1) _ hz2]

set_option maxHeartbeats 1000000 in
/-- A middle aspect tile: neither conditional taken; the accumulator gets the next partial weighted sum added; the
    output tile is untouched. -/
theorem run2_B (c : Dev nD) (i : grid2.Coords) (arg2 : Memref sig .tc .vmem S256x1024 .bf16) (harg2 : arg2.IsWhole) (arg3 : Memref sig .tc .vmem S512x1024 .f32) (harg3 : arg3.IsWhole) (arg4 : Memref sig .tc .vmem S256x512 .f32) (harg4 : arg4.IsWhole) (arg5 : Memref sig .tc .vmem S256x1 .f32) (harg5 : arg5.IsWhole) (arg6 : Memref sig .tc .vmem S256x1 .f32) (harg6 : arg6.IsWhole) (hc0 : ¬cond2_0 i) (hc1 : ¬cond2_1 i)
    (x0 : Vec F S256x1024 .bf16) (x1 : Vec F S512x1024 .f32) (x2 : Vec F S256x512 .f32) (xi : Vec F S256x1 .f32) (xs : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k2_pay2 x0 x1 x2 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact HS
  ipureintro
  rw [View.read_writes_eq_canon _ _ _ (cover_unit_cons2 hz2 _ _ _), View.canon_unit_zero hz2]
  simp only [View.readAt_eq_ld, harg2.read_unread, harg3.read_unread, harg4.read_unread, harg5.read_unread, harg6.read_unread, View.ld_unit_zero (S := S256x1024) hz2, View.ld_unit_zero (S := S512x1024) hz2, View.ld_unit_zero (S := S256x512) hz2, View.ld_unit_zero (S := S256x1) hz2, View.readCov_unit_zero (S := S256x1) _ hz2]

set_option maxHeartbeats 1000000 in
/-- A last aspect tile: the second conditional taken, the first not; the accumulator gets the last partial weighted
    sum added and the output tile is stored, the accumulator scaled. -/
theorem run2_C (c : Dev nD) (i : grid2.Coords) (arg2 : Memref sig .tc .vmem S256x1024 .bf16) (harg2 : arg2.IsWhole) (arg3 : Memref sig .tc .vmem S512x1024 .f32) (harg3 : arg3.IsWhole) (arg4 : Memref sig .tc .vmem S256x512 .f32) (harg4 : arg4.IsWhole) (arg5 : Memref sig .tc .vmem S256x1 .f32) (harg5 : arg5.IsWhole) (arg6 : Memref sig .tc .vmem S256x1 .f32) (harg6 : arg6.IsWhole) (hc0 : ¬cond2_0 i) (hc1 : cond2_1 i)
    (x0 : Vec F S256x1024 .bf16) (x1 : Vec F S512x1024 .f32) (x2 : Vec F S256x512 .f32) (xs : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 x0 x1 x2 xs)) ∗ owns (c : Thread nD τ) arg6 fullShare (k2_pay2 x0 x1 x2 xs)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (cover_unit_cons2 hz2 _ _ _), View.canon_unit_zero hz2]
    simp only [View.readAt_eq_ld, harg2.read_unread, harg3.read_unread, harg4.read_unread, harg5.read_unread, harg6.read_unread, View.ld_unit_zero (S := S256x1024) hz2, View.ld_unit_zero (S := S512x1024) hz2, View.ld_unit_zero (S := S256x512) hz2, View.ld_unit_zero (S := S256x1) hz2, View.readCov_unit_zero (S := S256x1) _ hz2]
  iexists _; isplitr
  swap; · iexact HS
  ipureintro
  sl_unfold_run_names
  rw [View.read_writes_eq_canon _ _ _ (cover_unit_cons2 hz2 _ _ _), View.canon_unit_zero hz2]
  simp only [View.readAt_eq_ld, harg2.read_unread, harg3.read_unread, harg4.read_unread, harg5.read_unread, harg6.read_unread, View.ld_unit_zero (S := S256x1024) hz2, View.ld_unit_zero (S := S512x1024) hz2, View.ld_unit_zero (S := S256x512) hz2, View.ld_unit_zero (S := S256x1) hz2, View.readCov_unit_zero (S := S256x1) _ hz2]

/-! ## The accumulator point by point -/

/-- At a first aspect tile the accumulator is the partial weighted sum over zero. -/
theorem acc2_first (c : Dev nD) (t : Fin cfg2.N) (h : t.val % 4 = 0) :
    acc2 V c t.val t.isLt = k2_pay2 (iblk2 V c 0 t) (iblk2 V c 1 t) (iblk2 V c 2 t) k2_pay1 := by
  obtain ⟨n, hn⟩ := t
  cases n with
  | zero => exact rfl
  | succ n => exact (if_pos h).trans rfl

/-- At a later aspect tile it is the partial weighted sum over what the point before left. -/
theorem acc2_next (c : Dev nD) (t : Fin cfg2.N) (h : ¬t.val % 4 = 0) :
    acc2 V c t.val t.isLt = k2_pay2 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant point by point -/

theorem PhiS2_zero (c : Dev nD) (n : ℕ) (h : n ≤ cfg2.N) (hz : n = 0) : PhiS2 V c n h = Pipeline.ΦA spec2 c := by
  subst hz; rfl

/-- After point `n`: the accumulator's scratch at that point's accumulator. -/
theorem PhiS2_succ (c : Dev nD) (n : ℕ) (hn : n < cfg2.N) :
    PhiS2 V c (n + 1) hn = iprop(iprop(owns (c : Thread nD τ) scr2 fullShare (acc2 V c n hn))
      ∗ Pipeline.scopedRestBut (Ix := Unit) (Name := ℕ) (U := UR sig nD τ) (Lvl := ℕ) (Val := Elt F) spec2 c [cc2_scratch0]
      ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(owns (c : Thread nD τ) scr2 fullShare (acc2 V c (n - 1) (by omega)))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The launch's scoped rest, split at the accumulator's scratch. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What the launch hands the region, with the accumulator's scratch as a memref owned at some contents. -/
theorem PhiA2_eq (c : Dev nD) :
    (Pipeline.ΦA spec2 c : sProp 𝕄)
      = iprop(iprop((∃ d, owns (c : Thread nD τ) scr2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scr2, owns_whole]; try rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds and leaves, window by window -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Off the last aspect tiles the output window is idle, -/
theorem idleAt2_3 : ∀ t : Fin cfg2.N, ¬cond2_1 (grid2.coords t) → cfg2.idle 3 (grid2.coords t) = true := by decide +kernel
/-- and its block is not written back there; -/
theorem noFlush2_3 : ∀ t : Fin cfg2.N, ¬cond2_1 (grid2.coords t) → (cfg2.win 3).flush t = false := by decide +kernel
/-- at a last aspect tile it is live. -/
theorem liveAt2_3 : ∀ t : Fin cfg2.N, cond2_1 (grid2.coords t) → cfg2.idle 3 (grid2.coords t) = false := by decide +kernel

/-- Each window's current staging memref at point `t`, and its wholeness. -/
abbrev ms2_0 (t : Fin cfg2.N) : Memref sig .tc .vmem S256x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1 .f32 := win2_3.stage (cfg2.slots t 3)
abbrev hs2_3 (t : Fin cfg2.N) : (ms2_3 t).IsWhole := hstage2_3 ((cfg2.slots t 3).cast nbuf2_3)

/-! ## The body obligation at a point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the aspect-tile coordinate says which of the three
    cases the point is in; the invariant hands the body the accumulator's scratch at what the point before left (at
    anything at the first point) and takes it back at this point's accumulator; off the last aspect tiles the output
    window is idle and its buffer comes back untouched, at a last one it holds the scaled accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h1 : t.val % 4 = 3
  · have h0 : ¬t.val % 4 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    unfold out2
    rw [acc2_next V c t h0]
    rw [PhiS2_castSucc V c t, PhiS2_pos V c _ _ hz]
    iintro ⟨⟨HS, HR, Hg⟩, Ho, ⟨%d0, H0⟩, ⟨%d1, H1⟩, ⟨%d2, H2⟩, ⟨%d3, H3⟩⟩
    iapply (run2_C c (grid2.coords t) (ms2_0 t) (hs2_0 t) (ms2_1 t) (hs2_1 t) (ms2_2 t) (hs2_2 t) (ms2_3 t) (hs2_3 t) scr2 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t (fun h => h1 ((hcond2_1 t).mp h))) (noFlush2_3 t (fun h => h1 ((hcond2_1 t).mp h)))]
    by_cases h0 : t.val % 4 = 0
    · rw [acc2_first V c t h0]
      by_cases hz : t.val = 0
      · rw [PhiS2_castSucc V c t, PhiS2_zero V c _ _ hz, PhiA2_eq]
        iintro ⟨⟨⟨HS, HR⟩, Hg⟩, Ho, ⟨%d0, H0⟩, ⟨%d1, H1⟩, ⟨%d2, H2⟩, ⟨%d3, H3⟩⟩
        iapply (run2_A c (grid2.coords t) (ms2_0 t) (hs2_0 t) (ms2_1 t) (hs2_1 t) (ms2_2 t) (hs2_2 t) (ms2_3 t) (hs2_3 t) scr2 (Memref.isWhole_whole _) ((hcond2_0 t).mpr h0) (fun h => h1 ((hcond2_1 t).mp h)) (iblk2 V c 0 t) (iblk2 V c 1 t) (iblk2 V c 2 t) ((dat2 V c).before 3 t d3) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨HS, HR, Hg⟩, Ho, ⟨%d0, H0⟩, ⟨%d1, H1⟩, ⟨%d2, H2⟩, ⟨%d3, H3⟩⟩
        iapply (run2_A c (grid2.coords t) (ms2_0 t) (hs2_0 t) (ms2_1 t) (hs2_1 t) (ms2_2 t) (hs2_2 t) (ms2_3 t) (hs2_3 t) scr2 (Memref.isWhole_whole _) ((hcond2_0 t).mpr h0) (fun h => h1 ((hcond2_1 t).mp h)) (iblk2 V c 0 t) (iblk2 V c 1 t) (iblk2 V c 2 t) ((dat2 V c).before 3 t d3) Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        iexists _; iexact H3
    · have hz : t.val ≠ 0 := by omega
      rw [acc2_next V c t h0]
      rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply (run2_B c (grid2.coords t) (ms2_0 t) (hs2_0 t) (ms2_1 t) (hs2_1 t) (ms2_2 t) (hs2_2 t) (ms2_3 t) (hs2_3 t) scr2 (Memref.isWhole_whole _) (fun h => h0 ((hcond2_0 t).mp h)) (fun h => h1 ((hcond2_1 t).mp h)) (iblk2 V c 0 t) (iblk2 V c 1 t) (iblk2 V c 2 t) ((dat2 V c).before 3 t d3) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation of the region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

/-- After the last point the invariant gives the launch's back: the accumulator's contents are forgotten. -/
theorem hout2 (c : Dev nD) : (dat2 V c).Φ (Fin.last cfg2.N) ⊢ (Pipeline.ΦA spec2 c : sProp 𝕄) :=
  Phi_out2 V c _ (by rw [Fin.val_last]; have : cfg2.N = 8 := N_2; omega)

end Cert.KernelIdeal.Hand

end
-- ==== Proof.Launch.lean ====
/-
  The three regions as segments of the program and the program's frame: every weakly fair execution terminates,
  nothing faults, and the eight argument arrays end as launched.
-/
import proofs.«408419_j40879498728834_3_alg».proof.Proof.Entry
import proofs.«408419_j40879498728834_3_alg».proof.Proof.HiddenBody
import proofs.«408419_j40879498728834_3_alg».proof.Proof.FeatBody
import proofs.«408419_j40879498728834_3_alg».proof.Proof.MixBody
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents the regions leave, read where the valuations read them -/

/-- Region 1 is entered with what region 0 left: the later regions' results are not read before it. -/
theorem V3_outs_d (c : Dev nD) : Gen.V3 m (outs m) c = Gen.V3 m (outs0 m) c := rfl

/-- Region 2 is entered with what regions 0 and 1 left. -/
theorem V11_outs_d (c : Dev nD) : Gen.V11 m (outs m) c = Gen.V11 m (outs1 m) c := rfl

theorem W2_arr_d (c : Dev nD) (w : Fin cfg0.W) :
    W2 m c (Proc.devRef .tc (Pipeline.arrRef spec0 w)) = (dat0 (ent0 m) c).arrAt w cfg0.N := by
  unfold W2; exact Pipeline.withArrays_arr spec0 launch0.win.arr_inj c _ _ w
theorem W4_arr_d (c : Dev nD) (w : Fin cfg1.W) :
    W4 m c (Proc.devRef .tc (Pipeline.arrRef spec1 w)) = (dat1 (ent1 m) c).arrAt w cfg1.N := by
  unfold W4; exact Pipeline.withArrays_arr spec1 launch1.win.arr_inj c _ _ w
theorem W12_arr_d (c : Dev nD) (w : Fin cfg2.W) :
    W12 m c (Proc.devRef .tc (Pipeline.arrRef spec2 w)) = (dat2 (ent2 m) c).arrAt w cfg2.N := by
  unfold W12; exact Pipeline.withArrays_arr spec2 launch2.win.arr_inj c _ _ w

/-- What region 1 finds in the first layer's output array is what region 0 left there. -/
theorem ent1_hidden (c : Dev nD) : ent1 m c main_v1 = (dat0 (ent0 m) c).arrAt 3 cfg0.N :=
  (Gen.V3_of m (outs0 m) c main_v1 (by decide)).trans ((Function.update_self _ _ _).trans (W2_arr_d m c 3))

/-- What region 2 finds in the second layer's output array is what region 1 left there. -/
theorem ent2_feat (c : Dev nD) : ent2 m c main_v3 = (dat1 (ent1 m) c).arrAt 3 cfg1.N :=
  (Gen.V11_of m (outs1 m) c main_v3 (by decide)).trans <| (Gen.V10_of m (outs1 m) c main_v3 (by decide)).trans <|
  (Gen.V9_of m (outs1 m) c main_v3 (by decide)).trans <| (Gen.V8_of m (outs1 m) c main_v3 (by decide)).trans <|
  (Gen.V7_of m (outs1 m) c main_v3 (by decide)).trans <| (Gen.V6_of m (outs1 m) c main_v3 (by decide)).trans <|
  (Gen.V5_of m (outs1 m) c main_v3 (by decide)).trans ((Function.update_self _ _ _).trans (W4_arr_d m c 3))

/-! ## The contents after each region, at the TensorCore's references -/

/-- Core `c`'s buffers after region 0. -/
abbrev ex0_d (c : Dev nD) (b : Ref sig .tc) : Buf (Elt F) ((c : Thread nD τ).loc b) := Gen.V2 m (outs m) c b
/-- Core `c`'s buffers after region 1. -/
abbrev ex1_d (c : Dev nD) (b : Ref sig .tc) : Buf (Elt F) ((c : Thread nD τ).loc b) := Gen.V4 m (outs m) c b
/-- Core `c`'s buffers after region 2. -/
abbrev ex2_d (c : Dev nD) (b : Ref sig .tc) : Buf (Elt F) ((c : Thread nD τ).loc b) := Gen.V12 m (outs m) c b

/-- Region 0's arrays as it leaves them, read in the contents after it: the output array holds what the pipeline
    leaves, an input array is never written back. -/
theorem hF0_d (c : Dev nD) (w : Fin cfg0.W) : (dat0 (ent0 m) c).arrAt w cfg0.N = ex0_d m c (Pipeline.arrRef spec0 w) := by
  match w with
  | ⟨0, _⟩ => exact ((dat0 (ent0 m) c).arrAt_in 0 rfl _).trans ((A_eq0 (ent0 m) c 0).trans (Gen.V2_of m (outs m) c _ (by decide)).symm)
  | ⟨1, _⟩ => exact ((dat0 (ent0 m) c).arrAt_in 1 rfl _).trans ((A_eq0 (ent0 m) c 1).trans (Gen.V2_of m (outs m) c _ (by decide)).symm)
  | ⟨2, _⟩ => exact ((dat0 (ent0 m) c).arrAt_in 2 rfl _).trans ((A_eq0 (ent0 m) c 2).trans (Gen.V2_of m (outs m) c _ (by decide)).symm)
  | ⟨3, _⟩ => exact ((show ex0_d m c main_v1 = outs m 2 main_v1 c from Function.update_self _ _ _).trans (W2_arr_d m c 3)).symm

/-- Off its arrays region 0 leaves every unscoped buffer as entered. -/
theorem hrest0_d (c : Dev nD) : ∀ b, b ∉ Finset.univ.image (Pipeline.arrRef spec0) → ex0_d m c b = ent0 m c b :=
  fun b hb => Gen.V2_of m (outs m) c b fun h =>
    hb (Finset.mem_image.mpr ⟨3, Finset.mem_univ _, (List.mem_singleton.mp h).symm⟩)

/-- Region 1's arrays as it leaves them, read in the contents after it: the output array holds what the pipeline
    leaves, an input array is never written back. -/
theorem hF1_d (c : Dev nD) (w : Fin cfg1.W) : (dat1 (ent1 m) c).arrAt w cfg1.N = ex1_d m c (Pipeline.arrRef spec1 w) := by
  match w with
  | ⟨0, _⟩ => exact ((dat1 (ent1 m) c).arrAt_in 0 rfl _).trans ((A_eq1 (ent1 m) c 0).trans (Gen.V4_of m (outs m) c _ (by decide)).symm)
  | ⟨1, _⟩ => exact ((dat1 (ent1 m) c).arrAt_in 1 rfl _).trans ((A_eq1 (ent1 m) c 1).trans (Gen.V4_of m (outs m) c _ (by decide)).symm)
  | ⟨2, _⟩ => exact ((dat1 (ent1 m) c).arrAt_in 2 rfl _).trans ((A_eq1 (ent1 m) c 2).trans (Gen.V4_of m (outs m) c _ (by decide)).symm)
  | ⟨3, _⟩ => exact ((show ex1_d m c main_v3 = outs m 4 main_v3 c from Function.update_self _ _ _).trans (W4_arr_d m c 3)).symm

/-- Off its arrays region 1 leaves every unscoped buffer as entered. -/
theorem hrest1_d (c : Dev nD) : ∀ b, b ∉ Finset.univ.image (Pipeline.arrRef spec1) → ex1_d m c b = ent1 m c b :=
  fun b hb => Gen.V4_of m (outs m) c b fun h =>
    hb (Finset.mem_image.mpr ⟨3, Finset.mem_univ _, (List.mem_singleton.mp h).symm⟩)

/-- Region 2's arrays as it leaves them, read in the contents after it: the output array holds what the pipeline
    leaves, an input array is never written back. -/
theorem hF2_d (c : Dev nD) (w : Fin cfg2.W) : (dat2 (ent2 m) c).arrAt w cfg2.N = ex2_d m c (Pipeline.arrRef spec2 w) := by
  match w with
  | ⟨0, _⟩ => exact ((dat2 (ent2 m) c).arrAt_in 0 rfl _).trans ((A_eq2 (ent2 m) c 0).trans (Gen.V12_of m (outs m) c _ (by decide)).symm)
  | ⟨1, _⟩ => exact ((dat2 (ent2 m) c).arrAt_in 1 rfl _).trans ((A_eq2 (ent2 m) c 1).trans (Gen.V12_of m (outs m) c _ (by decide)).symm)
  | ⟨2, _⟩ => exact ((dat2 (ent2 m) c).arrAt_in 2 rfl _).trans ((A_eq2 (ent2 m) c 2).trans (Gen.V12_of m (outs m) c _ (by decide)).symm)
  | ⟨3, _⟩ => exact ((show ex2_d m c main_v8 = outs m 12 main_v8 c from Function.update_self _ _ _).trans (W12_arr_d m c 3)).symm

/-- Off its arrays region 2 leaves every unscoped buffer as entered. -/
theorem hrest2_d (c : Dev nD) : ∀ b, b ∉ Finset.univ.image (Pipeline.arrRef spec2) → ex2_d m c b = ent2 m c b :=
  fun b hb => Gen.V12_of m (outs m) c b fun h =>
    hb (Finset.mem_image.mpr ⟨3, Finset.mem_univ _, (List.mem_singleton.mp h).symm⟩)

/-! ## The proof data family and what rides beside the buffers -/

/-- Every pipeline's proof data, each at its region's entry contents. -/
def pdats_d : (p : Fin 3) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c

abbrev 𝒱_d : Variants := Variants.none
/-- No core owes another anything: no level is assigned. -/
abbrev L_d : GSem nD τ sig → Finset Unit := fun _ => ∅
abbrev lv_d : GSem nD τ sig → Unit → ℕ := fun _ _ => 0
/-- What rides beside the buffers through every segment: the core's generator register at some state and its
    dues, at nothing. -/
abbrev R_d (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- Region 0 as a segment: entered with every unscoped buffer at the contents before it, left with them at the
    contents after it, the generator register at some state and nothing owed riding along. The windows' arrays are
    split out of the unscoped buffers at entry and put back at exit; the scoped buffers and the register pass
    through the region invariant, whose first and last instances are the launch's. -/
def reg0_d : Pipeline.RegionSeg (pcfgs (F := F)) Gen.adm (pdats_d m) () defs₀ 𝒱_d L_d lv_d 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L_d lv_d 0 fun _ _ => rfl
  pre c := iprop(StableHlo.held (c : Thread nD τ) (Pipeline.ucRefs τ sig) (Gen.V1 m c) ∗ R_d c)
  post c := iprop(StableHlo.held (c : Thread nD τ) (Pipeline.ucRefs τ sig) (Gen.V2 m (outs m) c) ∗ R_d c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats_d m) launch0.win launch0.arr_whole c
      ((pdats_d m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (ent0 m) c)
    unfold Pipeline.ΦA
    iintro ⟨Hp, -, Hr⟩
    isplitl [Hr]; · iexact Hr
    iexact Hp
  hout c := by
    refine .trans (hout0 (ent0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats_d m) ((pdats_d m 0 c).share_full fun _ => rfl)
      (ent0 m c) (ex0_d m c) ((pdats_d m 0 c).arrAt · cfg0.N) (hF0_d m c) (hrest0_d m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at the contents before it, left with them at the
    contents after it, the generator register at some state and nothing owed riding along. The windows' arrays are
    split out of the unscoped buffers at entry and put back at exit; the scoped buffers and the register pass
    through the region invariant, whose first and last instances are the launch's. -/
def reg1_d : Pipeline.RegionSeg (pcfgs (F := F)) Gen.adm (pdats_d m) () defs₀ 𝒱_d L_d lv_d 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L_d lv_d 1 fun _ _ => rfl
  pre c := iprop(StableHlo.held (c : Thread nD τ) (Pipeline.ucRefs τ sig) (Gen.V3 m (outs0 m) c) ∗ R_d c)
  post c := iprop(StableHlo.held (c : Thread nD τ) (Pipeline.ucRefs τ sig) (Gen.V4 m (outs m) c) ∗ R_d c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats_d m) launch1.win launch1.arr_whole c
      ((pdats_d m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (ent1 m) c)
    unfold Pipeline.ΦA
    iintro ⟨Hp, -, Hr⟩
    isplitl [Hr]; · iexact Hr
    iexact Hp
  hout c := by
    refine .trans (hout1 (ent1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats_d m) ((pdats_d m 1 c).share_full fun _ => rfl)
      (ent1 m c) (ex1_d m c) ((pdats_d m 1 c).arrAt · cfg1.N) (hF1_d m c) (hrest1_d m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at the contents before it, left with them at the
    contents after it, the generator register at some state and nothing owed riding along. The windows' arrays are
    split out of the unscoped buffers at entry and put back at exit; the scoped buffers and the register pass
    through the region invariant, whose first and last instances are the launch's. -/
def reg2_d : Pipeline.RegionSeg (pcfgs (F := F)) Gen.adm (pdats_d m) () defs₀ 𝒱_d L_d lv_d 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L_d lv_d 2 fun _ _ => rfl
  pre c := iprop(StableHlo.held (c : Thread nD τ) (Pipeline.ucRefs τ sig) (Gen.V11 m (outs1 m) c) ∗ R_d c)
  post c := iprop(StableHlo.held (c : Thread nD τ) (Pipeline.ucRefs τ sig) (Gen.V12 m (outs m) c) ∗ R_d c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) Gen.adm (pdats_d m) launch2.win launch2.arr_whole c
      ((pdats_d m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (ent2 m) c)
    unfold Pipeline.ΦA
    iintro ⟨Hp, -, Hr⟩
    isplitl [Hr]; · iexact Hr
    iexact Hp
  hout c := by
    refine .trans (hout2 (ent2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats_d m) ((pdats_d m 2 c).share_full fun _ => rfl)
      (ent2 m c) (ex2_d m c) ((pdats_d m 2 c).arrAt · cfg2.N) (hF2_d m c) (hrest2_d m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's element of the user algebra is the pipeline library's, and no ghost resource is handed out. -/
theorem hu₀_launch_d : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands each core beside its buffers makes the riding state on every core: the register at its
    launch state, nothing owed. -/
theorem hE0_launch_d : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L_d lv_d)
      ⊢ (|={Set.univ}=> bigSep Finset.univ (fun c : Dev nD => R_d (F := F) c) : sProp 𝕄) := by
  have h1 : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))
      ⊢ (R_d (F := F) c : sProp 𝕄) := fun c => by
    iintro ⟨-, HO, -, Hp, -⟩
    isplitl [Hp]; · iexists _; iexact Hp
    iexists ∅; iexact HO
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => R_d (F := F) c) : sProp 𝕄) :=
    bigSep_mono fun c _ => h1 c
  iintro ⟨H, -⟩
  imodintro
  iapply hm
  iexact H

/-! ## The frame -/

/-- The frame of the program, at any instance. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱_d L_d lv_d (fun _ _ => rfl) ρ (outs m) (pdats_d m) 0 (fun _ => iprop(emp))
    (initOf (Pipeline.cells cfgs cellOf_inj) (Pipeline.launchToks cfgs cellOf_inj))
    hu₀_launch_d (fun _ c => R_d c) (hE0_launch_d ρ) (fun c => by iintro ⟨-, H⟩; iexact H)
    (reg0_d m) (fun c => .rfl) (fun c => .rfl)
    (reg1_d m) (fun c => by rw [V3_outs_d]; exact .rfl) (fun c => .rfl)
    (reg2_d m) (fun c => by rw [V11_outs_d]; exact .rfl) (fun c => .rfl)

end Cert.KernelIdeal.Hand

end
-- ==== Proof.LaunchVal.lean ====
/-
  The program's run with its result named: beside the frame, the result array ends holding what the last region's
  pipeline leaves in it.
-/
import proofs.«408419_j40879498728834_3_alg».proof.Proof.Launch
import proofs.«408419_j40879498728834_3_alg».proof.Proof.RegionsVal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What region 2 leaves in the result array is what its pipeline leaves in the output window's array. -/
theorem outs_result_d (c : Dev nD) : outs m 12 main_v8 c = (dat2 (ent2 m) c).arrAt 3 cfg2.N := W12_arr_d m c 3

/-- The run with the result array named. -/
theorem run_val : θ_run (defs (F := F)) (onTc (τ := τ) (main (F := F))) ⟨m, fun _ => 0, ρ⟩ (fun r => ∀ c : Dev nD,
      r.2.mem ((c.tc : Thread nD τ).loc main_v8) = (dat2 (ent2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := GenV.frame_cond_val m emb₁ () 𝒱_d L_d lv_d (fun _ _ => rfl) ρ (outs m) (pdats_d m) 0 (fun _ => iprop(emp))
    (initOf (Pipeline.cells cfgs cellOf_inj) (Pipeline.launchToks cfgs cellOf_inj))
    hu₀_launch_d (fun _ c => R_d c) (hE0_launch_d ρ) (fun c => by iintro ⟨-, H⟩; iexact H)
    (reg0_d m) (fun c => .rfl) (fun c => .rfl)
    (reg1_d m) (fun c => by rw [V3_outs_d]; exact .rfl) (fun c => .rfl)
    (reg2_d m) (fun c => by rw [V11_outs_d]; exact .rfl) (fun c => .rfl)
  simp only [outs_result_d] at h
  exact h

end Cert.KernelIdeal.Hand

end
-- ==== Proof.Spec.lean ====
/-
  The three layers of the computation as index-by-index functions on the extended reals, in the arrangement
  the jnp reference has them (one full contraction per entry), over literal shapes:

    hidden x W b  [p, q] = lrelu (Σ_{k < 4096} x[p, k] · W[k, q] + b[0, q])
    feat   h W b  [p, q] =        Σ_{k < 4096} h[p, k] · W[k, q] + b[0, q]
    mix    f A w  [p, 0] = (Σ_{a < 2048} (Σ_{e < 1024} f[p, e] · A[a, e]) · w[p, a]) · (1/2000)

  where lrelu v = v for v > 0 and slope · v otherwise, the slope being the f32 word 0x3C23D70A that both programs
  carry. `mix` is stated over the aspect axis padded to 2048; `mixRef` is the same mean over the 2000 true
  aspects, with the weight on the left and a quotient by 2000, as the reference writes it.
-/
import Idealize.ShloMosaic.PureOps.Ideal
import Idealize.ShloMosaic.Lib.ValueIdx

noncomputable section

namespace Cert.Spec

open Idealize.ShloMosaic Idealize.ShloMosaic.ValueIdx

/-- A matrix shape. -/
abbrev M (a b : ℕ) : Shape := ⟨2, ![a, b]⟩

/-- The leaky rectifier's slope, as the word both programs carry. -/
def slope : EReal := Ideal.ofBits .f32 0x3C23D70A#32

/-- The leaky rectifier on the extended reals. -/
def lrelu (v : EReal) : EReal := if 0 < v then v else slope * v

/-- One entry of the first layer. -/
def hiddenAt (x : Vec Ideal (M 512 4096) .f32) (w : Vec Ideal (M 4096 4096) .f32) (b : Vec Ideal (M 1 4096) .f32)
    (p : Fin 512) (q : Fin 4096) : EReal :=
  lrelu ((∑ k : Fin 4096, (x (ix2 p k) : EReal) * (w (ix2 k q) : EReal)) + (b (ix2 0 q) : EReal))

/-- The first layer. -/
def hidden (x : Vec Ideal (M 512 4096) .f32) (w : Vec Ideal (M 4096 4096) .f32) (b : Vec Ideal (M 1 4096) .f32) :
    Vec Ideal (M 512 4096) .bf16 :=
  fun i => hiddenAt x w b (i 0) (i 1)

/-- One entry of the second layer. -/
def featAt (h : Vec Ideal (M 512 4096) .bf16) (w : Vec Ideal (M 4096 1024) .f32) (b : Vec Ideal (M 1 1024) .f32)
    (p : Fin 512) (q : Fin 1024) : EReal :=
  (∑ k : Fin 4096, (h (ix2 p k) : EReal) * (w (ix2 k q) : EReal)) + (b (ix2 0 q) : EReal)

/-- The second layer. -/
def feat (h : Vec Ideal (M 512 4096) .bf16) (w : Vec Ideal (M 4096 1024) .f32) (b : Vec Ideal (M 1 1024) .f32) :
    Vec Ideal (M 512 1024) .bf16 :=
  fun i => featAt h w b (i 0) (i 1)

/-- One entry of the weighted aspect mean over the padded aspect axis. -/
def mixAt (f : Vec Ideal (M 512 1024) .bf16) (asp : Vec Ideal (M 2048 1024) .f32) (wt : Vec Ideal (M 512 2048) .f32)
    (p : Fin 512) : EReal :=
  (∑ a : Fin 2048, (∑ e : Fin 1024, (f (ix2 p e) : EReal) * (asp (ix2 a e) : EReal)) * (wt (ix2 p a) : EReal))
    * (((1 / 2000 : ℝ) : ℝ) : EReal)

/-- The weighted aspect mean over the padded aspect axis. -/
def mix (f : Vec Ideal (M 512 1024) .bf16) (asp : Vec Ideal (M 2048 1024) .f32) (wt : Vec Ideal (M 512 2048) .f32) :
    Vec Ideal (M 512 1) .f32 :=
  fun i => mixAt f asp wt (i 0)

/-- One entry of the weighted aspect mean over the 2000 true aspects, as the reference arranges it. -/
def mixRefAt (f : Vec Ideal (M 512 1024) .f32) (asp : Vec Ideal (M 2000 1024) .f32) (wt : Vec Ideal (M 512 2000) .f32)
    (p : Fin 512) : EReal :=
  Ideal.div (∑ a : Fin 2000, (wt (ix2 p a) : EReal) * (∑ e : Fin 1024, (f (ix2 p e) : EReal) * (asp (ix2 a e) : EReal)))
    (((2000 : ℝ) : ℝ) : EReal)

end Cert.Spec

end
-- ==== Proof.HiddenValue.lean ====
/- The first layer's output array after its region, index by index: the payloads read at an index, the
   blocks as entries of the arrays, the accumulator after a point as a partial sum of the contraction, the
   tile a last reduction step stores, and the array the write-backs leave. -/
import proofs.«408419_j40879498728834_3_alg».proof.Proof.HiddenData
import proofs.«408419_j40879498728834_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

/-! ## The payloads at an index -/

/-- The zero tile a first reduction step starts from. -/
private theorem pay1_apply (p : Fin 512) (q : Fin 1024) :
    ((k0_pay1 (F := Ideal) : Vec Ideal S512x1024 .f32) (ix2 p q) : EReal) = 0 := by
  unfold k0_pay1
  simp only [shapeCast_self]
  exact Ideal.ofBits_zero_f32

private abbrev D0 := dot_S512x1024_S1024x1024_S512x1024_1_0_0_1_n_n

private theorem lhs_D0_0 (j : S512x1024.Idx) (k : D0.contr.Idx) : (D0.lhsIdx j k 0 : ℕ) = j 0 := by
  simp [DotDims.lhsIdx, D0, dot_S512x1024_S1024x1024_S512x1024_1_0_0_1_n_n]; rfl
private theorem lhs_D0_1 (j : S512x1024.Idx) (k : D0.contr.Idx) : (D0.lhsIdx j k 1 : ℕ) = k ⟨0, by decide⟩ := by
  simp [DotDims.lhsIdx, D0, dot_S512x1024_S1024x1024_S512x1024_1_0_0_1_n_n]; rfl
private theorem rhs_D0_0 (j : S512x1024.Idx) (k : D0.contr.Idx) : (D0.rhsIdx j k 0 : ℕ) = k ⟨0, by decide⟩ := by
  simp [DotDims.rhsIdx, D0, dot_S512x1024_S1024x1024_S512x1024_1_0_0_1_n_n]; rfl
private theorem rhs_D0_1 (j : S512x1024.Idx) (k : D0.contr.Idx) : (D0.rhsIdx j k 1 : ℕ) = j 1 := by
  simp [DotDims.rhsIdx, D0, dot_S512x1024_S1024x1024_S512x1024_1_0_0_1_n_n]; rfl

/-- One reduction step: the accumulator plus the tile product over the step's 1024 contraction terms. -/
private theorem pay2_apply (x : Vec Ideal S512x1024 .f32) (w : Vec Ideal S1024x1024 .f32) (a : Vec Ideal S512x1024 .f32)
    (p : Fin 512) (q : Fin 1024) :
    ((k0_pay2 x w a : Vec Ideal S512x1024 .f32) (ix2 p q) : EReal)
      = (a (ix2 p q) : EReal) + ∑ kk : Fin 1024, (x (ix2 p kk) : EReal) * (w (ix2 kk q) : EReal) := by
  unfold k0_pay2
  simp only [shapeCast_self]
  refine (addf_apply _ _ _).trans ?_
  refine congrArg (fun z : EReal => (a (ix2 p q) : EReal) + z) ?_
  refine (Ideal.matmul_constant_zero_apply D0 none _ _ (ix2 p q)).trans ?_
  rw [← Equiv.sum_comp (contrEquiv1 D0 1024 rfl rfl).symm]
  refine Finset.sum_congr rfl fun kk _ => ?_
  rw [truncf_apply, truncf_apply]
  congr 2
  · apply Shape.idx_ext₂
    · exact lhs_D0_0 _ _
    · exact (lhs_D0_1 _ _).trans (contrEquiv1_symm_val D0 1024 rfl rfl kk)
  · apply Shape.idx_ext₂
    · exact (rhs_D0_0 _ _).trans (contrEquiv1_symm_val D0 1024 rfl rfl kk)
    · exact rhs_D0_1 _ _

/-- The stored tile: bias row added, leaky rectifier applied. -/
private theorem pay3_apply (a : Vec Ideal S512x1024 .f32) (b : Vec Ideal S1x1024 .f32) (p : Fin 512) (q : Fin 1024) :
    ((k0_pay3 a b : Vec Ideal S512x1024 .bf16) (ix2 p q) : EReal)
      = Cert.Spec.lrelu ((a (ix2 p q) : EReal) + (b (ix2 (0 : Fin 1) q) : EReal)) := by
  unfold k0_pay3
  simp only [shapeCast_self]
  rw [truncf_apply, select_apply, cmpf_apply, mulf_apply, addf_apply, broadcast_apply, broadcast_apply,
    broadcastTo_1b_ab_apply]
  generalize (a (ix2 p q) : EReal) + (b (ix2 (0 : Fin 1) q) : EReal) = v
  show Scalar.select (Ideal.cmp .ogt v (Ideal.ofBits .f32 0x00000000#32)) v (Ideal.ofBits .f32 0x3C23D70A#32 * v) = _
  rw [Ideal.ofBits_zero_f32]
  unfold Cert.Spec.lrelu Cert.Spec.slope Ideal.cmp Scalar.select
  by_cases h : (0 : EReal) < v
  · simp [h]
  · simp [h]

variable (V : (c : Dev nD) → (b : Ref sig .tc) → Buf (Elt Ideal) ((c : Thread nD τ).loc b))

/-! ## The arrays and the blocks, by their literal types -/

private abbrev xarr (c : Dev nD) : Vec Ideal S512x4096 .f32 := V c main_arg0
private abbrev warr (c : Dev nD) : Vec Ideal S4096x4096 .f32 := V c main_arg2
private abbrev barr (c : Dev nD) : Vec Ideal S1x4096 .f32 := V c main_v0
private abbrev xblk (c : Dev nD) (t : Fin cfg0.N) : Vec Ideal S512x4096 .f32 := iblk0 V c 0 t
private abbrev wblk (c : Dev nD) (t : Fin cfg0.N) : Vec Ideal S1024x1024 .f32 := iblk0 V c 1 t
private abbrev bblk (c : Dev nD) (t : Fin cfg0.N) : Vec Ideal S1x1024 .f32 := iblk0 V c 2 t

/-- The index maps over the grid: point t is column tile t / 4, reduction step t % 4. -/
private theorem idx_facts : ∀ t : Fin cfg0.N,
    win0_0.index t 0 = 0 ∧ win0_0.index t 1 = 0
    ∧ win0_1.index t 0 = t.val % 4 ∧ win0_1.index t 1 = t.val / 4
    ∧ win0_2.index t 0 = 0 ∧ win0_2.index t 1 = t.val / 4
    ∧ win0_3.index t 0 = 0 ∧ win0_3.index t 1 = t.val / 4
    ∧ k0_off1 (grid0.coords t) 0 = 0 ∧ k0_off1 (grid0.coords t) 1 = 1024 * (t.val % 4) :=
  (by decide +kernel : ∀ t : Fin grid0.N, _)

/-- The resident image block is the image. -/
private theorem xblk_apply (c : Dev nD) (t : Fin cfg0.N) (p : Fin 512) (k : Fin 4096) :
    (xblk V c t (ix2 p k) : EReal) = (xarr V c (ix2 p k) : EReal) := by
  have hi := idx_facts t
  show ((cfg0.win 0).blk t).view.read (Elt Ideal) (V c (Pipeline.arrRef spec0 0)) (ix2 p k) = _
  rw [View.read_apply]
  show V c main_arg0 _ = V c main_arg0 _
  congr 1
  funext a
  apply Fin.ext
  match a with
  | ⟨0, _⟩ => show win0_0.index t 0 * 512 + 1 * p.val = p.val; rw [hi.1]; omega
  | ⟨1, _⟩ => show win0_0.index t 1 * 4096 + 1 * k.val = k.val; rw [hi.2.1]; omega

/-- The weight tile at point t is rows 1024 (t % 4) …, columns 1024 (t / 4) … of the weights. -/
private theorem wblk_apply (c : Dev nD) (t : Fin cfg0.N) (kk : Fin 1024) (q : Fin 1024) (k : Fin 4096) (g : Fin 4096)
    (hk : k.val = 1024 * (t.val % 4) + kk.val) (hg : g.val = 1024 * (t.val / 4) + q.val) :
    (wblk V c t (ix2 kk q) : EReal) = (warr V c (ix2 k g) : EReal) := by
  have hi := idx_facts t
  show ((cfg0.win 1).blk t).view.read (Elt Ideal) (V c (Pipeline.arrRef spec0 1)) (ix2 kk q) = _
  rw [View.read_apply]
  show V c main_arg2 _ = V c main_arg2 _
  congr 1
  funext a
  apply Fin.ext
  match a with
  | ⟨0, _⟩ => show win0_1.index t 0 * 1024 + 1 * kk.val = k.val; rw [hi.2.2.1, hk]; omega
  | ⟨1, _⟩ => show win0_1.index t 1 * 1024 + 1 * q.val = g.val; rw [hi.2.2.2.1, hg]; omega

/-- The bias tile at point t is columns 1024 (t / 4) … of the bias row. -/
private theorem bblk_apply (c : Dev nD) (t : Fin cfg0.N) (q : Fin 1024) (g : Fin 4096)
    (hg : g.val = 1024 * (t.val / 4) + q.val) :
    (bblk V c t (ix2 (0 : Fin 1) q) : EReal) = (barr V c (ix2 (0 : Fin 1) g) : EReal) := by
  have hi := idx_facts t
  show ((cfg0.win 2).blk t).view.read (Elt Ideal) (V c (Pipeline.arrRef spec0 2)) (ix2 (0 : Fin 1) q) = _
  rw [View.read_apply]
  show V c main_v0 _ = V c main_v0 _
  congr 1
  funext a
  apply Fin.ext
  match a with
  | ⟨0, _⟩ => show win0_2.index t 0 * 1 + 1 * 0 = 0; rw [hi.2.2.2.2.1]
  | ⟨1, _⟩ => show win0_2.index t 1 * 1024 + 1 * q.val = g.val; rw [hi.2.2.2.2.2.1, hg]; omega

/-- The column band a reduction step multiplies, as columns of the image. -/
private theorem band0_apply (t : Fin cfg0.N) (x : Vec Ideal S512x4096 .f32) (p : Fin 512) (kk : Fin 1024) (k : Fin 4096)
    (hk : k.val = 1024 * (t.val % 4) + kk.val) :
    (band0 (grid0.coords t) x (ix2 p kk) : EReal) = (x (ix2 p k) : EReal) := by
  have hi := idx_facts t
  show x _ = x _
  congr 1
  funext a
  apply Fin.ext
  match a with
  | ⟨0, _⟩ => show k0_off1 (grid0.coords t) 0 + 1 * p.val = p.val; rw [hi.2.2.2.2.2.2.2.2.1]; omega
  | ⟨1, _⟩ => show k0_off1 (grid0.coords t) 1 + 1 * kk.val = k.val; rw [hi.2.2.2.2.2.2.2.2.2, hk]; omega

/-! ## The accumulator after a point: a partial sum of the contraction -/

/-- The contraction's term at position k for row p and global column g (zero past the contraction's end). -/
private def term (c : Dev nD) (p : Fin 512) (g : Fin 4096) (k : ℕ) : EReal :=
  if h : k < 4096 then (xarr V c (ix2 p ⟨k, h⟩) : EReal) * (warr V c (ix2 ⟨k, h⟩ g) : EReal) else 0

/-- The tile product of a point is the next 1024 terms of the contraction. -/
private theorem step_sum (c : Dev nD) (t : Fin cfg0.N) (p : Fin 512) (q : Fin 1024) (g : Fin 4096)
    (hg : g.val = 1024 * (t.val / 4) + q.val) :
    (∑ kk : Fin 1024, (band0 (grid0.coords t) (xblk V c t) (ix2 p kk) : EReal) * (wblk V c t (ix2 kk q) : EReal))
      = ∑ k ∈ Finset.range 1024, term V c p g (1024 * (t.val % 4) + k) := by
  rw [← Fin.sum_univ_eq_sum_range (fun k => term V c p g (1024 * (t.val % 4) + k)) 1024]
  refine Finset.sum_congr rfl fun kk _ => ?_
  have hk : 1024 * (t.val % 4) + kk.val < 4096 := by have := kk.isLt; omega
  rw [band0_apply t (xblk V c t) p kk ⟨_, hk⟩ rfl, xblk_apply V c t p ⟨_, hk⟩,
    wblk_apply V c t kk q ⟨_, hk⟩ g rfl hg]
  unfold term
  rw [dif_pos hk]

/-- After point n the accumulator holds the first 1024 (n % 4 + 1) terms of the contraction. -/
private theorem acc0_apply (c : Dev nD) : ∀ (n : ℕ) (hn : n < cfg0.N) (p : Fin 512) (q : Fin 1024) (g : Fin 4096),
    g.val = 1024 * (n / 4) + q.val →
    (acc0 V c n hn (ix2 p q) : EReal) = ∑ k ∈ Finset.range (1024 * (n % 4) + 1024), term V c p g k
  | 0, hn, p, q, g, hg => by
    rw [acc0]
    refine (pay2_apply (band0 (grid0.coords ⟨0, hn⟩) (xblk V c ⟨0, hn⟩)) (wblk V c ⟨0, hn⟩) (k0_pay1 (F := Ideal)) p q).trans ?_
    rw [pay1_apply, zero_add, step_sum V c ⟨0, hn⟩ p q g hg, Finset.sum_range_add]
    simp
  | n + 1, hn, p, q, g, hg => by
    rw [acc0]
    by_cases h : (n + 1) % 4 = 0
    · rw [if_pos h]
      refine (pay2_apply (band0 (grid0.coords ⟨n + 1, hn⟩) (xblk V c ⟨n + 1, hn⟩)) (wblk V c ⟨n + 1, hn⟩) (k0_pay1 (F := Ideal)) p q).trans ?_
      rw [pay1_apply, zero_add, step_sum V c ⟨n + 1, hn⟩ p q g hg, Finset.sum_range_add]
      show _ = _ + ∑ k ∈ Finset.range 1024, term V c p g (1024 * ((n + 1) % 4) + k)
      rw [h]
      simp
    · rw [if_neg h]
      refine (pay2_apply (band0 (grid0.coords ⟨n + 1, hn⟩) (xblk V c ⟨n + 1, hn⟩)) (wblk V c ⟨n + 1, hn⟩)
        (acc0 V c n (Nat.lt_of_succ_lt hn)) p q).trans ?_
      rw [acc0_apply c n (Nat.lt_of_succ_lt hn) p q g (by omega), step_sum V c ⟨n + 1, hn⟩ p q g hg,
        Finset.sum_range_add _ (1024 * ((n + 1) % 4)) 1024]
      show _ + ∑ k ∈ Finset.range 1024, term V c p g (1024 * ((n + 1) % 4) + k) = _
      rw [show 1024 * ((n + 1) % 4) = 1024 * (n % 4) + 1024 by omega]

/-! ## The stored tile, the write-backs, the array -/

/-- What a last reduction step stores is the first layer at the tile's entries. -/
private theorem out0_apply (c : Dev nD) (t : Fin cfg0.N) (h3 : t.val % 4 = 3) (p : Fin 512) (q : Fin 1024) (g : Fin 4096)
    (hg : g.val = 1024 * (t.val / 4) + q.val) :
    (out0 V c t (ix2 p q) : EReal) = Cert.Spec.hiddenAt (xarr V c) (warr V c) (barr V c) p g := by
  refine (pay3_apply (acc0 V c t.val t.isLt) (bblk V c t) p q).trans ?_
  rw [acc0_apply V c t.val t.isLt p q g hg, bblk_apply V c t q g hg, h3]
  have hs : (∑ k ∈ Finset.range 4096, term V c p g k)
      = ∑ k : Fin 4096, (xarr V c (ix2 p k) : EReal) * (warr V c (ix2 k g) : EReal) := by
    rw [← Fin.sum_univ_eq_sum_range (fun k => term V c p g k) 4096]
    refine Finset.sum_congr rfl fun k _ => ?_
    unfold term
    rw [dif_pos k.isLt]
  exact congrArg (fun z : EReal => Cert.Spec.lrelu (z + (barr V c (ix2 (0 : Fin 1) g) : EReal))) hs

/-- What window 3 writes back at a last reduction step is the block of the first layer's array. -/
private theorem flushed_eq (c : Dev nD) (t : Fin cfg0.N) (hf : (cfg0.win 3).flush t = true) :
    (dat0 (F := Ideal) V c).flushed 3 t
      = ((cfg0.win 3).blk t).view.read (Elt Ideal) (Cert.Spec.hidden (xarr V c) (warr V c) (barr V c)) := by
  have h3 : t.val % 4 = 3 := (flush0_3 t).mp hf
  have hi := idx_facts t
  have hN : cfg0.N = 16 := N_0
  funext y
  have hy0 : (y 0).val < 512 := (y 0).isLt
  have hy1 : (y 1).val < 1024 := (y 1).isLt
  have hg : 1024 * (t.val / 4) + (y 1).val < 4096 := by have := t.isLt; omega
  have e := out0_apply V c t h3 ⟨(y 0).val, hy0⟩ ⟨(y 1).val, hy1⟩ ⟨_, hg⟩ rfl
  refine Eq.trans ?_ (e.trans ?_)
  · show out0 V c t _ = out0 V c t _
    congr 1
    funext a
    apply Fin.ext
    match a with
    | ⟨0, _⟩ => rfl
    | ⟨1, _⟩ => rfl
  · rw [View.read_apply]
    show _ = Cert.Spec.hiddenAt (xarr V c) (warr V c) (barr V c) _ _
    congr 1
    · apply Fin.ext
      show (y 0).val = win0_3.index t 0 * 512 + 1 * (y 0).val
      rw [hi.2.2.2.2.2.2.1]; omega
    · apply Fin.ext
      show 1024 * (t.val / 4) + (y 1).val = win0_3.index t 1 * 1024 + 1 * (y 1).val
      rw [hi.2.2.2.2.2.2.2.1]; omega

/-- Every entry of the array lies in the block written back at the last reduction step of its column tile. -/
private theorem cover (i : S512x4096.Idx) :
    ∃ t : Fin cfg0.N, (cfg0.win 3).flush t = true ∧ i ∈ ((cfg0.win 3).blk t).view.set := by
  have h0 : (i 0 : ℕ) < 512 := (i 0).isLt
  have h1 : (i 1 : ℕ) < 4096 := (i 1).isLt
  have hN : cfg0.N = 16 := N_0
  have ht : 4 * ((i 1).val / 1024) + 3 < cfg0.N := by rw [hN]; omega
  have hi := idx_facts ⟨4 * ((i 1).val / 1024) + 3, ht⟩
  refine ⟨⟨4 * ((i 1).val / 1024) + 3, ht⟩, (flush0_3 _).mpr (by show (4 * ((i 1).val / 1024) + 3) % 4 = 3; omega), ?_⟩
  show i ∈ ((View.whole main_v1).slice (win0_3.rect ⟨4 * ((i 1).val / 1024) + 3, ht⟩)).set
  rw [View.set_slice_whole, Rect.mem_set_unit]
  intro a
  match a with
  | ⟨0, _⟩ =>
    show win0_3.index ⟨4 * ((i 1).val / 1024) + 3, ht⟩ 0 * 512 ≤ (i 0 : ℕ)
      ∧ (i 0 : ℕ) < win0_3.index ⟨4 * ((i 1).val / 1024) + 3, ht⟩ 0 * 512 + 512
    rw [hi.2.2.2.2.2.2.1]; omega
  | ⟨1, _⟩ =>
    show win0_3.index ⟨4 * ((i 1).val / 1024) + 3, ht⟩ 1 * 1024 ≤ (i 1 : ℕ)
      ∧ (i 1 : ℕ) < win0_3.index ⟨4 * ((i 1).val / 1024) + 3, ht⟩ 1 * 1024 + 1024
    rw [hi.2.2.2.2.2.2.2.1]
    show (4 * ((i 1).val / 1024) + 3) / 4 * 1024 ≤ (i 1 : ℕ) ∧ (i 1 : ℕ) < (4 * ((i 1).val / 1024) + 3) / 4 * 1024 + 1024
    omega

theorem hidden_array (c : Dev nD) :
    (dat0 (F := Ideal) V c).arrAt 3 cfg0.N = Cert.Spec.hidden (V c main_arg0) (V c main_arg2) (V c main_v0) :=
  (dat0 (F := Ideal) V c).arrAt_eq_of_cover 3 (Cert.Spec.hidden (xarr V c) (warr V c) (barr V c))
    (flushed_eq V c) cover

end Cert.KernelIdeal.Hand

end
-- ==== Proof.FeatValue.lean ====
/-
  The second layer's output array after its region, entry by entry.

  The region walks a 2 × 4 grid: at point t = 4 n + k it multiplies the 512 × 1024 column band k of the hidden
  activations h by the 1024 × 512 tile (k, n) of the weights W and adds the product onto a 512 × 512 accumulator,
  which starts from zero at k = 0; at k = 3 it adds the bias tile n and stores the result as the output's column
  tile n. Over the extended reals a float is its value and the narrowing conversions are the identity, so:

    * one step adds, at entry (p, q), the 1024 products h[p, 1024 k + i] · W[1024 k + i, 512 n + q];
    * after point 4 n + k the accumulator's entry (p, q) is the sum of the first 1024 (k + 1) products of row p of
      h against column 512 n + q of W (induction on the point; sums over ranges of contraction positions regroup
      freely in an additive commutative monoid);
    * at k = 3 that is the whole contraction over 4096 positions, and the stored entry adds b[0, 512 n + q];
    * the two column tiles, written back at points 3 and 7, cover the output, so the array ends holding
      feat h W b [p, c] = Σ_{k < 4096} h[p, k] · W[k, c] + b[0, c] at every entry.
-/
import proofs.«408419_j40879498728834_3_alg».proof.Proof.FeatData
import proofs.«408419_j40879498728834_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

theorem lhs_featDot_0_f (j : S512x512.Idx) (k : dot_S512x1024_S1024x512_S512x512_1_0_0_1_n_n.contr.Idx) :
    (dot_S512x1024_S1024x512_S512x512_1_0_0_1_n_n.lhsIdx j k 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

theorem lhs_featDot_1_f (j : S512x512.Idx) (k : dot_S512x1024_S1024x512_S512x512_1_0_0_1_n_n.contr.Idx) :
    (dot_S512x1024_S1024x512_S512x512_1_0_0_1_n_n.lhsIdx j k 1).val = (k ⟨0, by decide⟩).val :=
  dot_S512x1024_S1024x512_S512x512_1_0_0_1_n_n.lhsIdx_val_of_single (cl := 1) rfl j k

theorem rhs_featDot_0_f (j : S512x512.Idx) (k : dot_S512x1024_S1024x512_S512x512_1_0_0_1_n_n.contr.Idx) :
    (dot_S512x1024_S1024x512_S512x512_1_0_0_1_n_n.rhsIdx j k 0).val = (k ⟨0, by decide⟩).val :=
  dot_S512x1024_S1024x512_S512x512_1_0_0_1_n_n.rhsIdx_val_of_single (cr := 0) rfl j k

theorem rhs_featDot_1_f (j : S512x512.Idx) (k : dot_S512x1024_S1024x512_S512x512_1_0_0_1_n_n.contr.Idx) :
    (dot_S512x1024_S1024x512_S512x512_1_0_0_1_n_n.rhsIdx j k 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The reset payload is the zero tile. -/
theorem pay1_apply_f (p q : Fin 512) : (k1_pay1 (F := Ideal)) (ix2 p q) = (0 : EReal) := by
  unfold k1_pay1
  simp only [shapeCast_self]
  exact Ideal.ofBits_zero_f32

/-- One reduction step at an entry: the accumulator there plus the block product's entry. -/
theorem pay2_apply_f (x : Vec Ideal S512x1024 .bf16) (w : Vec Ideal S1024x512 .f32) (a : Vec Ideal S512x512 .f32)
    (p q : Fin 512) :
    (k1_pay2 x w a) (ix2 p q) = (a (ix2 p q) : EReal) + ∑ kk : Fin 1024, (x (ix2 p kk) : EReal) * (w (ix2 kk q) : EReal) := by
  unfold k1_pay2
  simp only [shapeCast_self]
  rw [addf_apply]
  refine congrArg (fun z : EReal => (a (ix2 p q) : EReal) + z) ?_
  show FloatOps.matmul dot_S512x1024_S1024x512_S512x512_1_0_0_1_n_n none _ _ (constant S512x512 .f32 0x00000000#32) (ix2 p q) = _
  rw [Ideal.matmul_constant_zero_apply,
    ← Equiv.sum_comp (contrEquiv1 dot_S512x1024_S1024x512_S512x512_1_0_0_1_n_n 1024 rfl rfl).symm]
  refine Finset.sum_congr rfl fun kk _ => ?_
  have ck := contrEquiv1_symm_val dot_S512x1024_S1024x512_S512x512_1_0_0_1_n_n 1024 rfl rfl kk
  have el : dot_S512x1024_S1024x512_S512x512_1_0_0_1_n_n.lhsIdx (ix2 p q)
      ((contrEquiv1 dot_S512x1024_S1024x512_S512x512_1_0_0_1_n_n 1024 rfl rfl).symm kk) = ix2 p kk := by
    funext ax; apply Fin.ext
    match ax with
    | ⟨0, _⟩ => exact lhs_featDot_0_f _ _
    | ⟨1, _⟩ => exact (lhs_featDot_1_f _ _).trans ck
  have er : dot_S512x1024_S1024x512_S512x512_1_0_0_1_n_n.rhsIdx (ix2 p q)
      ((contrEquiv1 dot_S512x1024_S1024x512_S512x512_1_0_0_1_n_n 1024 rfl rfl).symm kk) = ix2 kk q := by
    funext ax; apply Fin.ext
    match ax with
    | ⟨0, _⟩ => exact (rhs_featDot_0_f _ _).trans ck
    | ⟨1, _⟩ => exact rhs_featDot_1_f _ _
  rw [el, er]
  rfl

/-- The closing payload at an entry: the accumulator plus the bias of its column. -/
theorem pay3_apply_f (a : Vec Ideal S512x512 .f32) (b : Vec Ideal S1x512 .f32) (p q : Fin 512) :
    (k1_pay3 a b) (ix2 p q) = (a (ix2 p q) : EReal) + (b (ix2 (0 : Fin 1) q) : EReal) := by
  unfold k1_pay3
  simp only [shapeCast_self]
  rw [truncf_apply, addf_apply, broadcastTo_1b_ab_apply]

variable (V : (c : Dev nD) → (b : Ref sig .tc) → Buf (Elt Ideal) ((c : Thread nD τ).loc b))

/-- The column band of the hidden activations at point `t`. -/
abbrev hblk_f (c : Dev nD) (t : Fin cfg1.N) : Vec Ideal S512x1024 .bf16 := iblk1 V c 0 t
/-- The weight tile at point `t`. -/
abbrev wblk_f (c : Dev nD) (t : Fin cfg1.N) : Vec Ideal S1024x512 .f32 := iblk1 V c 1 t
/-- The bias tile at point `t`. -/
abbrev bblk_f (c : Dev nD) (t : Fin cfg1.N) : Vec Ideal S1x512 .f32 := iblk1 V c 2 t
/-- The hidden activations, whole. -/
abbrev harr_f (c : Dev nD) : Vec Ideal (Cert.Spec.M 512 4096) .bf16 := V c main_v1
/-- The weights, whole. -/
abbrev warr_f (c : Dev nD) : Vec Ideal (Cert.Spec.M 4096 1024) .f32 := V c main_arg4
/-- The bias row, whole. -/
abbrev barr_f (c : Dev nD) : Vec Ideal (Cert.Spec.M 1 1024) .f32 := V c main_v2

/-- The block indices at grid point `t = 4 n + k`: the band `k` of the activations, the tile `(k, n)` of the
    weights, the tile `n` of the bias and of the output. -/
theorem feat_idx_f : ∀ t : Fin cfg1.N,
    win1_0.index t 0 = 0 ∧ win1_0.index t 1 = t.val % 4 ∧
    win1_1.index t 0 = t.val % 4 ∧ win1_1.index t 1 = t.val / 4 ∧
    win1_2.index t 0 = 0 ∧ win1_2.index t 1 = t.val / 4 ∧
    win1_3.index t 0 = 0 ∧ win1_3.index t 1 = t.val / 4 :=
  (by decide +kernel : ∀ t : Fin grid1.N,
    win1_0.index t 0 = 0 ∧ win1_0.index t 1 = t.val % 4 ∧
    win1_1.index t 0 = t.val % 4 ∧ win1_1.index t 1 = t.val / 4 ∧
    win1_2.index t 0 = 0 ∧ win1_2.index t 1 = t.val / 4 ∧
    win1_3.index t 0 = 0 ∧ win1_3.index t 1 = t.val / 4)

/-- An entry of the activations' band at point `t` is the activations' entry `1024 (t % 4)` columns further. -/
theorem hblk_apply_f (c : Dev nD) (t : Fin cfg1.N) (p : Fin 512) (i : Fin 1024) (k : Fin 4096)
    (hk : k.val = 1024 * (t.val % 4) + i.val) :
    (hblk_f V c t) (ix2 p i) = (harr_f V c) (ix2 p k) := by
  show iblk1 V c 0 t (ix2 p i) = V c main_v1 (ix2 p k)
  unfold iblk1
  rw [View.read_apply]
  show V c main_v1 _ = V c main_v1 _
  congr 1
  funext a
  apply Fin.ext
  match a with
  | ⟨0, _⟩ => show win1_0.index t 0 * 512 + 1 * p.val = p.val; rw [(feat_idx_f t).1]; omega
  | ⟨1, _⟩ => show win1_0.index t 1 * 1024 + 1 * i.val = k.val; rw [(feat_idx_f t).2.1, hk]; omega

/-- An entry of the weight tile at point `t` is the weights' entry `1024 (t % 4)` rows and `512 (t / 4)` columns further. -/
theorem wblk_apply_f (c : Dev nD) (t : Fin cfg1.N) (i : Fin 1024) (q : Fin 512) (k : Fin 4096) (col : Fin 1024)
    (hk : k.val = 1024 * (t.val % 4) + i.val) (hcol : col.val = 512 * (t.val / 4) + q.val) :
    (wblk_f V c t) (ix2 i q) = (warr_f V c) (ix2 k col) := by
  show iblk1 V c 1 t (ix2 i q) = V c main_arg4 (ix2 k col)
  unfold iblk1
  rw [View.read_apply]
  show V c main_arg4 _ = V c main_arg4 _
  congr 1
  funext a
  apply Fin.ext
  match a with
  | ⟨0, _⟩ => show win1_1.index t 0 * 1024 + 1 * i.val = k.val; rw [(feat_idx_f t).2.2.1, hk]; omega
  | ⟨1, _⟩ => show win1_1.index t 1 * 512 + 1 * q.val = col.val; rw [(feat_idx_f t).2.2.2.1, hcol]; omega

/-- An entry of the bias tile at point `t` is the bias entry `512 (t / 4)` columns further. -/
theorem bblk_apply_f (c : Dev nD) (t : Fin cfg1.N) (q : Fin 512) (col : Fin 1024)
    (hcol : col.val = 512 * (t.val / 4) + q.val) :
    (bblk_f V c t) (ix2 (0 : Fin 1) q) = (barr_f V c) (ix2 (0 : Fin 1) col) := by
  show iblk1 V c 2 t (ix2 (0 : Fin 1) q) = V c main_v2 (ix2 (0 : Fin 1) col)
  unfold iblk1
  rw [View.read_apply]
  show V c main_v2 _ = V c main_v2 _
  congr 1
  funext a
  apply Fin.ext
  match a with
  | ⟨0, _⟩ => show win1_2.index t 0 * 1 + 1 * 0 = 0; rw [(feat_idx_f t).2.2.2.2.1]
  | ⟨1, _⟩ => show win1_2.index t 1 * 512 + 1 * q.val = col.val; rw [(feat_idx_f t).2.2.2.2.2.1, hcol]; omega

/-- The product of the activations' entry `(p, kk)` and the weights' entry `(kk, col)`, over all naturals:
    zero outside the arrays, so that partial sums over ranges of contraction positions can be regrouped freely. -/
def featTerm_f (c : Dev nD) (p : Fin 512) (col kk : ℕ) : EReal :=
  if h : kk < 4096 ∧ col < 1024 then
    (harr_f V c (ix2 p ⟨kk, h.1⟩) : EReal) * (warr_f V c (ix2 ⟨kk, h.1⟩ ⟨col, h.2⟩) : EReal)
  else 0

/-- The block product at point `n`, entry `(p, q)`, is the stretch of 1024 product terms starting at contraction
    position `1024 (n % 4)`, in column `512 (n / 4) + q`. -/
theorem blk_sum_f (c : Dev nD) (n : ℕ) (hn : n < cfg1.N) (p q : Fin 512) :
    (∑ i : Fin 1024, (hblk_f V c ⟨n, hn⟩ (ix2 p i) : EReal) * (wblk_f V c ⟨n, hn⟩ (ix2 i q) : EReal))
      = ∑ i ∈ Finset.range 1024, featTerm_f V c p (512 * (n / 4) + q.val) (1024 * (n % 4) + i) := by
  have hN : cfg1.N = 8 := N_1
  have hn' : n < 8 := hN ▸ hn
  rw [Finset.sum_range]
  refine Finset.sum_congr rfl fun i _ => ?_
  have hi := i.isLt
  have hq := q.isLt
  have hk : 1024 * (n % 4) + i.val < 4096 := by omega
  have hc : 512 * (n / 4) + q.val < 1024 := by omega
  unfold featTerm_f
  rw [dif_pos ⟨hk, hc⟩,
    hblk_apply_f V c ⟨n, hn⟩ p i ⟨1024 * (n % 4) + i.val, hk⟩ rfl,
    wblk_apply_f V c ⟨n, hn⟩ i q ⟨1024 * (n % 4) + i.val, hk⟩ ⟨512 * (n / 4) + q.val, hc⟩ rfl rfl]

/-- A first reduction step leaves the first stretch of product terms. -/
theorem step_reset_f (c : Dev nD) (n : ℕ) (hn : n < cfg1.N) (h0 : n % 4 = 0) (p q : Fin 512) :
    (k1_pay2 (hblk_f V c ⟨n, hn⟩) (wblk_f V c ⟨n, hn⟩) (k1_pay1 (F := Ideal))) (ix2 p q)
      = ∑ kk ∈ Finset.range (1024 * (n % 4 + 1)), featTerm_f V c p (512 * (n / 4) + q.val) kk := by
  refine (pay2_apply_f (hblk_f V c ⟨n, hn⟩) (wblk_f V c ⟨n, hn⟩) (k1_pay1 (F := Ideal)) p q).trans ?_
  rw [pay1_apply_f, zero_add, blk_sum_f V c n hn p q, h0]
  refine Finset.sum_congr rfl fun i _ => ?_
  rw [show 1024 * 0 + i = i by omega]

/-- After point `n = 4 j + k` the accumulator's entry `(p, q)` is the sum of the first `1024 (k + 1)` product
    terms of row `p` and column `512 j + q`: by induction on the point, a first step starting afresh and a later
    step appending its stretch of 1024 terms. -/
theorem acc1_apply_f (c : Dev nD) : ∀ (n : ℕ) (hn : n < cfg1.N) (p q : Fin 512),
    (acc1 V c n hn) (ix2 p q)
      = ∑ kk ∈ Finset.range (1024 * (n % 4 + 1)), featTerm_f V c p (512 * (n / 4) + q.val) kk
  | 0, hn, p, q => by
    rw [acc1]
    exact step_reset_f V c 0 hn rfl p q
  | n + 1, hn, p, q => by
    rw [acc1]
    by_cases h0 : (n + 1) % 4 = 0
    · rw [if_pos h0]
      exact step_reset_f V c (n + 1) hn h0 p q
    · rw [if_neg h0]
      refine (pay2_apply_f (hblk_f V c ⟨n + 1, hn⟩) (wblk_f V c ⟨n + 1, hn⟩) (acc1 V c n (Nat.lt_of_succ_lt hn)) p q).trans ?_
      rw [acc1_apply_f c n (Nat.lt_of_succ_lt hn) p q, blk_sum_f V c (n + 1) hn p q]
      have e1 : (n + 1) / 4 = n / 4 := by omega
      have e2 : (n + 1) % 4 = n % 4 + 1 := by omega
      rw [e1, e2, show 1024 * (n % 4 + 1 + 1) = 1024 * (n % 4 + 1) + 1024 by omega, Finset.sum_range_add]

/-- All 4096 product terms of a row and a column are the contraction the specification sums. -/
theorem featTerm_full_f (c : Dev nD) (p : Fin 512) (col : Fin 1024) :
    ∑ kk ∈ Finset.range 4096, featTerm_f V c p col.val kk
      = ∑ k : Fin 4096, (harr_f V c (ix2 p k) : EReal) * (warr_f V c (ix2 k col) : EReal) := by
  rw [Finset.sum_range]
  refine Finset.sum_congr rfl fun k _ => ?_
  unfold featTerm_f
  rw [dif_pos ⟨k.isLt, col.isLt⟩]

/-- The tile stored at a last reduction step: at `(p, q)` the full contraction of row `p` against column
    `512 (t / 4) + q`, plus that column's bias. -/
theorem out1_apply_f (c : Dev nD) (t : Fin cfg1.N) (h3 : t.val % 4 = 3) (p q : Fin 512) (col : Fin 1024)
    (hcol : col.val = 512 * (t.val / 4) + q.val) :
    (out1 V c t) (ix2 p q) = Cert.Spec.featAt (harr_f V c) (warr_f V c) (barr_f V c) p col := by
  unfold out1
  refine (pay3_apply_f (acc1 V c t.val t.isLt) (bblk_f V c t) p q).trans ?_
  rw [acc1_apply_f V c t.val t.isLt p q, bblk_apply_f V c t q col hcol, h3, ← hcol,
    show 1024 * (3 + 1) = 4096 from rfl, featTerm_full_f V c p col]
  rfl

/-- What a last reduction step writes back is the specification's array read through the output block. -/
theorem feat_flushed_f (c : Dev nD) (t : Fin cfg1.N) (hf : (cfg1.win 3).flush t = true) :
    (dat1 V c).flushed 3 t = ((cfg1.win 3).blk t).view.read (Elt Ideal)
      (Cert.Spec.feat (V c main_v1) (V c main_arg4) (V c main_v2)) := by
  have h3 : t.val % 4 = 3 := (flush1_3 t).mp hf
  have hN : cfg1.N = 8 := N_1
  have ht := t.isLt
  funext y
  obtain ⟨p, q, rfl⟩ : ∃ (p : Fin 512) (q : Fin 512), y = ix2 p q := ⟨y 0, y 1, eq_ix2 y⟩
  have hc : 512 * (t.val / 4) + q.val < 1024 := by have := q.isLt; omega
  show (cfg1.win 3).cut (cfg1.grid.coords t) ((dat1 V c).after 3 t) (ix2 p q) = _
  dsimp only [dat1]
  show out1 V c t (ix2 p q) = _
  rw [out1_apply_f V c t h3 p q ⟨512 * (t.val / 4) + q.val, hc⟩ rfl, View.read_apply]
  show _ = Cert.Spec.featAt (V c main_v1) (V c main_arg4) (V c main_v2)
    ((((cfg1.win 3).blk t).view.emb (ix2 p q)) 0) ((((cfg1.win 3).blk t).view.emb (ix2 p q)) 1)
  congr 1 <;> apply Fin.ext
  · show p.val = win1_3.index t 0 * 512 + 1 * p.val
    rw [(feat_idx_f t).2.2.2.2.2.2.1]; omega
  · show 512 * (t.val / 4) + q.val = win1_3.index t 1 * 512 + 1 * q.val
    rw [(feat_idx_f t).2.2.2.2.2.2.2]; omega

/-- Every entry of the output array lies in the block written back at the last reduction step of its column tile. -/
theorem feat_cover_f (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : ℕ) < 512 := (i 0).isLt
  have h1 : (i 1 : ℕ) < 1024 := (i 1).isLt
  have hN : cfg1.N = 8 := N_1
  have ht : 4 * ((i 1 : ℕ) / 512) + 3 < cfg1.N := by rw [hN]; omega
  refine ⟨⟨4 * ((i 1 : ℕ) / 512) + 3, ht⟩, (flush1_3 _).mpr (by show (4 * ((i 1 : ℕ) / 512) + 3) % 4 = 3; omega), ?_⟩
  show i ∈ ((View.whole main_v3).slice (win1_3.rect ⟨4 * ((i 1 : ℕ) / 512) + 3, ht⟩)).set
  rw [View.set_slice_whole, Rect.mem_set_unit]
  intro a
  match a with
  | ⟨0, _⟩ =>
    show win1_3.index ⟨4 * ((i 1 : ℕ) / 512) + 3, ht⟩ 0 * 512 ≤ (i 0 : ℕ)
      ∧ (i 0 : ℕ) < win1_3.index ⟨4 * ((i 1 : ℕ) / 512) + 3, ht⟩ 0 * 512 + 512
    rw [(feat_idx_f ⟨4 * ((i 1 : ℕ) / 512) + 3, ht⟩).2.2.2.2.2.2.1]; omega
  | ⟨1, _⟩ =>
    show win1_3.index ⟨4 * ((i 1 : ℕ) / 512) + 3, ht⟩ 1 * 512 ≤ (i 1 : ℕ)
      ∧ (i 1 : ℕ) < win1_3.index ⟨4 * ((i 1 : ℕ) / 512) + 3, ht⟩ 1 * 512 + 512
    rw [(feat_idx_f ⟨4 * ((i 1 : ℕ) / 512) + 3, ht⟩).2.2.2.2.2.2.2]
    show (4 * ((i 1 : ℕ) / 512) + 3) / 4 * 512 ≤ (i 1 : ℕ) ∧ (i 1 : ℕ) < (4 * ((i 1 : ℕ) / 512) + 3) / 4 * 512 + 512
    omega

/-- The second layer's output array after its region is the specification's second layer of the region's inputs. -/
theorem feat_array (c : Dev nD) :
    (dat1 (F := Ideal) V c).arrAt 3 cfg1.N = Cert.Spec.feat (V c main_v1) (V c main_arg4) (V c main_v2) :=
  (dat1 V c).arrAt_eq_of_cover 3 (Cert.Spec.feat (V c main_v1) (V c main_arg4) (V c main_v2))
    (feat_flushed_f V c) (feat_cover_f c)

end Cert.KernelIdeal.Hand

end
-- ==== Proof.MixValue.lean ====
/-
  The weighted mean's output array after its region, index by index: each payload read at an index (the zero
  column, the tile's weighted partial sum added to the accumulator, the scaling by 1/2000), each tile read as its
  part of the array it is cut from, the accumulator after point 4 m + k as the sum of the first k + 1 aspect
  tiles' terms (by induction on the point), the four tiles' sums regrouped as the sum over the padded aspect axis,
  and the write-backs at the last aspect tiles covering the result.
-/
import proofs.«408419_j40879498728834_3_alg».proof.Proof.MixData
import proofs.«408419_j40879498728834_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

/-! ## The three payloads at an index -/

/-- The dot's left operand index: the output's row on axis 0, -/
theorem mixdot_lhs_0_g (j : S256x512.Idx) (k : dot_S256x1024_S512x1024_S256x512_1_1_0_0_n_n.contr.Idx) :
    (dot_S256x1024_S512x1024_S256x512_1_1_0_0_n_n.lhsIdx j k 0 : ℕ) = j 0 := by
  simp [DotDims.lhsIdx, dot_S256x1024_S512x1024_S256x512_1_1_0_0_n_n]; rfl

/-- the contraction position on axis 1; -/
theorem mixdot_lhs_1_g (j : S256x512.Idx) (k : dot_S256x1024_S512x1024_S256x512_1_1_0_0_n_n.contr.Idx) :
    (dot_S256x1024_S512x1024_S256x512_1_1_0_0_n_n.lhsIdx j k 1 : ℕ) = (k ⟨0, by decide⟩ : ℕ) :=
  dot_S256x1024_S512x1024_S256x512_1_1_0_0_n_n.lhsIdx_val_of_single rfl j k

/-- the right operand index: the output's column on axis 0, -/
theorem mixdot_rhs_0_g (j : S256x512.Idx) (k : dot_S256x1024_S512x1024_S256x512_1_1_0_0_n_n.contr.Idx) :
    (dot_S256x1024_S512x1024_S256x512_1_1_0_0_n_n.rhsIdx j k 0 : ℕ) = j 1 := by
  simp [DotDims.rhsIdx, dot_S256x1024_S512x1024_S256x512_1_1_0_0_n_n]; rfl

/-- the contraction position on axis 1. -/
theorem mixdot_rhs_1_g (j : S256x512.Idx) (k : dot_S256x1024_S512x1024_S256x512_1_1_0_0_n_n.contr.Idx) :
    (dot_S256x1024_S512x1024_S256x512_1_1_0_0_n_n.rhsIdx j k 1 : ℕ) = (k ⟨0, by decide⟩ : ℕ) :=
  dot_S256x1024_S512x1024_S256x512_1_1_0_0_n_n.rhsIdx_val_of_single rfl j k

/-- The matrix product into a zero accumulator, contracting the second axis of both operands: at (p, a) the
    inner product of row p of the left operand with row a of the right one. -/
theorem mixdot_apply_g (x : FVec Ideal S256x1024 .bf16) (y : FVec Ideal S512x1024 .bf16) (p : Fin 256) (a : Fin 512) :
    matmul dot_S256x1024_S512x1024_S256x512_1_1_0_0_n_n none x y (constant (F := Ideal) S256x512 .f32 0x00000000#32) (ix2 p a)
      = ∑ e : Fin 1024, x (ix2 p e) * y (ix2 a e) := by
  refine (Ideal.matmul_constant_zero_apply dot_S256x1024_S512x1024_S256x512_1_1_0_0_n_n none x y (ix2 p a)).trans ?_
  rw [← Equiv.sum_comp (contrEquiv1 dot_S256x1024_S512x1024_S256x512_1_1_0_0_n_n 1024 rfl rfl).symm]
  refine Finset.sum_congr rfl fun e _ => ?_
  have hk := contrEquiv1_symm_val dot_S256x1024_S512x1024_S256x512_1_1_0_0_n_n 1024 rfl rfl e
  congr 2
  · funext d
    apply Fin.ext
    match d with
    | ⟨0, _⟩ => exact mixdot_lhs_0_g _ _
    | ⟨1, _⟩ => exact (mixdot_lhs_1_g _ _).trans hk
  · funext d
    apply Fin.ext
    match d with
    | ⟨0, _⟩ => exact mixdot_rhs_0_g _ _
    | ⟨1, _⟩ => exact (mixdot_rhs_1_g _ _).trans hk

/-- A vector cast to a one-column matrix reads, at (p, 0), the vector at p. -/
theorem col_cast_apply_g (x : S256.Idx → EReal) (h : S256.ShapeCasts S256x1) (p : Fin 256) (z : Fin 1) :
    shapeCast S256x1 x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- The lane sum of a 256 × 512 block over its second axis, at row p. -/
theorem lane_sum_apply_g (src : FVec Ideal S256x512 .f32) (h : S256x512.Reduces [1] S256) (hφ : FKind.Formats .f32)
    (hacc : (0x00000000#32 : BitVec 32) = 0x00000000#32) (p : Fin 256) :
    multiReduction (F := Ideal) .add [1] S256 src 0x00000000#32 h hφ hacc (ix1 p) = ∑ a : Fin 512, src (ix2 p a) := by
  refine (Ideal.multiReduction_add_single src 0x00000000#32 h hφ hacc (ix1 p)).trans ?_
  refine Finset.sum_congr rfl fun a _ => ?_
  refine congrArg src ?_
  funext d
  match d with
  | ⟨0, _⟩ => rfl
  | ⟨1, _⟩ => rfl

/-- The reset's payload is the zero column. -/
theorem pay1_apply_g (p : Fin 256) (z : Fin 1) : (k2_pay1 (F := Ideal)) (ix2 p z) = 0 := by
  unfold k2_pay1
  simp only [shapeCast_self]
  exact Ideal.ofBits_zero_f32

/-- The accumulating payload at (p, 0): what the scratch held plus the sum, over the tile's 512 aspects, of the inner
    product of row p of the feature tile with the aspect's row, times the weight at (p, aspect). -/
theorem pay2_apply_g (x : Vec Ideal S256x1024 .bf16) (y : Vec Ideal S512x1024 .f32) (w : Vec Ideal S256x512 .f32)
    (acc : Vec Ideal S256x1 .f32) (p : Fin 256) (z : Fin 1) :
    k2_pay2 (F := Ideal) x y w acc (ix2 p z)
      = acc (ix2 p z) + ∑ a : Fin 512, (∑ e : Fin 1024, x (ix2 p e) * y (ix2 a e)) * w (ix2 p a) := by
  unfold k2_pay2
  simp only [shapeCast_self]
  refine congrArg (acc (ix2 p z) + ·) ?_
  refine (col_cast_apply_g _ _ p z).trans ?_
  refine (lane_sum_apply_g _ _ _ _ p).trans ?_
  refine Finset.sum_congr rfl fun a _ => ?_
  refine congrArg (· * w (ix2 p a)) ?_
  exact mixdot_apply_g x (truncf .bf16 y bitsLt_bf16_f32) p a

/-- The mean's reciprocal, as the certificate's table names it. -/
theorem inv_2000_g : Named.named (F := Ideal) Cert.KernelIdeal.κ "inv_2000" (φ := .f32) 0x3A03126F#32 = ((1 / 2000 : ℝ) : EReal) :=
  IdealRules.named_const.ideal_named_scalar _ _ _ _ rfl

/-- The storing payload at (p, 0): the accumulator times 1/2000. -/
theorem pay3_apply_g (acc : Vec Ideal S256x1 .f32) (p : Fin 256) (z : Fin 1) :
    k2_pay3 (F := Ideal) acc (ix2 p z) = acc (ix2 p z) * ((1 / 2000 : ℝ) : EReal) := by
  unfold k2_pay3
  exact congrArg (acc (ix2 p z) * ·) inv_2000_g

/-! ## The arrays and the blocks, by their literal types -/

variable (V : (c : Dev nD) → (b : Ref sig .tc) → Buf (Elt Ideal) ((c : Thread nD τ).loc b))

/-- The features, the padded aspects and the padded weights, as the region finds them. -/
abbrev fArr_g (c : Dev nD) : Vec Ideal S512x1024 .bf16 := V c main_v3
abbrev aArr_g (c : Dev nD) : Vec Ideal S2048x1024 .f32 := V c main_v7
abbrev wArr_g (c : Dev nD) : Vec Ideal S512x2048 .f32 := V c main_v6

/-- Their tiles at point t. -/
abbrev fBlk_g (c : Dev nD) (t : Fin cfg2.N) : Vec Ideal S256x1024 .bf16 := iblk2 V c 0 t
abbrev aBlk_g (c : Dev nD) (t : Fin cfg2.N) : Vec Ideal S512x1024 .f32 := iblk2 V c 1 t
abbrev wBlk_g (c : Dev nD) (t : Fin cfg2.N) : Vec Ideal S256x512 .f32 := iblk2 V c 2 t

/-- The index maps over the grid: point t = 4 m + a reads row tile m of the features, aspect tile a, the weights'
    tile (m, a), and writes row tile m of the result. -/
theorem mix_idx_g : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4
    ∧ win2_3.index t (0 : Fin 2) = t.val / 4 ∧ win2_3.index t (1 : Fin 2) = 0 :=
  (by decide +kernel : ∀ t : Fin grid2.N, _)

/-- The feature tile at point t is rows 256 (t / 4) … of the features. -/
theorem fBlk_apply_g (c : Dev nD) (t : Fin cfg2.N) (p : Fin 256) (e : Fin 1024) (P : Fin 512)
    (hP : P.val = 256 * (t.val / 4) + p.val) : fBlk_g V c t (ix2 p e) = fArr_g V c (ix2 P e) := by
  obtain ⟨e0, e1, -⟩ := mix_idx_g t
  show V c main_v3 (((cfg2.win 0).blk t).view.emb (ix2 p e)) = V c main_v3 (ix2 P e)
  refine congrArg (V c main_v3) ?_
  funext a
  apply Fin.ext
  match a with
  | ⟨0, _⟩ => show win2_0.index t (0 : Fin 2) * 256 + 1 * p.val = P.val; omega
  | ⟨1, _⟩ => show win2_0.index t (1 : Fin 2) * 1024 + 1 * e.val = e.val; omega

/-- The aspect tile at point t is rows 512 (t % 4) … of the padded aspects. -/
theorem aBlk_apply_g (c : Dev nD) (t : Fin cfg2.N) (a : Fin 512) (e : Fin 1024) (A : Fin 2048)
    (hA : A.val = 512 * (t.val % 4) + a.val) : aBlk_g V c t (ix2 a e) = aArr_g V c (ix2 A e) := by
  obtain ⟨-, -, e0, e1, -⟩ := mix_idx_g t
  show V c main_v7 (((cfg2.win 1).blk t).view.emb (ix2 a e)) = V c main_v7 (ix2 A e)
  refine congrArg (V c main_v7) ?_
  funext d
  apply Fin.ext
  match d with
  | ⟨0, _⟩ => show win2_1.index t (0 : Fin 2) * 512 + 1 * a.val = A.val; omega
  | ⟨1, _⟩ => show win2_1.index t (1 : Fin 2) * 1024 + 1 * e.val = e.val; omega

/-- The weight tile at point t is rows 256 (t / 4) …, columns 512 (t % 4) … of the padded weights. -/
theorem wBlk_apply_g (c : Dev nD) (t : Fin cfg2.N) (p : Fin 256) (a : Fin 512) (P : Fin 512) (A : Fin 2048)
    (hP : P.val = 256 * (t.val / 4) + p.val) (hA : A.val = 512 * (t.val % 4) + a.val) :
    wBlk_g V c t (ix2 p a) = wArr_g V c (ix2 P A) := by
  obtain ⟨-, -, -, -, e0, e1, -⟩ := mix_idx_g t
  show V c main_v6 (((cfg2.win 2).blk t).view.emb (ix2 p a)) = V c main_v6 (ix2 P A)
  refine congrArg (V c main_v6) ?_
  funext d
  apply Fin.ext
  match d with
  | ⟨0, _⟩ => show win2_2.index t (0 : Fin 2) * 256 + 1 * p.val = P.val; omega
  | ⟨1, _⟩ => show win2_2.index t (1 : Fin 2) * 512 + 1 * a.val = A.val; omega

/-! ## The accumulator across the four aspect tiles -/

/-- Aspect a of tile b, as an index of the padded aspect axis. -/
def aspIx_g (b : ℕ) (a : Fin 512) : Fin 2048 := ⟨(512 * b + a.val) % 2048, Nat.mod_lt _ (by decide)⟩

/-- One aspect's term of the mean at row P: the inner product with the aspect's row, times the weight. -/
def mixTerm_g (c : Dev nD) (P : Fin 512) (A : Fin 2048) : EReal :=
  (∑ e : Fin 1024, (fArr_g V c (ix2 P e) : EReal) * (aArr_g V c (ix2 A e) : EReal)) * (wArr_g V c (ix2 P A) : EReal)

/-- The terms of aspect tile b, summed. -/
def tileSum_g (c : Dev nD) (P : Fin 512) (b : ℕ) : EReal := ∑ a : Fin 512, mixTerm_g V c P (aspIx_g b a)

/-- What point t adds at row p of its tile is aspect tile t % 4's sum at the global row. -/
theorem tile_eq_g (c : Dev nD) (t : Fin cfg2.N) (p : Fin 256) (P : Fin 512) (hP : P.val = 256 * (t.val / 4) + p.val) :
    (∑ a : Fin 512, (∑ e : Fin 1024, fBlk_g V c t (ix2 p e) * aBlk_g V c t (ix2 a e)) * wBlk_g V c t (ix2 p a))
      = tileSum_g V c P (t.val % 4) := by
  unfold tileSum_g mixTerm_g
  refine Finset.sum_congr rfl fun a _ => ?_
  have hA : (aspIx_g (t.val % 4) a).val = 512 * (t.val % 4) + a.val := by
    show (512 * (t.val % 4) + a.val) % 2048 = _
    have := a.isLt
    omega
  rw [wBlk_apply_g V c t p a P _ hP hA]
  refine congrArg (· * wArr_g V c (ix2 P (aspIx_g (t.val % 4) a))) ?_
  refine Finset.sum_congr rfl fun e _ => ?_
  rw [fBlk_apply_g V c t p e P hP, aBlk_apply_g V c t a e _ hA]

/-- At a first aspect tile the accumulator is the partial sum over zero; -/
theorem acc2_reset_g (c : Dev nD) (n : ℕ) (hn : n < cfg2.N) (h : n % 4 = 0) :
    acc2 V c n hn = k2_pay2 (fBlk_g V c ⟨n, hn⟩) (aBlk_g V c ⟨n, hn⟩) (wBlk_g V c ⟨n, hn⟩) (k2_pay1 (F := Ideal)) := by
  cases n with
  | zero => rfl
  | succ n => rw [acc2, if_pos h]

/-- afterwards over what the point before left. -/
theorem acc2_step_g (c : Dev nD) (n : ℕ) (hn : n + 1 < cfg2.N) (h : ¬(n + 1) % 4 = 0) :
    acc2 V c (n + 1) hn = k2_pay2 (fBlk_g V c ⟨n + 1, hn⟩) (aBlk_g V c ⟨n + 1, hn⟩) (wBlk_g V c ⟨n + 1, hn⟩)
      (acc2 V c n (Nat.lt_of_succ_lt hn)) := by
  rw [acc2, if_neg h]

/-- After point n = 4 m + k the accumulator's row p holds the sum of the first k + 1 aspect tiles' terms at the
    global row 256 m + p. -/
theorem acc2_apply_g (c : Dev nD) : ∀ (n : ℕ) (hn : n < cfg2.N) (p : Fin 256) (z : Fin 1) (P : Fin 512),
    P.val = 256 * (n / 4) + p.val →
    acc2 V c n hn (ix2 p z) = ∑ b ∈ Finset.range (n % 4 + 1), tileSum_g V c P b
  | 0, hn, p, z, P, hP => by
    rw [acc2_reset_g V c 0 hn rfl]
    refine (pay2_apply_g (fBlk_g V c ⟨0, hn⟩) (aBlk_g V c ⟨0, hn⟩) (wBlk_g V c ⟨0, hn⟩) (k2_pay1 (F := Ideal)) p z).trans ?_
    rw [pay1_apply_g, zero_add, tile_eq_g V c ⟨0, hn⟩ p P hP]
    show _ = ∑ b ∈ Finset.range 1, _
    rw [Finset.sum_range_one]
    rfl
  | n + 1, hn, p, z, P, hP => by
    by_cases h : (n + 1) % 4 = 0
    · rw [acc2_reset_g V c (n + 1) hn h]
      refine (pay2_apply_g (fBlk_g V c ⟨n + 1, hn⟩) (aBlk_g V c ⟨n + 1, hn⟩) (wBlk_g V c ⟨n + 1, hn⟩) (k2_pay1 (F := Ideal)) p z).trans ?_
      rw [pay1_apply_g, zero_add, tile_eq_g V c ⟨n + 1, hn⟩ p P hP]
      show tileSum_g V c P ((n + 1) % 4) = _
      rw [h, Finset.sum_range_one]
    · rw [acc2_step_g V c n hn h]
      refine (pay2_apply_g (fBlk_g V c ⟨n + 1, hn⟩) (aBlk_g V c ⟨n + 1, hn⟩) (wBlk_g V c ⟨n + 1, hn⟩)
        (acc2 V c n (Nat.lt_of_succ_lt hn)) p z).trans ?_
      rw [acc2_apply_g c n (Nat.lt_of_succ_lt hn) p z P (by omega), tile_eq_g V c ⟨n + 1, hn⟩ p P hP]
      have e : (n + 1) % 4 = n % 4 + 1 := by omega
      show _ + tileSum_g V c P ((n + 1) % 4) = _
      rw [e, Finset.sum_range_succ _ (n % 4 + 1)]

/-- The four tiles' sums are the sum over the whole padded aspect axis. -/
theorem sum_tiles_g (c : Dev nD) (P : Fin 512) :
    ∑ b ∈ Finset.range 4, tileSum_g V c P b = ∑ A : Fin 2048, mixTerm_g V c P A := by
  rw [Finset.sum_range]
  have e := Equiv.sum_comp (finProdFinEquiv (m := 4) (n := 512)) (fun A : Fin (4 * 512) => mixTerm_g V c P A)
  rw [Fintype.sum_prod_type] at e
  refine Eq.trans ?_ e
  refine Finset.sum_congr rfl fun b _ => ?_
  unfold tileSum_g
  refine Finset.sum_congr rfl fun a _ => ?_
  refine congrArg (mixTerm_g V c P) (Fin.ext ?_)
  show (512 * b.val + a.val) % 2048 = a.val + 512 * b.val
  have := a.isLt
  have := b.isLt
  omega

/-! ## The array -/

/-- What a last aspect tile writes back is its row tile of the mean. -/
theorem mix_flushed_g (c : Dev nD) (t : Fin cfg2.N) (hf : (cfg2.win 3).flush t = true) :
    (dat2 (F := Ideal) V c).flushed 3 t
      = ((cfg2.win 3).blk t).view.read (Elt Ideal) (Cert.Spec.mix (fArr_g V c) (aArr_g V c) (wArr_g V c)) := by
  have h3 : t.val % 4 = 3 := (flush2_3 t).mp hf
  obtain ⟨-, -, -, -, -, -, e0, e1⟩ := mix_idx_g t
  show (cfg2.win 3).cut (grid2.coords t) ((dat2 (F := Ideal) V c).after 3 t) = _
  funext y
  obtain ⟨p, z, rfl⟩ : ∃ (p : Fin 256) (z : Fin 1), y = ix2 p z := ⟨y 0, y 1, eq_ix2 y⟩
  have hN : cfg2.N = 8 := N_2
  have hP : 256 * (t.val / 4) + p.val < 512 := by
    have := t.isLt
    have := p.isLt
    omega
  show k2_pay3 (F := Ideal) (acc2 V c t.val t.isLt) (ix2 p z)
    = Cert.Spec.mix (fArr_g V c) (aArr_g V c) (wArr_g V c) (((cfg2.win 3).blk t).view.emb (ix2 p z))
  refine (pay3_apply_g (acc2 V c t.val t.isLt) p z).trans ?_
  have e4 : t.val % 4 + 1 = 4 := by omega
  rw [acc2_apply_g V c t.val t.isLt p z ⟨256 * (t.val / 4) + p.val, hP⟩ rfl, e4, sum_tiles_g]
  have hrow : (((cfg2.win 3).blk t).view.emb (ix2 p z)) 0 = (⟨256 * (t.val / 4) + p.val, hP⟩ : Fin 512) := by
    apply Fin.ext
    show win2_3.index t (0 : Fin 2) * 256 + 1 * p.val = 256 * (t.val / 4) + p.val
    omega
  show _ = Cert.Spec.mixAt (fArr_g V c) (aArr_g V c) (wArr_g V c) ((((cfg2.win 3).blk t).view.emb (ix2 p z)) 0)
  rw [hrow]
  rfl

/-- An index of the result is in point t's block iff each coordinate is in the block's range on its axis. -/
theorem mix_mem_blk_g (t : Fin cfg2.N) (i : S512x1.Idx) :
    i ∈ ((cfg2.win 3).blk t).view.set
      ↔ ∀ a : Fin 2, win2_3.index t a * S256x1.size a ≤ (i a).val ∧ (i a).val < win2_3.index t a * S256x1.size a + S256x1.size a := by
  show i ∈ ((View.whole main_v8).slice (win2_3.rect t)).set ↔ _
  rw [View.set_slice_whole, Rect.mem_set_unit]
  exact Iff.rfl

/-- Every row of the result lies in the block of its row tile's last point. -/
theorem mix_cover_g (i : S512x1.Idx) :
    ∃ t : Fin cfg2.N, (cfg2.win 3).flush t = true ∧ i ∈ ((cfg2.win 3).blk t).view.set := by
  have h0 : (i 0).val < 512 := (i 0).isLt
  have h1 : (i 1).val < 1 := (i 1).isLt
  have hN : cfg2.N = 8 := N_2
  obtain ⟨t, ht⟩ : ∃ t : Fin cfg2.N, t.val = 4 * ((i 0).val / 256) + 3 := ⟨⟨4 * ((i 0).val / 256) + 3, by omega⟩, rfl⟩
  obtain ⟨-, -, -, -, -, -, e0, e1⟩ := mix_idx_g t
  refine ⟨t, (flush2_3 t).mpr (by omega), ?_⟩
  rw [mix_mem_blk_g]
  intro a
  match a with
  | ⟨0, _⟩ =>
    show win2_3.index t (0 : Fin 2) * 256 ≤ (i 0).val ∧ (i 0).val < win2_3.index t (0 : Fin 2) * 256 + 256
    omega
  | ⟨1, _⟩ =>
    show win2_3.index t (1 : Fin 2) * 1 ≤ (i 1).val ∧ (i 1).val < win2_3.index t (1 : Fin 2) * 1 + 1
    omega

/-- The result array after the region is the weighted aspect mean of the three arrays the region found. -/
theorem mix_array (c : Dev nD) :
    (dat2 (F := Ideal) V c).arrAt 3 cfg2.N = Cert.Spec.mix (V c main_v3) (V c main_v7) (V c main_v6) :=
  (dat2 (F := Ideal) V c).arrAt_eq_of_cover 3 (Cert.Spec.mix (fArr_g V c) (aArr_g V c) (wArr_g V c))
    (fun t ht => mix_flushed_g V c t ht) mix_cover_g

end Cert.KernelIdeal.Hand

end
-- ==== Proof.Range.lean ====
/-
  The evident domain of the brand indices: each is a row of the 10000-row brand table, 0 ≤ b < 10000 as signed
  32-bit words.
-/
import Idealize.ShloMosaic.PureOps
import Idealize.ShloMosaic.Lib.ValueIdx

namespace Cert.Spec

open Idealize.ShloMosaic

/-- Every brand index lies in the table. -/
def InRange (brand : IVec (⟨1, ![512]⟩ : Shape) 32) : Prop :=
  ∀ i : Fin 512, (0#32).sle (brand (ValueIdx.ix1 i)) = true ∧ (brand (ValueIdx.ix1 i)).slt 10000#32 = true

end Cert.Spec
-- ==== Proof.HostGlue.lean ====
/-
  What the kernel's host operations put in the operands the three regions read: the bias vectors laid out as rows,
  the aspects padded with 48 zero rows, the gathered brand weights padded with 48 zero columns, and the argument
  arrays passed through untouched.
-/
import proofs.«408419_j40879498728834_3_alg».proof.Proof.Entry
import proofs.«408419_j40879498728834_3_alg».proof.Proof.Range
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Reduce

set_option maxRecDepth 16384

noncomputable section

namespace Cert.KernelIdeal.Hand

open Idealize.ShloMosaic Idealize.ShloMosaic.TcCoe Idealize.ShloMosaic.ValueIdx
open Idealize.SL.Sem
open Cert.KernelIdeal.Gen

variable (m : (ℓ : Loc nD τ sig) → Buf (Elt Ideal) ℓ)

/-- The brand rows gathered at the indices as given (no clamp, no wrap): what both programs read when every index
    lies in the table. -/
def kGathered (emb : FVec Ideal S10000x2000 .f32) (brand : IVec S512 32) : FVec Ideal S512x2000 .f32 :=
  Host.gather gather_S10000x2000_S512x1_S512x2000_1_0_n_n_0_1_12000 emb (broadcastInDim S512x1 ![0] Facts₀.bcast_S512_S512x1_0 brand)

theorem ent0_image (c : Dev nD) : ent0 m c main_arg0 = m ((c.tc : Thread nD τ).loc main_arg0) :=
  (V1_of m c main_arg0 (by decide)).trans rfl

theorem ent0_w1 (c : Dev nD) : ent0 m c main_arg2 = m ((c.tc : Thread nD τ).loc main_arg2) :=
  (V1_of m c main_arg2 (by decide)).trans rfl

theorem ent0_bias (c : Dev nD) (q : Fin 4096) :
    ent0 m c main_v0 (ix2 (0 : Fin 1) q) = m ((c.tc : Thread nD τ).loc main_arg3) (ix1 q) := by
  have e : (Gen.V1 m c main_v0 : S1x4096.Idx → EReal) = shapeCast S1x4096 (m ((c.tc : Thread nD τ).loc main_arg3) : S4096.Idx → EReal) shapeCasts_S4096_S1x4096 := by
    dsimp only [Gen.V1, Gen.hostOps0]; after_results; rfl
  show (Gen.V1 m c main_v0 : S1x4096.Idx → EReal) (ix2 (0 : Fin 1) q) = _
  rw [e]
  exact shapeCast_apply _ _ _ (ix1 q) (by rw [Shape.rowMajor_val_two, Shape.rowMajor_val_one]; simp [ix1, ix2])

theorem ent1_w2 (c : Dev nD) : ent1 m c main_arg4 = m ((c.tc : Thread nD τ).loc main_arg4) :=
  (V3_of m (outs0 m) c main_arg4 (by decide)).trans <| (V2_of m (outs0 m) c main_arg4 (by decide)).trans <|
    (V1_of m c main_arg4 (by decide)).trans rfl

theorem ent1_bias (c : Dev nD) (q : Fin 1024) :
    ent1 m c main_v2 (ix2 (0 : Fin 1) q) = m ((c.tc : Thread nD τ).loc main_arg5) (ix1 q) := by
  have hV : (Gen.V3 m (outs0 m) c main_v2 : S1x1024.Idx → EReal) =
      shapeCast S1x1024 (Gen.V2 m (outs0 m) c main_arg5 : S1024.Idx → EReal) shapeCasts_S1024_S1x1024 := by
    dsimp only [Gen.V3, Gen.hostOps1]; after_results; rfl
  have hA : Gen.V2 m (outs0 m) c main_arg5 = m ((c.tc : Thread nD τ).loc main_arg5) :=
    (V2_of m (outs0 m) c main_arg5 (by decide)).trans <| (V1_of m c main_arg5 (by decide)).trans rfl
  show (Gen.V3 m (outs0 m) c main_v2 : S1x1024.Idx → EReal) (ix2 (0 : Fin 1) q) = _
  rw [hV, hA]
  exact shapeCast_apply _ _ _ (ix1 q) (by rw [Shape.rowMajor_val_two, Shape.rowMajor_val_one]; simp [ix1, ix2])

theorem ent2_aspects (c : Dev nD) (a : Fin 2048) (e : Fin 1024) :
    ent2 m c main_v7 (ix2 a e) = if h : a.val < 2000 then m ((c.tc : Thread nD τ).loc main_arg7) (ix2 (⟨a.val, h⟩ : Fin 2000) e) else (0 : EReal) := by
  have hV : (Gen.V11 m (outs1 m) c main_v7 : S2048x1024.Idx → EReal) =
      pad S2048x1024 ![0, 0] ![48, 0] ![0, 0] (Gen.V10 m (outs1 m) c main_arg7 : S2000x1024.Idx → EReal)
        (sitofp .f32 (Gen.V10 m (outs1 m) c main_c_2 : IVec S_ 32) : FVec Ideal S_ .f32)
        pads_S2000x1024_S2048x1024_0480_000 h_S_ := by
    dsimp only [Gen.V11]; simp only [Gen.hostOps2_6]; after_results; rfl
  have hA : Gen.V10 m (outs1 m) c main_arg7 = m ((c.tc : Thread nD τ).loc main_arg7) :=
    (V10_of m (outs1 m) c main_arg7 (by decide)).trans <| (V9_of m (outs1 m) c main_arg7 (by decide)).trans <|
    (V8_of m (outs1 m) c main_arg7 (by decide)).trans <| (V7_of m (outs1 m) c main_arg7 (by decide)).trans <|
    (V6_of m (outs1 m) c main_arg7 (by decide)).trans <| (V5_of m (outs1 m) c main_arg7 (by decide)).trans <|
    (V4_of m (outs1 m) c main_arg7 (by decide)).trans <| (V3_of m (outs1 m) c main_arg7 (by decide)).trans <|
    (V2_of m (outs1 m) c main_arg7 (by decide)).trans <| (V1_of m c main_arg7 (by decide)).trans rfl
  have hC : (Gen.V10 m (outs1 m) c main_c_2 : IVec S_ 32) = constantI S_ 32 0#32 := by
    dsimp only [Gen.V10, Gen.hostOps2_5]; after_results
  show (Gen.V11 m (outs1 m) c main_v7 : S2048x1024.Idx → EReal) (ix2 a e) = _
  rw [hV, hA, hC]
  by_cases h : a.val < 2000
  · rw [dif_pos h]
    exact pad_apply_of_inside _ _ _ _ _ _ _ (ix2 a e) (ix2 (⟨a.val, h⟩ : Fin 2000) e) (by
      intro b; fin_cases b <;> simp [ix2])
  · rw [dif_neg h]
    rw [pad_apply_of_not_inside _ _ _ _ _ _ _ (ix2 a e) (0 : Fin 2) (by
      rintro ⟨-, -, h3⟩
      have h3' : (a.val - 0) / (0 + 1) < 2000 := h3
      omega)]
    show (((0#32 : BitVec 32).toInt : ℝ) : EReal) = 0
    simp

/-- An index of the table as a signed word: between 0 and 9999. -/
private theorem word_range (x : BitVec 32) (h0 : (0#32).sle x = true) (h1 : x.slt 10000#32 = true) :
    0 ≤ x.toInt ∧ x.toInt < 10000 := by
  have e0 : (0#32 : BitVec 32).toInt = 0 := by decide
  have e1 : (10000#32 : BitVec 32).toInt = 10000 := by decide
  simp only [BitVec.sle, BitVec.slt, decide_eq_true_eq, e0, e1] at h0 h1
  exact ⟨h0, h1⟩

/-- The clamp to [0, 9999] leaves an index of the table. -/
private theorem word_clip (x : BitVec 32) (h0 : (0#32).sle x = true) (h1 : x.slt 10000#32 = true) :
    IntOp.minsi 9999#32 (IntOp.maxsi 0#32 x) = x := by
  obtain ⟨a0, a1⟩ := word_range x h0 h1
  have e0 : (0#32 : BitVec 32).toInt = 0 := by decide
  have e1 : (9999#32 : BitVec 32).toInt = 9999 := by decide
  have hm : IntOp.maxsi 0#32 x = x := by
    unfold IntOp.maxsi
    rw [if_neg]
    simp only [BitVec.slt, decide_eq_true_eq, e0]; omega
  rw [hm]
  unfold IntOp.minsi
  rw [if_neg]
  simp only [BitVec.slt, decide_eq_true_eq, e1]; omega

/-- The wrap of a negative index leaves an index of the table. -/
private theorem word_wrap (x : BitVec 32) (h0 : (0#32).sle x = true) (h1 : x.slt 10000#32 = true) :
    Scalar.select (IntOp.cmpi .slt x 0#32) (IntOp.addi x 10000#32) x = x := by
  obtain ⟨a0, a1⟩ := word_range x h0 h1
  have e0 : (0#32 : BitVec 32).toInt = 0 := by decide
  have hc : IntOp.cmpi .slt x 0#32 = 0#1 := by
    show BitVec.ofBool (x.slt 0#32) = 0#1
    have : x.slt 0#32 = false := by
      simp only [BitVec.slt, decide_eq_false_iff_not, e0]; omega
    rw [this]; rfl
  rw [hc]; rfl

/-- The in-bounds test of an index of the table passes. -/
private theorem word_mask (x : BitVec 32) (h0 : (0#32).sle x = true) (h1 : x.slt 10000#32 = true) :
    IntOp.andi (IntOp.cmpi .sge x 0#32) (IntOp.cmpi .sle x 9999#32) = 1#1 := by
  obtain ⟨a0, a1⟩ := word_range x h0 h1
  have e1 : (9999#32 : BitVec 32).toInt = 9999 := by decide
  have hc0 : IntOp.cmpi .sge x 0#32 = 1#1 := by
    show BitVec.ofBool ((0#32).sle x) = 1#1
    rw [h0]; rfl
  have hc1 : IntOp.cmpi .sle x 9999#32 = 1#1 := by
    show BitVec.ofBool (x.sle 9999#32) = 1#1
    have : x.sle 9999#32 = true := by
      simp only [BitVec.sle, decide_eq_true_eq, e1]; omega
    rw [this]; rfl
  rw [hc0, hc1]; rfl

/-- A left fold by and over ones from one is one. -/
private theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1) (1#1) = 1#1 := by decide
    rw [List.foldl_cons, hf a, h11]
    exact foldl_andi_ones f hf l

section Take

/-- The printed negative-index wrap of @_take over the index vector. -/
private def wrapIdx (v : IVec S512 32) : IVec S512 32 :=
  select (cmpi .slt v (broadcastInDim S512 ![] bcast_S_S512 (constantI S_ 32 0#32)))
    (addi v (broadcastInDim S512 ![] bcast_S_S512 (constantI S_ 32 10000#32))) v

/-- The printed in-bounds test of @_take over the column of start indices. -/
private def inBounds (ix : IVec S512x1 32) : IVec S512 1 :=
  Host.reduce IntOp.andi
    (andi (cmpi .sge ix (broadcastInDim S512x1 ![] bcast_S_S512x1 (constantI S_ 32 0#32)))
      (cmpi .sle ix (broadcastInDim S512x1 ![0, 1] bcast_S1x1_S512x1_0_1
        (broadcastInDim S1x1 ![1] bcast_S1_S1x1_1 (constantI S1 32 9999#32)))))
    (constantI S_ 1 1#1) reducesTo_S512x1_S512_d1 h_S_

/-- @_take as printed: the rows gathered at the wrapped indices, a row whose index is out of bounds filled with NaN. -/
private def takeTerm (emb : FVec Ideal S10000x2000 .f32) (v : IVec S512 32) : FVec Ideal S512x2000 .f32 :=
  select (broadcastInDim S512x2000 ![0] bcast_S512_S512x2000_0
      (inBounds (broadcastInDim S512x1 ![0] bcast_S512_S512x1_0 (wrapIdx v))))
    (Host.gather gather_S10000x2000_S512x1_S512x2000_1_0_n_n_0_1_12000 emb
      (broadcastInDim S512x1 ![0] bcast_S512_S512x1_0 (wrapIdx v)))
    (broadcastInDim S512x2000 ![] bcast_S_S512x2000 (constant S_ .f32 0x7FC00000#32))

/-- @clip as printed over the index vector, its bounds 0 and 9999. -/
private def clipTerm (b : IVec S512 32) : IVec S512 32 :=
  minsi (broadcastInDim S512 ![] bcast_S_S512 (id (constantI S_ 32 9999#32)))
    (maxsi (broadcastInDim S512 ![] bcast_S_S512 (id (constantI S_ 32 0#32))) b)

private theorem inRange_idx (b : IVec S512 32) (hr : Cert.Spec.InRange b) (k : S512.Idx) :
    (0#32).sle (b k) = true ∧ (b k).slt 10000#32 = true := by
  rw [eq_ix1 k]; exact hr (k 0)

private theorem clipTerm_eq (b : IVec S512 32) (hr : Cert.Spec.InRange b) : clipTerm b = b := by
  funext k
  show IntOp.minsi 9999#32 (IntOp.maxsi 0#32 (b k)) = b k
  exact word_clip (b k) (inRange_idx b hr k).1 (inRange_idx b hr k).2

private theorem wrapIdx_eq (b : IVec S512 32) (hr : Cert.Spec.InRange b) : wrapIdx b = b := by
  funext k
  show Scalar.select (IntOp.cmpi .slt (b k) 0#32) (IntOp.addi (b k) 10000#32) (b k) = b k
  exact word_wrap (b k) (inRange_idx b hr k).1 (inRange_idx b hr k).2

private theorem inBounds_eq (b : IVec S512 32) (hr : Cert.Spec.InRange b) (j : S512.Idx) :
    inBounds (broadcastInDim S512x1 ![0] bcast_S512_S512x1_0 b) j = 1#1 := by
  unfold inBounds
  rw [Host.reduce_eq_foldl]
  refine foldl_andi_ones _ (fun i => ?_) _
  show IntOp.andi (IntOp.cmpi .sge (b _) 0#32) (IntOp.cmpi .sle (b _) 9999#32) = 1#1
  exact word_mask _ (inRange_idx b hr _).1 (inRange_idx b hr _).2

private theorem takeTerm_eq (emb : FVec Ideal S10000x2000 .f32) (b : IVec S512 32) (hr : Cert.Spec.InRange b) :
    takeTerm emb b = kGathered emb b := by
  unfold takeTerm kGathered
  rw [wrapIdx_eq b hr]
  funext j
  rw [select_apply]
  have hm : broadcastInDim S512x2000 ![0] bcast_S512_S512x2000_0
      (inBounds (broadcastInDim S512x1 ![0] bcast_S512_S512x1_0 b)) j = 1#1 := by
    unfold broadcastInDim
    exact inBounds_eq b hr _
  rw [hm]; rfl

end Take

section After

/-- What the clamp's stretch leaves in its result, over any contents before it. -/
private theorem clip_after (W : Valuation τ sig (Elt Ideal)) :
    (StableHlo.after (hostOps2_1 : List (HloOp τ sig (Elt Ideal))) (StableHlo.after (hostOps2 : List (HloOp τ sig (Elt Ideal))) W)
        (Proc.devRef .tc main_v4) : IVec S512 32) = clipTerm (W (Proc.devRef .tc main_arg1) : IVec S512 32) := by
  simp only [Gen.hostOps2_1, Gen.hostOps2]; after_results
  simp only [StableHlo.TRef.ofBuf, StableHlo.TRef.toBuf, cast_eq]
  rfl

/-- What the take's stretch leaves in its result, over any contents before it. -/
private theorem take_after (W : Valuation τ sig (Elt Ideal)) :
    (StableHlo.after (hostOps2_2 : List (HloOp τ sig (Elt Ideal))) W (Proc.devRef .tc main_v5) : FVec Ideal S512x2000 .f32) =
      takeTerm (W (Proc.devRef .tc main_arg6) : FVec Ideal S10000x2000 .f32) (W (Proc.devRef .tc main_v4) : IVec S512 32) := by
  simp only [Gen.hostOps2_2]; after_results_simp
  simp only [StableHlo.TRef.ofBuf, StableHlo.TRef.toBuf, cast_eq]
  rfl

/-- What the pad's stretch leaves in its result, over any contents before it. -/
private theorem pad_after (W : Valuation τ sig (Elt Ideal)) :
    (StableHlo.after (hostOps2_4 : List (HloOp τ sig (Elt Ideal))) (StableHlo.after (hostOps2_3 : List (HloOp τ sig (Elt Ideal))) W)
        (Proc.devRef .tc main_v6) : S512x2048.Idx → EReal) =
      pad S512x2048 ![0, 0] ![0, 48] ![0, 0] (W (Proc.devRef .tc main_v5) : S512x2000.Idx → EReal)
        (sitofp .f32 (constantI S_ 32 0#32) : FVec Ideal S_ .f32) pads_S512x2000_S512x2048_000_0480 h_S_ := by
  simp only [Gen.hostOps2_4, Gen.hostOps2_3]; after_results
  simp only [StableHlo.TRef.ofBuf, StableHlo.TRef.toBuf, cast_eq]

end After

theorem ent2_weights (c : Dev nD) (hr : Cert.Spec.InRange (m ((c.tc : Thread nD τ).loc main_arg1))) (p : Fin 512) (a : Fin 2048) :
    ent2 m c main_v6 (ix2 p a) = if h : a.val < 2000 then
      kGathered (m ((c.tc : Thread nD τ).loc main_arg6)) (m ((c.tc : Thread nD τ).loc main_arg1)) (ix2 p (⟨a.val, h⟩ : Fin 2000)) else (0 : EReal) := by
  -- the argument arrays, untouched up to where they are read
  have hA1 : Gen.V4 m (outs1 m) c main_arg1 = m ((c.tc : Thread nD τ).loc main_arg1) :=
      (V4_of m (outs1 m) c main_arg1 (by decide)).trans <|
      (V3_of m (outs1 m) c main_arg1 (by decide)).trans <|
      (V2_of m (outs1 m) c main_arg1 (by decide)).trans <|
      (V1_of m c main_arg1 (by decide)).trans rfl
  have hA6 : Gen.V6 m (outs1 m) c main_arg6 = m ((c.tc : Thread nD τ).loc main_arg6) :=
      (V6_of m (outs1 m) c main_arg6 (by decide)).trans <|
      (V5_of m (outs1 m) c main_arg6 (by decide)).trans <|
      (V4_of m (outs1 m) c main_arg6 (by decide)).trans <|
      (V3_of m (outs1 m) c main_arg6 (by decide)).trans <|
      (V2_of m (outs1 m) c main_arg6 (by decide)).trans <|
      (V1_of m c main_arg6 (by decide)).trans rfl
  -- the clamped indices are the indices
  have h6 : (Gen.V6 m (outs1 m) c main_v4 : IVec S512 32) = m ((c.tc : Thread nD τ).loc main_arg1) :=
    (clip_after (Gen.V4 m (outs1 m) c)).trans ((congrArg clipTerm hA1).trans (clipTerm_eq _ hr))
  -- the taken rows are the gathered rows
  have h7 : (Gen.V7 m (outs1 m) c main_v5 : FVec Ideal S512x2000 .f32) =
      kGathered (m ((c.tc : Thread nD τ).loc main_arg6)) (m ((c.tc : Thread nD τ).loc main_arg1)) :=
    (take_after (Gen.V6 m (outs1 m) c)).trans ((congrArg₂ takeTerm hA6 h6).trans (takeTerm_eq _ _ hr))
  -- the pad
  have h9 : (Gen.V9 m (outs1 m) c main_v6 : S512x2048.Idx → EReal) =
      pad S512x2048 ![0, 0] ![0, 48] ![0, 0]
        (kGathered (m ((c.tc : Thread nD τ).loc main_arg6)) (m ((c.tc : Thread nD τ).loc main_arg1)) : S512x2000.Idx → EReal)
        (sitofp .f32 (constantI S_ 32 0#32) : FVec Ideal S_ .f32) pads_S512x2000_S512x2048_000_0480 h_S_ :=
    (pad_after (Gen.V7 m (outs1 m) c)).trans (congrArg (fun x : S512x2000.Idx → EReal =>
      pad S512x2048 ![0, 0] ![0, 48] ![0, 0] x (sitofp .f32 (constantI S_ 32 0#32) : FVec Ideal S_ .f32)
        pads_S512x2000_S512x2048_000_0480 h_S_) h7)
  have h11 : Gen.V11 m (outs1 m) c main_v6 = Gen.V9 m (outs1 m) c main_v6 :=
    (V11_of m (outs1 m) c main_v6 (by decide)).trans (V10_of m (outs1 m) c main_v6 (by decide))
  show (Gen.V11 m (outs1 m) c main_v6 : S512x2048.Idx → EReal) (ix2 p a) = _
  rw [h11, h9]
  by_cases h : a.val < 2000
  · rw [dif_pos h]
    exact pad_apply_of_inside _ _ _ _ _ _ _ (ix2 p a) (ix2 p (⟨a.val, h⟩ : Fin 2000)) (by
      intro b; fin_cases b <;> simp [ix2])
  · rw [dif_neg h]
    rw [pad_apply_of_not_inside _ _ _ _ _ _ _ (ix2 p a) (1 : Fin 2) (by
      rintro ⟨-, -, h3⟩
      have h3' : (a.val - 0) / (0 + 1) < 2000 := h3
      omega)]
    show (((0#32 : BitVec 32).toInt : ℝ) : EReal) = 0
    simp

end Cert.KernelIdeal.Hand

end
-- ==== Proof.PreRange.lean ====
/-
  The precondition, read: where the printed predicate is all ones, every brand index lies in the 10000-row table.
-/
import proofs.«408419_j40879498728834_3_alg».proof.Pre_finite_inputs
import proofs.«408419_j40879498728834_3_alg».proof.Proof.Range
import Idealize.ShloMosaic.PureOps.Ideal
import Idealize.ShloMosaic.Lib.ReduceAll
import Idealize.ShloMosaic.Lib.StableHlo.Predicate
import Idealize.ShloMosaic.Lib.ValueIdx

noncomputable section

namespace Cert.Pre_finite_inputs.Hand

open Idealize.ShloMosaic Idealize.ShloMosaic.ValueIdx
open Cert.Pre_finite_inputs

variable [Cert.Pre_finite_inputs.Facts]

/-- A rank-0 shape has one index. -/
instance : Subsingleton S_.Idx := ⟨fun a b => funext fun d => d.elim0⟩

theorem brand_in_range (a0 : FVec Ideal S512x4096 .f32) (a1 : IVec S512 32) (a2 : FVec Ideal S4096x4096 .f32) (a3 : FVec Ideal S4096 .f32)
    (a4 : FVec Ideal S4096x1024 .f32) (a5 : FVec Ideal S1024 .f32) (a6 : FVec Ideal S10000x2000 .f32) (a7 : FVec Ideal S2000x1024 .f32)
    (h : Cert.Pre_finite_inputs.fn (F := Ideal) a0 a1 a2 a3 a4 a5 a6 a7 = (fun _ => 1#1)) : Cert.Spec.InRange a1 := by
  -- the predicate is the conjunction of the seven finiteness words (X) with the range word, read at the one index
  have h0 := congrFun h ValueIdx.ix0
  obtain ⟨X, hX⟩ : ∃ X : IVec S_ 1,
      Cert.Pre_finite_inputs.fn (F := Ideal) a0 a1 a2 a3 a4 a5 a6 a7 = fn_part2 (F := Ideal) a1 X := ⟨_, rfl⟩
  rw [hX] at h0
  dsimp only [fn_part2] at h0
  -- the right conjunct: the all-reduce of the elementwise range test is 1
  have hr := (IntOp.andi_eq_one.1 h0).2
  intro i
  -- so the test is 1 at every element
  have he := Host.reduce_andi_all _ _ _ _ _ hr (ix1 i)
  obtain ⟨h1, h2⟩ := IntOp.andi_eq_one.1 he
  exact ⟨(StableHlo.Predicate.ofBool_eq_one_iff _).1 h1, (StableHlo.Predicate.ofBool_eq_one_iff _).1 h2⟩

end Cert.Pre_finite_inputs.Hand

end
-- ==== Proof.RefTerm.lean ====
/-
  The reference program's result as one pure term of its eight arguments, operation by operation as its host
  program applies them: the first layer (a full contraction, the bias row broadcast, the leaky rectifier as a select
  on v ≥ 0), the second layer, the brand row gather (a negative index wrapped by the table's length first), the
  aspect dot products, the weighted product, its sum over the 2000 aspects from zero, and the quotient by 2000.
-/
import proofs.«408419_j40879498728834_3_alg».proof.ReferenceIdeal
import Idealize.ShloMosaic.PureOps.Ideal

noncomputable section

namespace Cert.ReferenceIdeal.Hand

open Idealize.ShloMosaic Idealize.SL.Sem
open Cert.ReferenceIdeal Cert.ReferenceIdeal.Facts₀

variable [Cert.ReferenceIdeal.Facts]

/-- The first layer as the reference computes it. -/
def refHidden (x : FVec Ideal S512x4096 .f32) (w1 : FVec Ideal S4096x4096 .f32) (b1 : FVec Ideal S4096 .f32) :
    FVec Ideal S512x4096 .f32 :=
  let v3 : FVec Ideal S512x4096 .f32 :=
    addf (Host.dotGeneral dot_S512x4096_S4096x4096_S512x4096_1_0_0_1_n_n none x w1)
      (broadcastInDim S512x4096 ![0, 1] bcast_S1x4096_S512x4096_0_1 (broadcastInDim S1x4096 ![1] bcast_S4096_S1x4096_1 b1))
  select (cmpf .oge v3 (broadcastInDim S512x4096 ![] bcast_S_S512x4096 (constant (F := Ideal) S_ .f32 0x00000000#32))) v3
    (mulf (broadcastInDim S512x4096 ![] bcast_S_S512x4096 (id (constant (F := Ideal) S_ .f32 0x3C23D70A#32))) v3)

/-- The second layer as the reference computes it. -/
def refFeat (h : FVec Ideal S512x4096 .f32) (w2 : FVec Ideal S4096x1024 .f32) (b2 : FVec Ideal S1024 .f32) :
    FVec Ideal S512x1024 .f32 :=
  addf (Host.dotGeneral dot_S512x4096_S4096x1024_S512x1024_1_0_0_1_n_n none h w2)
    (broadcastInDim S512x1024 ![0, 1] bcast_S1x1024_S512x1024_0_1 (broadcastInDim S1x1024 ![1] bcast_S1024_S1x1024_1 b2))

/-- The gather's start indices as the reference computes them: a negative index has the table's length added. -/
def refIdx (brand : IVec S512 32) : IVec S512x1 32 :=
  broadcastInDim S512x1 ![0] bcast_S512_S512x1_0
    (select (cmpi .slt brand (broadcastInDim S512 ![] bcast_S_S512 (constantI S_ 32 0#32)))
      (addi brand (broadcastInDim S512 ![] bcast_S_S512 (constantI S_ 32 10000#32))) brand)

/-- The reference's result. -/
def refOut (x : FVec Ideal S512x4096 .f32) (brand : IVec S512 32) (w1 : FVec Ideal S4096x4096 .f32) (b1 : FVec Ideal S4096 .f32)
    (w2 : FVec Ideal S4096x1024 .f32) (b2 : FVec Ideal S1024 .f32) (emb : FVec Ideal S10000x2000 .f32)
    (asp : FVec Ideal S2000x1024 .f32) : FVec Ideal S512x1 .f32 :=
  let ft : FVec Ideal S512x1024 .f32 := refFeat (refHidden x w1 b1) w2 b2
  let g : FVec Ideal S512x2000 .f32 := Host.gather gather_S10000x2000_S512x1_S512x2000_1_0_n_n_0_1_12000 emb (refIdx brand)
  let d : FVec Ideal S512x2000 .f32 := Host.dotGeneral dot_S512x1024_S2000x1024_S512x2000_1_1_0_0_n_n none ft asp
  let s : FVec Ideal S512 .f32 := Host.reduceAdd (mulf g d) (constant (F := Ideal) S_ .f32 0x00000000#32) reducesTo_S512x2000_S512_d1 h_S_
  Host.divf (broadcastInDim S512x1 ![0] bcast_S512_S512x1_0 s)
    (broadcastInDim S512x1 ![] bcast_S_S512x1 (constant (F := Ideal) S_ .f32 0x44FA0000#32))

end Cert.ReferenceIdeal.Hand

end
-- ==== Proof.RefRun.lean ====
/-
  The reference program's run: every weakly fair execution terminates, nothing faults, the result array ends
  holding the reference's composed term of the arguments, and the eight arguments end as launched.
-/
import proofs.«408419_j40879498728834_3_alg».proof.Proof.RefTerm
import proofs.«408419_j40879498728834_3_alg».proof.Proof.Gen.ReferenceIdeal
import Idealize.ShloMosaic.Lib.StableHlo.Run
import Idealize.ShloMosaic.Adequacy
import Idealize.ShloMosaic.Init

noncomputable section

namespace Cert.ReferenceIdeal.Hand

open Idealize.ShloMosaic Idealize.ShloMosaic.TcCoe Idealize.SL.Sem
open Cert.ReferenceIdeal Cert.ReferenceIdeal.Facts₀
open Idealize.ShloMosaic.StableHlo

variable {F : FTy → Type} [FloatOps F]

/-- The reference's operations in order, the two calls unfolded at their sites: the first layer's four and the slope
    constant; the leaky rectifier's six over its own buffers (the zero, its broadcast, the comparison v ≥ 0, the slope
    converted to its own type, its broadcast, the product) and the select of the function it calls in turn; then the second
    layer's four, the index wrap's eight, the gather, the aspect contraction, the product, the zero, the sum over the
    aspects, its broadcast, the constant 2000, its broadcast and the quotient. -/
abbrev ops : List (HloOp τ sig (Elt F)) :=
  [ binary main_arg0 main_arg2 main_v0 ((fun l r => Host.dotGeneral dot_S512x4096_S4096x4096_S512x4096_1_0_0_1_n_n none l r) : (⟨S512x4096, .f32⟩ : BufTy).Contents (Elt F) → (⟨S4096x4096, .f32⟩ : BufTy).Contents (Elt F) → (⟨S512x4096, .f32⟩ : BufTy).Contents (Elt F)),
    unary main_arg3 main_v1 (broadcastInDim S1x4096 ![1] bcast_S4096_S1x4096_1 : (⟨S4096, .f32⟩ : BufTy).Contents (Elt F) → (⟨S1x4096, .f32⟩ : BufTy).Contents (Elt F)),
    unary main_v1 main_v2 (broadcastInDim S512x4096 ![0, 1] bcast_S1x4096_S512x4096_0_1 : (⟨S1x4096, .f32⟩ : BufTy).Contents (Elt F) → (⟨S512x4096, .f32⟩ : BufTy).Contents (Elt F)),
    binary main_v0 main_v2 main_v3 (addf : (⟨S512x4096, .f32⟩ : BufTy).Contents (Elt F) → (⟨S512x4096, .f32⟩ : BufTy).Contents (Elt F) → (⟨S512x4096, .f32⟩ : BufTy).Contents (Elt F)),
    nullary main_cst (constant S_ .f32 0x3C23D70A#32),
    TRef.nullary main_call0.cst (constant S_ .f32 0x00000000#32),
    TRef.unary main_call0.cst main_call0.v0 (broadcastInDim S512x4096 ![] bcast_S_S512x4096),
    TRef.binary (.of main_v3) main_call0.v0 main_call0.v1 (cmpf .oge),
    TRef.unary (.of main_cst) main_call0.v2 id,
    TRef.unary main_call0.v2 main_call0.v3 (broadcastInDim S512x4096 ![] bcast_S_S512x4096),
    TRef.binary main_call0.v3 (.of main_v3) main_call0.v4 mulf,
    TRef.ternary main_call0.v1 (.of main_v3) main_call0.v4 main_call0.call0.v0 select,
    binary main_v4 main_arg4 main_v5 ((fun l r => Host.dotGeneral dot_S512x4096_S4096x1024_S512x1024_1_0_0_1_n_n none l r) : (⟨S512x4096, .f32⟩ : BufTy).Contents (Elt F) → (⟨S4096x1024, .f32⟩ : BufTy).Contents (Elt F) → (⟨S512x1024, .f32⟩ : BufTy).Contents (Elt F)),
    unary main_arg5 main_v6 (broadcastInDim S1x1024 ![1] bcast_S1024_S1x1024_1 : (⟨S1024, .f32⟩ : BufTy).Contents (Elt F) → (⟨S1x1024, .f32⟩ : BufTy).Contents (Elt F)),
    unary main_v6 main_v7 (broadcastInDim S512x1024 ![0, 1] bcast_S1x1024_S512x1024_0_1 : (⟨S1x1024, .f32⟩ : BufTy).Contents (Elt F) → (⟨S512x1024, .f32⟩ : BufTy).Contents (Elt F)),
    binary main_v5 main_v7 main_v8 (addf : (⟨S512x1024, .f32⟩ : BufTy).Contents (Elt F) → (⟨S512x1024, .f32⟩ : BufTy).Contents (Elt F) → (⟨S512x1024, .f32⟩ : BufTy).Contents (Elt F)),
    nullary main_c (constantI S_ 32 0#32),
    unary main_c main_v9 (broadcastInDim S512 ![] bcast_S_S512 : (⟨S_, .i32⟩ : BufTy).Contents (Elt F) → (⟨S512, .i32⟩ : BufTy).Contents (Elt F)),
    binary main_arg1 main_v9 main_v10 (cmpi .slt : (⟨S512, .i32⟩ : BufTy).Contents (Elt F) → (⟨S512, .i32⟩ : BufTy).Contents (Elt F) → (⟨S512, .i1⟩ : BufTy).Contents (Elt F)),
    nullary main_c_0 (constantI S_ 32 10000#32),
    unary main_c_0 main_v11 (broadcastInDim S512 ![] bcast_S_S512 : (⟨S_, .i32⟩ : BufTy).Contents (Elt F) → (⟨S512, .i32⟩ : BufTy).Contents (Elt F)),
    binary main_arg1 main_v11 main_v12 (addi : (⟨S512, .i32⟩ : BufTy).Contents (Elt F) → (⟨S512, .i32⟩ : BufTy).Contents (Elt F) → (⟨S512, .i32⟩ : BufTy).Contents (Elt F)),
    ternary main_v10 main_v12 main_arg1 main_v13 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v13 main_v14 (broadcastInDim S512x1 ![0] bcast_S512_S512x1_0 : (⟨S512, .i32⟩ : BufTy).Contents (Elt F) → (⟨S512x1, .i32⟩ : BufTy).Contents (Elt F)),
    binary main_arg6 main_v14 main_v15 ((fun x i => Host.gather gather_S10000x2000_S512x1_S512x2000_1_0_n_n_0_1_12000 x i) : (⟨S10000x2000, .f32⟩ : BufTy).Contents (Elt F) → (⟨S512x1, .i32⟩ : BufTy).Contents (Elt F) → (⟨S512x2000, .f32⟩ : BufTy).Contents (Elt F)),
    binary main_v8 main_arg7 main_v16 ((fun l r => Host.dotGeneral dot_S512x1024_S2000x1024_S512x2000_1_1_0_0_n_n none l r) : (⟨S512x1024, .f32⟩ : BufTy).Contents (Elt F) → (⟨S2000x1024, .f32⟩ : BufTy).Contents (Elt F) → (⟨S512x2000, .f32⟩ : BufTy).Contents (Elt F)),
    binary main_v15 main_v16 main_v17 (mulf : (⟨S512x2000, .f32⟩ : BufTy).Contents (Elt F) → (⟨S512x2000, .f32⟩ : BufTy).Contents (Elt F) → (⟨S512x2000, .f32⟩ : BufTy).Contents (Elt F)),
    nullary main_cst_1 (constant S_ .f32 0x00000000#32),
    binary main_v17 main_cst_1 main_v18 ((fun x v => Host.reduceAdd x v reducesTo_S512x2000_S512_d1 h_S_) : (⟨S512x2000, .f32⟩ : BufTy).Contents (Elt F) → (⟨S_, .f32⟩ : BufTy).Contents (Elt F) → (⟨S512, .f32⟩ : BufTy).Contents (Elt F)),
    unary main_v18 main_v19 (broadcastInDim S512x1 ![0] bcast_S512_S512x1_0 : (⟨S512, .f32⟩ : BufTy).Contents (Elt F) → (⟨S512x1, .f32⟩ : BufTy).Contents (Elt F)),
    nullary main_cst_2 (constant S_ .f32 0x44FA0000#32),
    unary main_cst_2 main_v20 (broadcastInDim S512x1 ![] bcast_S_S512x1 : (⟨S_, .f32⟩ : BufTy).Contents (Elt F) → (⟨S512x1, .f32⟩ : BufTy).Contents (Elt F)),
    binary main_v19 main_v20 main_v21 (Host.divf : (⟨S512x1, .f32⟩ : BufTy).Contents (Elt F) → (⟨S512x1, .f32⟩ : BufTy).Contents (Elt F) → (⟨S512x1, .f32⟩ : BufTy).Contents (Elt F)) ]

-- thirty-three binds re-associated, the rewrite recursing once per statement under the chain
set_option maxRecDepth 1024 in
/-- The host program is that straight line: the two functions' bodies unfolded at their calls and the records at their
    fields, both sides are one chain of steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    binary_bufs_sub .., unary_bufs_sub .., nullary_bufs_sub .., unary_bufs_sub .., binary_bufs_sub ..⟩

/-- The fold at the result buffer is the composed term: each operation's result at its own buffer is its function of
    its operands' contents, at any other buffer what was there; the definitions' lets then substitute. -/
theorem out_eq (V : Valuation τ sig (Elt Ideal)) :
    after (ops (F := Ideal)) V (Proc.devRef .tc main_v21)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  after_results_simp
  unfold refOut refHidden refFeat refIdx
  rfl

/-- No operation writes argument 0. -/
theorem arg0_eq (V : Valuation τ sig (Elt F)) :
    after ops V (Proc.devRef .tc main_arg0) = V (Proc.devRef .tc main_arg0) := by
  after_results_simp

/-- No operation writes argument 1. -/
theorem arg1_eq (V : Valuation τ sig (Elt F)) :
    after ops V (Proc.devRef .tc main_arg1) = V (Proc.devRef .tc main_arg1) := by
  after_results_simp

/-- No operation writes argument 2. -/
theorem arg2_eq (V : Valuation τ sig (Elt F)) :
    after ops V (Proc.devRef .tc main_arg2) = V (Proc.devRef .tc main_arg2) := by
  after_results_simp

/-- No operation writes argument 3. -/
theorem arg3_eq (V : Valuation τ sig (Elt F)) :
    after ops V (Proc.devRef .tc main_arg3) = V (Proc.devRef .tc main_arg3) := by
  after_results_simp

/-- No operation writes argument 4. -/
theorem arg4_eq (V : Valuation τ sig (Elt F)) :
    after ops V (Proc.devRef .tc main_arg4) = V (Proc.devRef .tc main_arg4) := by
  after_results_simp

/-- No operation writes argument 5. -/
theorem arg5_eq (V : Valuation τ sig (Elt F)) :
    after ops V (Proc.devRef .tc main_arg5) = V (Proc.devRef .tc main_arg5) := by
  after_results_simp

/-- No operation writes argument 6. -/
theorem arg6_eq (V : Valuation τ sig (Elt F)) :
    after ops V (Proc.devRef .tc main_arg6) = V (Proc.devRef .tc main_arg6) := by
  after_results_simp

/-- No operation writes argument 7. -/
theorem arg7_eq (V : Valuation τ sig (Elt F)) :
    after ops V (Proc.devRef .tc main_arg7) = V (Proc.devRef .tc main_arg7) := by
  after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨(h c main_v21).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq (defs (F := Ideal)) (main (F := Ideal)) (fun _ => ops) main_eq (fun _ => ops_sub) m ρ)

end Cert.ReferenceIdeal.Hand

end
-- ==== Proof.RefValue.lean ====
/-
  The reference's composed term read at one entry: the weighted mean over the 2000 aspects of the dot products of
  the second layer's row with the aspect rows, the layers in the specification's form.
-/
import proofs.«408419_j40879498728834_3_alg».proof.Proof.RefTerm
import proofs.«408419_j40879498728834_3_alg».proof.Proof.Spec
import proofs.«408419_j40879498728834_3_alg».proof.Proof.Range
import proofs.«408419_j40879498728834_3_alg».proof.Proof.Gen.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

namespace Cert.ReferenceIdeal.Hand

open Idealize.ShloMosaic Idealize.ShloMosaic.ValueIdx
open Cert.ReferenceIdeal

/-- The brand rows gathered at the indices as given. -/
def rGathered (emb : FVec Ideal S10000x2000 .f32) (brand : IVec S512 32) : FVec Ideal S512x2000 .f32 :=
  Host.gather gather_S10000x2000_S512x1_S512x2000_1_0_n_n_0_1_12000 emb (broadcastInDim S512x1 ![0] Facts₀.bcast_S512_S512x1_0 brand)

/-! ### The three contractions at an entry -/

theorem lhs_hidDot_0 (j : S512x4096.Idx) (k : dot_S512x4096_S4096x4096_S512x4096_1_0_0_1_n_n.contr.Idx) :
    (dot_S512x4096_S4096x4096_S512x4096_1_0_0_1_n_n.lhsIdx j k 0).val = (j 0).val := by
  unfold DotDims.lhsIdx
  rw [dif_neg (show ¬(0 : Fin S512x4096.rank) ∈ dot_S512x4096_S4096x4096_S512x4096_1_0_0_1_n_n.lhsBatch by decide),
    dif_pos (show (0 : Fin S512x4096.rank) ∈ dot_S512x4096_S4096x4096_S512x4096_1_0_0_1_n_n.lhsNonContracting by decide)]
  rfl

theorem lhs_hidDot_1 (j : S512x4096.Idx) (k : dot_S512x4096_S4096x4096_S512x4096_1_0_0_1_n_n.contr.Idx) :
    (dot_S512x4096_S4096x4096_S512x4096_1_0_0_1_n_n.lhsIdx j k 1).val = (k ⟨0, by decide⟩).val :=
  dot_S512x4096_S4096x4096_S512x4096_1_0_0_1_n_n.lhsIdx_val_of_single (cl := 1) rfl j k

theorem rhs_hidDot_0 (j : S512x4096.Idx) (k : dot_S512x4096_S4096x4096_S512x4096_1_0_0_1_n_n.contr.Idx) :
    (dot_S512x4096_S4096x4096_S512x4096_1_0_0_1_n_n.rhsIdx j k 0).val = (k ⟨0, by decide⟩).val :=
  dot_S512x4096_S4096x4096_S512x4096_1_0_0_1_n_n.rhsIdx_val_of_single (cr := 0) rfl j k

theorem rhs_hidDot_1 (j : S512x4096.Idx) (k : dot_S512x4096_S4096x4096_S512x4096_1_0_0_1_n_n.contr.Idx) :
    (dot_S512x4096_S4096x4096_S512x4096_1_0_0_1_n_n.rhsIdx j k 1).val = (j 1).val := by
  unfold DotDims.rhsIdx
  rw [dif_neg (show ¬(1 : Fin S4096x4096.rank) ∈ dot_S512x4096_S4096x4096_S512x4096_1_0_0_1_n_n.rhsBatch by decide),
    dif_pos (show (1 : Fin S4096x4096.rank) ∈ dot_S512x4096_S4096x4096_S512x4096_1_0_0_1_n_n.rhsNonContracting by decide)]
  rfl

/-- The contraction at an entry: the sum over the 4096 contracted positions of the operands' products. -/
theorem hidDot_apply (x : FVec Ideal S512x4096 .f32) (w : FVec Ideal S4096x4096 .f32) (p : Fin 512) (q : Fin 4096) :
    Host.dotGeneral (F := Ideal) dot_S512x4096_S4096x4096_S512x4096_1_0_0_1_n_n none x w (ix2 p q)
      = ∑ kk : Fin 4096, (x (ix2 p kk) : EReal) * (w (ix2 kk q) : EReal) := by
  show FloatOps.dotGeneral dot_S512x4096_S4096x4096_S512x4096_1_0_0_1_n_n none .single x w (ix2 p q) = _
  rw [Ideal.dotGeneral_apply, ← Equiv.sum_comp (contrEquiv1 dot_S512x4096_S4096x4096_S512x4096_1_0_0_1_n_n 4096 rfl rfl).symm]
  refine Finset.sum_congr rfl fun kk _ => ?_
  have ck := contrEquiv1_symm_val dot_S512x4096_S4096x4096_S512x4096_1_0_0_1_n_n 4096 rfl rfl kk
  have el : dot_S512x4096_S4096x4096_S512x4096_1_0_0_1_n_n.lhsIdx (ix2 p q) ((contrEquiv1 dot_S512x4096_S4096x4096_S512x4096_1_0_0_1_n_n 4096 rfl rfl).symm kk) = ix2 p kk := by
    funext ax; apply Fin.ext
    match ax with
    | ⟨0, _⟩ => exact lhs_hidDot_0 _ _
    | ⟨1, _⟩ => exact (lhs_hidDot_1 _ _).trans ck
  have er : dot_S512x4096_S4096x4096_S512x4096_1_0_0_1_n_n.rhsIdx (ix2 p q) ((contrEquiv1 dot_S512x4096_S4096x4096_S512x4096_1_0_0_1_n_n 4096 rfl rfl).symm kk) = ix2 kk q := by
    funext ax; apply Fin.ext
    match ax with
    | ⟨0, _⟩ => exact (rhs_hidDot_0 _ _).trans ck
    | ⟨1, _⟩ => exact rhs_hidDot_1 _ _
  rw [el, er]

theorem lhs_featDot_0 (j : S512x1024.Idx) (k : dot_S512x4096_S4096x1024_S512x1024_1_0_0_1_n_n.contr.Idx) :
    (dot_S512x4096_S4096x1024_S512x1024_1_0_0_1_n_n.lhsIdx j k 0).val = (j 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl

theorem lhs_featDot_1 (j : S512x1024.Idx) (k : dot_S512x4096_S4096x1024_S512x1024_1_0_0_1_n_n.contr.Idx) :
    (dot_S512x4096_S4096x1024_S512x1024_1_0_0_1_n_n.lhsIdx j k 1).val = (k ⟨0, by decide⟩).val :=
  dot_S512x4096_S4096x1024_S512x1024_1_0_0_1_n_n.lhsIdx_val_of_single (cl := 1) rfl j k

theorem rhs_featDot_0 (j : S512x1024.Idx) (k : dot_S512x4096_S4096x1024_S512x1024_1_0_0_1_n_n.contr.Idx) :
    (dot_S512x4096_S4096x1024_S512x1024_1_0_0_1_n_n.rhsIdx j k 0).val = (k ⟨0, by decide⟩).val :=
  dot_S512x4096_S4096x1024_S512x1024_1_0_0_1_n_n.rhsIdx_val_of_single (cr := 0) rfl j k

theorem rhs_featDot_1 (j : S512x1024.Idx) (k : dot_S512x4096_S4096x1024_S512x1024_1_0_0_1_n_n.contr.Idx) :
    (dot_S512x4096_S4096x1024_S512x1024_1_0_0_1_n_n.rhsIdx j k 1).val = (j 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl

/-- The contraction at an entry: the sum over the 4096 contracted positions of the operands' products. -/
theorem featDot_apply (x : FVec Ideal S512x4096 .f32) (w : FVec Ideal S4096x1024 .f32) (p : Fin 512) (q : Fin 1024) :
    Host.dotGeneral (F := Ideal) dot_S512x4096_S4096x1024_S512x1024_1_0_0_1_n_n none x w (ix2 p q)
      = ∑ kk : Fin 4096, (x (ix2 p kk) : EReal) * (w (ix2 kk q) : EReal) := by
  show FloatOps.dotGeneral dot_S512x4096_S4096x1024_S512x1024_1_0_0_1_n_n none .single x w (ix2 p q) = _
  rw [Ideal.dotGeneral_apply, ← Equiv.sum_comp (contrEquiv1 dot_S512x4096_S4096x1024_S512x1024_1_0_0_1_n_n 4096 rfl rfl).symm]
  refine Finset.sum_congr rfl fun kk _ => ?_
  have ck := contrEquiv1_symm_val dot_S512x4096_S4096x1024_S512x1024_1_0_0_1_n_n 4096 rfl rfl kk
  have el : dot_S512x4096_S4096x1024_S512x1024_1_0_0_1_n_n.lhsIdx (ix2 p q) ((contrEquiv1 dot_S512x4096_S4096x1024_S512x1024_1_0_0_1_n_n 4096 rfl rfl).symm kk) = ix2 p kk := by
    funext ax; apply Fin.ext
    match ax with
    | ⟨0, _⟩ => exact lhs_featDot_0 _ _
    | ⟨1, _⟩ => exact (lhs_featDot_1 _ _).trans ck
  have er : dot_S512x4096_S4096x1024_S512x1024_1_0_0_1_n_n.rhsIdx (ix2 p q) ((contrEquiv1 dot_S512x4096_S4096x1024_S512x1024_1_0_0_1_n_n 4096 rfl rfl).symm kk) = ix2 kk q := by
    funext ax; apply Fin.ext
    match ax with
    | ⟨0, _⟩ => exact (rhs_featDot_0 _ _).trans ck
    | ⟨1, _⟩ => exact rhs_featDot_1 _ _
  rw [el, er]

theorem lhs_aspDot_0 (j : S512x2000.Idx) (k : dot_S512x1024_S2000x1024_S512x2000_1_1_0_0_n_n.contr.Idx) :
    (dot_S512x1024_S2000x1024_S512x2000_1_1_0_0_n_n.lhsIdx j k 0).val = (j 0).val := by
  unfold DotDims.lhsIdx
  rw [dif_neg (show ¬(0 : Fin S512x1024.rank) ∈ dot_S512x1024_S2000x1024_S512x2000_1_1_0_0_n_n.lhsBatch by decide),
    dif_pos (show (0 : Fin S512x1024.rank) ∈ dot_S512x1024_S2000x1024_S512x2000_1_1_0_0_n_n.lhsNonContracting by decide)]
  rfl

theorem lhs_aspDot_1 (j : S512x2000.Idx) (k : dot_S512x1024_S2000x1024_S512x2000_1_1_0_0_n_n.contr.Idx) :
    (dot_S512x1024_S2000x1024_S512x2000_1_1_0_0_n_n.lhsIdx j k 1).val = (k ⟨0, by decide⟩).val :=
  dot_S512x1024_S2000x1024_S512x2000_1_1_0_0_n_n.lhsIdx_val_of_single (cl := 1) rfl j k

theorem rhs_aspDot_0 (j : S512x2000.Idx) (k : dot_S512x1024_S2000x1024_S512x2000_1_1_0_0_n_n.contr.Idx) :
    (dot_S512x1024_S2000x1024_S512x2000_1_1_0_0_n_n.rhsIdx j k 0).val = (j 1).val := by
  unfold DotDims.rhsIdx
  rw [dif_neg (show ¬(0 : Fin S2000x1024.rank) ∈ dot_S512x1024_S2000x1024_S512x2000_1_1_0_0_n_n.rhsBatch by decide),
    dif_pos (show (0 : Fin S2000x1024.rank) ∈ dot_S512x1024_S2000x1024_S512x2000_1_1_0_0_n_n.rhsNonContracting by decide)]
  rfl

theorem rhs_aspDot_1 (j : S512x2000.Idx) (k : dot_S512x1024_S2000x1024_S512x2000_1_1_0_0_n_n.contr.Idx) :
    (dot_S512x1024_S2000x1024_S512x2000_1_1_0_0_n_n.rhsIdx j k 1).val = (k ⟨0, by decide⟩).val :=
  dot_S512x1024_S2000x1024_S512x2000_1_1_0_0_n_n.rhsIdx_val_of_single (cr := 1) rfl j k

/-- The contraction at an entry: the sum over the 1024 contracted positions of the operands' products. -/
theorem aspDot_apply (x : FVec Ideal S512x1024 .f32) (w : FVec Ideal S2000x1024 .f32) (p : Fin 512) (q : Fin 2000) :
    Host.dotGeneral (F := Ideal) dot_S512x1024_S2000x1024_S512x2000_1_1_0_0_n_n none x w (ix2 p q)
      = ∑ kk : Fin 1024, (x (ix2 p kk) : EReal) * (w (ix2 q kk) : EReal) := by
  show FloatOps.dotGeneral dot_S512x1024_S2000x1024_S512x2000_1_1_0_0_n_n none .single x w (ix2 p q) = _
  rw [Ideal.dotGeneral_apply, ← Equiv.sum_comp (contrEquiv1 dot_S512x1024_S2000x1024_S512x2000_1_1_0_0_n_n 1024 rfl rfl).symm]
  refine Finset.sum_congr rfl fun kk _ => ?_
  have ck := contrEquiv1_symm_val dot_S512x1024_S2000x1024_S512x2000_1_1_0_0_n_n 1024 rfl rfl kk
  have el : dot_S512x1024_S2000x1024_S512x2000_1_1_0_0_n_n.lhsIdx (ix2 p q) ((contrEquiv1 dot_S512x1024_S2000x1024_S512x2000_1_1_0_0_n_n 1024 rfl rfl).symm kk) = ix2 p kk := by
    funext ax; apply Fin.ext
    match ax with
    | ⟨0, _⟩ => exact lhs_aspDot_0 _ _
    | ⟨1, _⟩ => exact (lhs_aspDot_1 _ _).trans ck
  have er : dot_S512x1024_S2000x1024_S512x2000_1_1_0_0_n_n.rhsIdx (ix2 p q) ((contrEquiv1 dot_S512x1024_S2000x1024_S512x2000_1_1_0_0_n_n 1024 rfl rfl).symm kk) = ix2 q kk := by
    funext ax; apply Fin.ext
    match ax with
    | ⟨0, _⟩ => exact rhs_aspDot_0 _ _
    | ⟨1, _⟩ => exact (rhs_aspDot_1 _ _).trans ck
  rw [el, er]

/-! ### Layout operations at an entry -/

/-- A vector laid out as a one-row matrix reads the vector at the column. -/
theorem rowOf_apply {α : Type} {n : Nat} (h : (⟨1, ![n]⟩ : Shape).BroadcastsInDim ⟨2, ![1, n]⟩ ![1])
    (b : (⟨1, ![n]⟩ : Shape).Idx → α) (r : Fin 1) (t : Fin n) :
    broadcastInDim ⟨2, ![1, n]⟩ ![1] h b (ix2 r t) = b (ix1 t) := by
  refine broadcastInDim_apply ![1] h b (ix2 r t) (ix1 t) ?_
  intro a
  have ha : a = 0 := Subsingleton.elim _ _
  subst ha
  show t.val = if n = 1 then 0 else t.val
  split_ifs with h1
  · have := t.isLt; omega
  · rfl

/-- A vector laid out as a one-column matrix reads the vector at the row. -/
theorem colOf_apply {α : Type} {n : Nat} (h : (⟨1, ![n]⟩ : Shape).BroadcastsInDim ⟨2, ![n, 1]⟩ ![0])
    (b : (⟨1, ![n]⟩ : Shape).Idx → α) (r : Fin n) (t : Fin 1) :
    broadcastInDim ⟨2, ![n, 1]⟩ ![0] h b (ix2 r t) = b (ix1 r) := by
  refine broadcastInDim_apply ![0] h b (ix2 r t) (ix1 r) ?_
  intro a
  have ha : a = 0 := Subsingleton.elim _ _
  subst ha
  show r.val = if n = 1 then 0 else r.val
  split_ifs with h1
  · have := r.isLt; omega
  · rfl

/-! ### The leaky rectifier: a select on v ≥ 0 against the specification's test 0 < v -/

/-- The two differ only at v = 0, where both branches are 0. -/
theorem lrelu_select (v : EReal) :
    Scalar.select (FloatOps.cmpf (F := Ideal) (φ := .f32) .oge v (0 : EReal)) v (Cert.Spec.slope * v) = Cert.Spec.lrelu v := by
  unfold Cert.Spec.lrelu
  show Scalar.select (BitVec.ofBool (decide ((0 : EReal) ≤ v))) v (Cert.Spec.slope * v) = _
  by_cases h : (0 : EReal) ≤ v
  · rw [decide_eq_true h]
    show Scalar.select 1#1 v (Cert.Spec.slope * v) = _
    rw [select_one]
    rcases h.lt_or_eq with hlt | heq
    · rw [if_pos hlt]
    · subst heq
      rw [if_neg (lt_irrefl _), mul_zero]
  · rw [decide_eq_false h]
    show Scalar.select 0#1 v (Cert.Spec.slope * v) = _
    rw [select_zero, if_neg (fun hlt => h hlt.le)]

/-! ### The two layers -/

/-- The first layer as the reference computes it is the specification's. -/
theorem refHidden_eq (x : FVec Ideal S512x4096 .f32) (w1 : FVec Ideal S4096x4096 .f32) (b1 : FVec Ideal S4096 .f32) :
    refHidden x w1 b1 = Cert.Spec.hidden x w1 (fun i => b1 (ix1 (i 1))) := by
  funext i
  obtain ⟨p, q, rfl⟩ : ∃ (p : Fin 512) (q : Fin 4096), i = ix2 p q := ⟨i 0, i 1, eq_ix2 i⟩
  show _ = Cert.Spec.hiddenAt x w1 (fun i => b1 (ix1 (i 1))) p q
  unfold refHidden Cert.Spec.hiddenAt
  dsimp only
  rw [select_apply, cmpf_apply, mulf_apply, addf_apply, hidDot_apply, broadcastInDim_oneRow_apply, rowOf_apply,
    broadcastInDim_scalar_apply, broadcastInDim_scalar_apply, constant_apply, Ideal.ofBits_zero_f32]
  exact lrelu_select _

/-- The second layer as the reference computes it is the specification's. -/
theorem refFeat_eq (h : FVec Ideal S512x4096 .f32) (w2 : FVec Ideal S4096x1024 .f32) (b2 : FVec Ideal S1024 .f32) :
    refFeat h w2 b2 = Cert.Spec.feat h w2 (fun i => b2 (ix1 (i 1))) := by
  funext i
  obtain ⟨p, q, rfl⟩ : ∃ (p : Fin 512) (q : Fin 1024), i = ix2 p q := ⟨i 0, i 1, eq_ix2 i⟩
  show _ = Cert.Spec.featAt h w2 (fun i => b2 (ix1 (i 1))) p q
  unfold refFeat Cert.Spec.featAt
  rw [addf_apply, featDot_apply, broadcastInDim_oneRow_apply, rowOf_apply]

/-! ### The gather's start indices -/

/-- On the table's rows no index is negative, so the wrap is the identity and the indices are laid out as given. -/
theorem refIdx_eq (brand : IVec S512 32) (hr : Cert.Spec.InRange brand) :
    refIdx brand = broadcastInDim S512x1 ![0] Facts₀.bcast_S512_S512x1_0 brand := by
  unfold refIdx
  refine congrArg (fun v : IVec S512 32 => broadcastInDim S512x1 ![0] Facts₀.bcast_S512_S512x1_0 v) ?_
  funext i
  obtain ⟨p, rfl⟩ : ∃ p : Fin 512, i = ix1 p := ⟨i 0, eq_ix1 i⟩
  rw [select_apply]
  have h1 : (brand (ix1 p)).slt 0#32 = false := by
    have h := (hr p).1
    simp only [BitVec.sle, BitVec.slt, decide_eq_true_eq, decide_eq_false_iff_not, not_lt] at h ⊢
    exact h
  have h0 : cmpi .slt brand (broadcastInDim S512 ![] Facts₀.bcast_S_S512 (constantI S_ 32 0#32)) (ix1 p) = 0#1 := by
    show IntOp.cmpi .slt (brand (ix1 p)) (broadcastInDim S512 ![] Facts₀.bcast_S_S512 (constantI S_ 32 0#32) (ix1 p)) = 0#1
    rw [broadcastInDim_scalar_apply]
    show BitVec.ofBool ((brand (ix1 p)).slt 0#32) = 0#1
    rw [h1]; rfl
  rw [h0, select_zero]

/-! ### The weighted mean -/

/-- The word 0x44FA0000 is the real 2000. -/
theorem ofBits_2000 : Ideal.ofBits .f32 0x44FA0000#32 = ((2000 : ℝ) : EReal) := by
  simp [Ideal.ofBits, Ideal.ieee, -EReal.coe_mul]; norm_num

/-- The index over row p whose aspect coordinate is a. -/
theorem lift_row (h : S512x2000.Reduces [1] S512) (p : Fin 512) (a : Fin 2000) :
    h.lift (ix1 p) a = ix2 p a := by
  funext ax; apply Fin.ext
  match ax with
  | ⟨0, _⟩ => rfl
  | ⟨1, _⟩ => rfl

/-- The product, its sum over the aspects from zero, and the quotient by 2000, at a row. -/
theorem tail_apply (g : FVec Ideal S512x2000 .f32) (ft : FVec Ideal S512x1024 .f32) (asp : FVec Ideal S2000x1024 .f32)
    (p : Fin 512) :
    Host.divf
        (broadcastInDim S512x1 ![0] Facts₀.bcast_S512_S512x1_0
          (Host.reduceAdd (mulf g (Host.dotGeneral (F := Ideal) dot_S512x1024_S2000x1024_S512x2000_1_1_0_0_n_n none ft asp))
            (constant (F := Ideal) S_ .f32 0x00000000#32) Facts₀.reducesTo_S512x2000_S512_d1 Facts₀.h_S_))
        (broadcastInDim S512x1 ![] Facts₀.bcast_S_S512x1 (constant (F := Ideal) S_ .f32 0x44FA0000#32))
        (ix2 p (0 : Fin 1))
      = Cert.Spec.mixRefAt ft asp g p := by
  have hred : S512x2000.Reduces [1] S512 := by decide
  rw [hostDivf_apply, colOf_apply, broadcastInDim_scalar_apply, constant_apply, ofBits_2000, hostReduceAdd_apply,
    Ideal.hostReduceAdd_single _ hred, constant_apply, Ideal.ofBits_zero_f32, zero_add]
  unfold Cert.Spec.mixRefAt
  refine congrArg (fun z : EReal => Ideal.div z (((2000 : ℝ) : ℝ) : EReal)) ?_
  show ∑ a : Fin 2000, mulf g _ (hred.lift (ix1 p) a) = _
  refine Finset.sum_congr rfl fun a _ => ?_
  rw [lift_row, mulf_apply, aspDot_apply]

theorem refOut_apply (x : FVec Ideal S512x4096 .f32) (brand : IVec S512 32) (w1 : FVec Ideal S4096x4096 .f32) (b1 : FVec Ideal S4096 .f32)
    (w2 : FVec Ideal S4096x1024 .f32) (b2 : FVec Ideal S1024 .f32) (emb : FVec Ideal S10000x2000 .f32)
    (asp : FVec Ideal S2000x1024 .f32) (hr : Cert.Spec.InRange brand) (p : Fin 512) :
    refOut x brand w1 b1 w2 b2 emb asp (ix2 p (0 : Fin 1))
      = Cert.Spec.mixRefAt
          (Cert.Spec.feat (Cert.Spec.hidden x w1 (fun i => b1 (ix1 (i 1)))) w2 (fun i => b2 (ix1 (i 1))))
          asp (rGathered emb brand) p := by
  unfold refOut
  dsimp only
  rw [refIdx_eq brand hr, refHidden_eq, refFeat_eq]
  exact tail_apply _ _ _ p

end Cert.ReferenceIdeal.Hand

end
-- ==== Proof.Bridge.lean ====
/-
  The padded weighted mean is the reference's mean. With 48 zero rows appended to the aspects and 48 zero columns to
  the weights, each appended aspect contributes (Σ_e f[p,e] · 0) · 0 = 0 to the sum, whatever f holds (x · 0 = 0 on the
  extended reals), so the sum over 2048 aspects is the sum over the first 2000; there the factors commute; and the
  quotient by the real 2000 is the product with 1/2000 on every extended real.
-/
import proofs.«408419_j40879498728834_3_alg».proof.Proof.Spec
import Mathlib.Algebra.BigOperators.Fin
import Mathlib.Algebra.BigOperators.Intervals

noncomputable section

namespace Cert.Spec

open Idealize.ShloMosaic Idealize.ShloMosaic.ValueIdx

/-- The first layer reads its bias operand only along row 0. -/
theorem hidden_bias_congr (x : Vec Ideal (M 512 4096) .f32) (w : Vec Ideal (M 4096 4096) .f32) (b b' : Vec Ideal (M 1 4096) .f32)
    (h : ∀ q : Fin 4096, (b (ix2 (0 : Fin 1) q) : EReal) = (b' (ix2 (0 : Fin 1) q) : EReal)) : hidden x w b = hidden x w b' := by
  have e : ∀ (p : Fin 512) (q : Fin 4096), hiddenAt x w b p q = hiddenAt x w b' p q := fun p q => by
    unfold hiddenAt; rw [h]
  exact funext fun i => e (i 0) (i 1)

/-- The second layer reads its bias operand only along row 0. -/
theorem feat_bias_congr (x : Vec Ideal (M 512 4096) .bf16) (w : Vec Ideal (M 4096 1024) .f32) (b b' : Vec Ideal (M 1 1024) .f32)
    (h : ∀ q : Fin 1024, (b (ix2 (0 : Fin 1) q) : EReal) = (b' (ix2 (0 : Fin 1) q) : EReal)) : feat x w b = feat x w b' := by
  have e : ∀ (p : Fin 512) (q : Fin 1024), featAt x w b p q = featAt x w b' p q := fun p q => by
    unfold featAt; rw [h]
  exact funext fun i => e (i 0) (i 1)

/-- The padded mean against the reference's mean, entry by entry. -/
theorem mixAt_padded (f : Vec Ideal (M 512 1024) .bf16) (asp : Vec Ideal (M 2000 1024) .f32) (g : Vec Ideal (M 512 2000) .f32)
    (aspP : Vec Ideal (M 2048 1024) .f32) (wtP : Vec Ideal (M 512 2048) .f32)
    (hA : ∀ (a : Fin 2048) (e : Fin 1024), (aspP (ix2 a e) : EReal) = if h : a.val < 2000 then (asp (ix2 (⟨a.val, h⟩ : Fin 2000) e) : EReal) else 0)
    (hW : ∀ (p : Fin 512) (a : Fin 2048), (wtP (ix2 p a) : EReal) = if h : a.val < 2000 then (g (ix2 p (⟨a.val, h⟩ : Fin 2000)) : EReal) else 0)
    (p : Fin 512) :
    mixAt f aspP wtP p = mixRefAt f asp g p := by
  unfold mixAt mixRefAt
  rw [Ideal.div_coe (by norm_num : (2000 : ℝ) ≠ 0)]
  congr 1
  -- one summand, as a function of the aspect's number
  let t : ℕ → EReal := fun i => if h : i < 2000 then
    (g (ix2 p (⟨i, h⟩ : Fin 2000)) : EReal) * (∑ e : Fin 1024, (f (ix2 p e) : EReal) * (asp (ix2 (⟨i, h⟩ : Fin 2000) e) : EReal)) else 0
  have hL : ∀ a : Fin 2048, (∑ e : Fin 1024, (f (ix2 p e) : EReal) * (aspP (ix2 a e) : EReal)) * (wtP (ix2 p a) : EReal) = t a.val := by
    intro a
    by_cases h : a.val < 2000
    · simp only [t, hW, hA, dif_pos h]
      exact mul_comm _ _
    · simp only [t, hW, dif_neg h, mul_zero]
  have hR : ∀ a : Fin 2000, (g (ix2 p a) : EReal) * (∑ e : Fin 1024, (f (ix2 p e) : EReal) * (asp (ix2 a e) : EReal)) = t a.val := by
    intro a
    simp only [t, dif_pos a.isLt]
  rw [Finset.sum_congr rfl (fun a _ => hL a), Finset.sum_congr rfl (fun a _ => hR a),
    Fin.sum_univ_eq_sum_range t 2048, Fin.sum_univ_eq_sum_range t 2000]
  refine (Finset.sum_subset (Finset.range_mono (by norm_num : 2000 ≤ 2048)) ?_).symm
  intro i _ hi
  have : ¬ i < 2000 := by simpa [Finset.mem_range] using hi
  simp only [t, dif_neg this]

end Cert.Spec

end
-- ==== Proof.lean ====
/-
  Equivalence of a three-stage Pallas pipeline with its jnp reference over the extended reals.

  The computation: h = leaky_relu(image · W1 + b1), im_ft = h · W2 + b2, and for every batch row the mean over the
  2000 aspects of brand_emb[brand][a] · (im_ft · aspects[a]). The kernel runs each stage as a grid pipeline that
  accumulates partial products in scratch over four reduction steps (resetting at the first, finishing at the last),
  pads the aspect axis to 2048 with zeros, clamps the brand index into the table, and multiplies the final sum by the
  reciprocal 1/2000; the reference contracts each stage at once, lets a negative index wrap, and divides by 2000.

  Over the extended reals a change of float format is the identity, sums regroup freely (addition is commutative and
  associative there, and 0 + x = x), x · 0 = 0 for every x (so the padding contributes nothing, finite or not), the
  leaky rectifier's two spellings (v > 0 against v ≥ 0) differ only at v = 0 where both give 0, and the quotient by
  the real 2000 is the product with 1/2000. For a brand index inside the table (the evident domain 0 ≤ brand < 10000,
  which the precondition states) the clamp and the wrap are both the identity, so the two programs gather the same
  rows; the gather itself is never opened.

  The frames: each region's body is run once per control case (first, middle, last reduction step) against proof data
  that names the accumulator after every grid point; the three regions and the host stretches between them are
  chained by the program's conditional frame. The reference is a host program, run operation by operation.
-/
import proofs.«408419_j40879498728834_3_alg».proof.Defs
import proofs.«408419_j40879498728834_3_alg».proof.Proof.Gen.Kernel
import proofs.«408419_j40879498728834_3_alg».proof.Proof.Gen.KernelIdeal
import proofs.«408419_j40879498728834_3_alg».proof.Proof.Gen.ReferenceIdeal
import proofs.«408419_j40879498728834_3_alg».proof.Proof.Gen.Pre_finite_inputs
import proofs.«408419_j40879498728834_3_alg».proof.Proof.WordLaunch
import proofs.«408419_j40879498728834_3_alg».proof.Proof.LaunchVal
import proofs.«408419_j40879498728834_3_alg».proof.Proof.HiddenValue
import proofs.«408419_j40879498728834_3_alg».proof.Proof.FeatValue
import proofs.«408419_j40879498728834_3_alg».proof.Proof.MixValue
import proofs.«408419_j40879498728834_3_alg».proof.Proof.HostGlue
import proofs.«408419_j40879498728834_3_alg».proof.Proof.PreRange
import proofs.«408419_j40879498728834_3_alg».proof.Proof.RefRun
import proofs.«408419_j40879498728834_3_alg».proof.Proof.RefValue
import proofs.«408419_j40879498728834_3_alg».proof.Proof.Bridge
import Idealize.ShloMosaic.PureOps.IdealRules
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames and the idealization -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run (Cert.ReferenceIdeal.defs (F := Ideal)) _ _).mono (fun _ h c => (h c).2) (Cert.ReferenceIdeal.Hand.run m ρ)

/-- The one named constant: the mean's reciprocal denotes the rational 1/2000 at the ideal instance. -/
theorem preserves : Cert.preserves_Kernel_KernelIdeal :=
  IdealRules.named_const.statement Cert.KernelIdeal.κ "inv_2000" .f32 0x3A03126F#32 ((1 / 2000 : ℝ) : EReal) rfl

/-! ## The kernel's result, entry by entry -/

section KernelEntry

open Cert.KernelIdeal Cert.KernelIdeal.Hand

/-- One entry of the kernel's result array: the three regions' arrays in the specification's form, each fed what the
    region before left and what the host operations laid out, and the padded mean folded to the 2000 true aspects. -/
theorem kernel_entry (m : (ℓ : Loc nD τ sig) → Buf (Elt Ideal) ℓ) (c : Dev nD)
    (hr : Cert.Spec.InRange (m ((c.tc : Thread nD τ).loc main_arg1))) (p : Fin 512) :
    (dat2 (F := Ideal) (ent2 m) c).arrAt 3 cfg2.N (ix2 p (0 : Fin 1))
      = Cert.Spec.mixRefAt
          (Cert.Spec.feat
            (Cert.Spec.hidden (m ((c.tc : Thread nD τ).loc main_arg0)) (m ((c.tc : Thread nD τ).loc main_arg2))
              (fun i => m ((c.tc : Thread nD τ).loc main_arg3) (ix1 (i 1))))
            (m ((c.tc : Thread nD τ).loc main_arg4)) (fun i => m ((c.tc : Thread nD τ).loc main_arg5) (ix1 (i 1))))
          (m ((c.tc : Thread nD τ).loc main_arg7))
          (kGathered (m ((c.tc : Thread nD τ).loc main_arg6)) (m ((c.tc : Thread nD τ).loc main_arg1))) p := by
  have h0 : (dat0 (F := Ideal) (ent0 m) c).arrAt 3 cfg0.N
      = Cert.Spec.hidden (m ((c.tc : Thread nD τ).loc main_arg0)) (m ((c.tc : Thread nD τ).loc main_arg2))
          (fun i => m ((c.tc : Thread nD τ).loc main_arg3) (ix1 (i 1))) := by
    rw [hidden_array (ent0 m) c, ent0_image m c, ent0_w1 m c]
    exact Cert.Spec.hidden_bias_congr _ _ _ _ (fun q => ent0_bias m c q)
  have h1 : (dat1 (F := Ideal) (ent1 m) c).arrAt 3 cfg1.N
      = Cert.Spec.feat (Cert.Spec.hidden (m ((c.tc : Thread nD τ).loc main_arg0)) (m ((c.tc : Thread nD τ).loc main_arg2))
          (fun i => m ((c.tc : Thread nD τ).loc main_arg3) (ix1 (i 1))))
          (m ((c.tc : Thread nD τ).loc main_arg4)) (fun i => m ((c.tc : Thread nD τ).loc main_arg5) (ix1 (i 1))) := by
    rw [feat_array (ent1 m) c, ent1_hidden m c, h0, ent1_w2 m c]
    exact Cert.Spec.feat_bias_congr _ _ _ _ (fun q => ent1_bias m c q)
  rw [mix_array (ent2 m) c, ent2_feat m c, h1]
  exact Cert.Spec.mixAt_padded _ _ _ _ _ (fun a e => ent2_aspects m c a e) (fun p a => ent2_weights m c hr p a) p

end KernelEntry

/-! ## The two programs agree -/

theorem algebraic : Cert.algebraic_KernelIdeal_ReferenceIdeal := by
  intro m ρ m' ρ' hpre hagree
  refine ⟨fun c => (Cert.KernelIdeal.Hand.dat2 (F := Ideal) (Cert.KernelIdeal.Hand.ent2 m) c).arrAt 3 Cert.KernelIdeal.cfg2.N,
    Cert.KernelIdeal.Hand.run_val m ρ, ?_⟩
  refine (θ_run (Cert.ReferenceIdeal.defs (F := Ideal)) _ _).mono (fun _ h c => ⟨(h c).1.trans ?_, (h c).2⟩)
    (Cert.ReferenceIdeal.Hand.run m' ρ')
  have hr : Cert.Spec.InRange (m ((c.tc : Thread Cert.KernelIdeal.nD Cert.KernelIdeal.τ).loc Cert.KernelIdeal.main_arg1)) :=
    Cert.Pre_finite_inputs.Hand.brand_in_range _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  funext i
  obtain ⟨p, q, rfl⟩ : ∃ (p : Fin 512) (q : Fin 1), i = ix2 p q := ⟨i 0, i 1, eq_ix2 i⟩
  obtain rfl : q = 0 := Subsingleton.elim _ _
  rw [Cert.ReferenceIdeal.Hand.refOut_apply _ _ _ _ _ _ _ _ hr p]
  exact (kernel_entry m c hr p).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
